-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S8x64 : Shape := ⟨2, ![8, 64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : IVec S8x64 1) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S8x64 : Shape := ⟨2, ![8, 64]⟩
abbrev S2x8x1 : Shape := ⟨3, ![2, 8, 1]⟩
abbrev S20000x64 : Shape := ⟨2, ![20000, 64]⟩
abbrev S1x8x1 : Shape := ⟨3, ![1, 8, 1]⟩
abbrev S8x20000 : Shape := ⟨2, ![8, 20000]⟩
abbrev S8 : Shape := ⟨1, ![8]⟩
abbrev S8x1 : Shape := ⟨2, ![8, 1]⟩
abbrev S2x8 : Shape := ⟨2, ![2, 8]⟩
abbrev S_ : Shape := ⟨0, ![]⟩
abbrev S2x8x10x10 : Shape := ⟨4, ![2, 8, 10, 10]⟩
abbrev S8000x64 : Shape := ⟨2, ![8000, 64]⟩
abbrev S1x8x10x10 : Shape := ⟨4, ![1, 8, 10, 10]⟩
abbrev S8x8000 : Shape := ⟨2, ![8, 8000]⟩
abbrev S1x1x10 : Shape := ⟨3, ![1, 1, 10]⟩
abbrev S8x8000x1 : Shape := ⟨3, ![8, 8000, 1]⟩
abbrev S8x8000x10 : Shape := ⟨3, ![8, 8000, 10]⟩
abbrev S8x10x10 : Shape := ⟨3, ![8, 10, 10]⟩
abbrev S8x1x1 : Shape := ⟨3, ![8, 1, 1]⟩
abbrev S8x10 : Shape := ⟨2, ![8, 10]⟩
abbrev S8x10x1 : Shape := ⟨3, ![8, 10, 1]⟩
abbrev S8x1x10 : Shape := ⟨3, ![8, 1, 10]⟩

abbrev nBuf : Space → Nat
  | .hbm => 65
  | .vmem => 22
  | .smem => 0
  | _ => 0

abbrev bufTy : (tb : Table) → Fin (tcTables nBuf tb) → BufTy
  | .hbm, ⟨0, _⟩ => ⟨S2000000x64, .f32⟩
  | .hbm, ⟨1, _⟩ => ⟨S8x64, .i1⟩
  | .hbm, ⟨2, _⟩ => ⟨S8x64, .f32⟩
  | .hbm, ⟨3, _⟩ => ⟨S2x8x1, .f32⟩
  | .hbm, ⟨4, _⟩ => ⟨S2x8x1, .f32⟩
  | .hbm, ⟨5, _⟩ => ⟨S2x8x1, .f32⟩
  | .hbm, ⟨6, _⟩ => ⟨S2x8x1, .f32⟩
  | .hbm, ⟨7, _⟩ => ⟨S2x8, .f32⟩
  | .hbm, ⟨8, _⟩ => ⟨S_, .f32⟩
  | .hbm, ⟨9, _⟩ => ⟨S8, .f32⟩
  | .hbm, ⟨10, _⟩ => ⟨S8x1, .f32⟩
  | .hbm, ⟨11, _⟩ => ⟨S2x8, .f32⟩
  | .hbm, ⟨12, _⟩ => ⟨S_, .f32⟩
  | .hbm, ⟨13, _⟩ => ⟨S8, .f32⟩
  | .hbm, ⟨14, _⟩ => ⟨S8x1, .f32⟩
  | .hbm, ⟨15, _⟩ => ⟨S2x8, .f32⟩
  | .hbm, ⟨16, _⟩ => ⟨S_, .f32⟩
  | .hbm, ⟨17, _⟩ => ⟨S8, .f32⟩
  | .hbm, ⟨18, _⟩ => ⟨S8x1, .f32⟩
  | .hbm, ⟨19, _⟩ => ⟨S2x8, .f32⟩
  | .hbm, ⟨20, _⟩ => ⟨S_, .f32⟩
  | .hbm, ⟨21, _⟩ => ⟨S8, .f32⟩
  | .hbm, ⟨22, _⟩ => ⟨S8x1, .f32⟩
  | .hbm, ⟨23, _⟩ => ⟨S_, .f32⟩
  | .hbm, ⟨24, _⟩ => ⟨S8, .f32⟩
  | .hbm, ⟨25, _⟩ => ⟨S8x1, .f32⟩
  | .hbm, ⟨26, _⟩ => ⟨S_, .f32⟩
  | .hbm, ⟨27, _⟩ => ⟨S8x1, .f32⟩
  | .hbm, ⟨28, _⟩ => ⟨S8x1, .f32⟩
  | .hbm, ⟨29, _⟩ => ⟨S2x8x10x10, .f32⟩
  | .hbm, ⟨30, _⟩ => ⟨S_, .f32⟩
  | .hbm, ⟨31, _⟩ => ⟨S8x10x10, .f32⟩
  | .hbm, ⟨32, _⟩ => ⟨S_, .f32⟩
  | .hbm, ⟨33, _⟩ => ⟨S8, .f32⟩
  | .hbm, ⟨34, _⟩ => ⟨S8x1x1, .f32⟩
  | .hbm, ⟨35, _⟩ => ⟨S_, .f32⟩
  | .hbm, ⟨36, _⟩ => ⟨S8x1x1, .f32⟩
  | .hbm, ⟨37, _⟩ => ⟨S8x1x1, .f32⟩
  | .hbm, ⟨38, _⟩ => ⟨S8x10x10, .f32⟩
  | .hbm, ⟨39, _⟩ => ⟨S8x10x10, .f32⟩
  | .hbm, ⟨40, _⟩ => ⟨S_, .f32⟩
  | .hbm, ⟨41, _⟩ => ⟨S8x10, .f32⟩
  | .hbm, ⟨42, _⟩ => ⟨S_, .f32⟩
  | .hbm, ⟨43, _⟩ => ⟨S8x10, .f32⟩
  | .hbm, ⟨44, _⟩ => ⟨S8x10x1, .f32⟩
  | .hbm, ⟨45, _⟩ => ⟨S8x1x10, .f32⟩
  | .hbm, ⟨46, _⟩ => ⟨S8x10x10, .f32⟩
  | .hbm, ⟨47, _⟩ => ⟨S8x10x10, .f32⟩
  | .hbm, ⟨48, _⟩ => ⟨S8x10x10, .f32⟩
  | .hbm, ⟨49, _⟩ => ⟨S_, .f32⟩
  | .hbm, ⟨50, _⟩ => ⟨S8x10x10, .f32⟩
  | .hbm, ⟨51, _⟩ => ⟨S8x10x10, .f32⟩
  | .hbm, ⟨52, _⟩ => ⟨S_, .f32⟩
  | .hbm, ⟨53, _⟩ => ⟨S8x10x10, .f32⟩
  | .hbm, ⟨54, _⟩ => ⟨S8x10x10, .f32⟩
  | .hbm, ⟨55, _⟩ => ⟨S8x10x10, .f32⟩
  | .hbm, ⟨56, _⟩ => ⟨S8x10x10, .f32⟩
  | .hbm, ⟨57, _⟩ => ⟨S8x10x10, .f32⟩
  | .hbm, ⟨58, _⟩ => ⟨S_, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S_, .f32⟩
  | .local _ .vmem, ⟨0, _⟩ => ⟨S20000x64, .f32⟩
  | .local _ .vmem, ⟨1, _⟩ => ⟨S20000x64, .f32⟩
  | .local _ .vmem, ⟨2, _⟩ => ⟨S8x64, .f32⟩
  | .local _ .vmem, ⟨3, _⟩ => ⟨S1x8x1, .f32⟩
  | .local _ .vmem, ⟨4, _⟩ => ⟨S1x8x1, .f32⟩
  | .local _ .vmem, ⟨5, _⟩ => ⟨S1x8x1, .f32⟩
  | .local _ .vmem, ⟨6, _⟩ => ⟨S1x8x1, .f32⟩
  | .local _ .vmem, ⟨7, _⟩ => ⟨S1x8x1, .f32⟩
  | .local _ .vmem, ⟨8, _⟩ => ⟨S1x8x1, .f32⟩
  | .local _ .vmem, ⟨9, _⟩ => ⟨S1x8x1, .f32⟩
  | .local _ .vmem, ⟨10, _⟩ => ⟨S1x8x1, .f32⟩
  | .local _ .vmem, ⟨11, _⟩ => ⟨S8000x64, .f32⟩
  | .local _ .vmem, ⟨12, _⟩ => ⟨S8000x64, .f32⟩
  | .local _ .vmem, ⟨13, _⟩ => ⟨S8x64, .f32⟩
  | .local _ .vmem, ⟨14, _⟩ => ⟨S8x1, .f32⟩
  | .local _ .vmem, ⟨15, _⟩ => ⟨S8x1, .f32⟩
  | .local _ .vmem, ⟨16, _⟩ => ⟨S8x1, .f32⟩
  | .local _ .vmem, ⟨17, _⟩ => ⟨S8x1, .f32⟩
  | .local _ .vmem, ⟨18, _⟩ => ⟨S8x1, .f32⟩
  | .local _ .vmem, ⟨19, _⟩ => ⟨S8x1, .f32⟩
  | .local _ .vmem, ⟨20, _⟩ => ⟨S1x8x10x10, .f32⟩
  | .local _ .vmem, ⟨21, _⟩ => ⟨S1x8x10x10, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 125], ![false, false]⟩

def cc1_transform_0 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x8x10x10 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  shapeCasts_S8x64_S8x64 : S8x64.ShapeCasts S8x64
  reduces_S8x20000_S8 : S8x20000.Reduces [1] S8
  shapeCasts_S8_S8x1 : S8.ShapeCasts S8x1
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  shapeCasts_S2x8x1_S2x8 : S2x8x1.ShapeCasts S2x8
  reducesTo_S2x8_S8_d0 : S2x8.ReducesTo [0] S8
  h_S_ : 0 < S_.numel
  bcast_S8_S8x1_0 : S8.BroadcastsInDim S8x1 (![0] : Fin 1 → Fin S8x1.rank)
  reducesTo_S8x64_S8_d1 : S8x64.ReducesTo [1] S8
  bcast_S_S8x1 : S_.BroadcastsInDim S8x1 (![] : Fin 0 → Fin S8x1.rank)
  inb_S8000x64_S8000x64_0_0 : ∀ a, (![0, 0] : Fin 2 → Nat) a + S8000x64.size a ≤ S8000x64.size a
  h_S8000x64 : 0 < S8000x64.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x8000 : S8x1.Broadcasts S8x8000
  iota_S1x1x10_d2_w32 : S1x1x10.Iotas .tc 32 [2]
  shapeCasts_S8x8000_S8x8000x1 : S8x8000.ShapeCasts S8x8000x1
  broadcasts_S8x8000x1_S8x8000x10 : S8x8000x1.Broadcasts S8x8000x10
  broadcasts_S1x1x10_S8x8000x10 : S1x1x10.Broadcasts S8x8000x10
  natLt_1_32 : 1 < 32
  inb_S1x8x10x10_S1x8x10x10_0_0_0_0 : ∀ a, (![0, 0, 0, 0] : Fin 4 → Nat) a + S1x8x10x10.size a ≤ S1x8x10x10.size a
  h_S1x8x10x10 : 0 < S1x8x10x10.numel
  shapeCasts_S1x8x10x10_S8x10x10 : S1x8x10x10.ShapeCasts S8x10x10
  shapeCasts_S8x10x10_S1x8x10x10 : S8x10x10.ShapeCasts S1x8x10x10
  reducesTo_S2x8x10x10_S8x10x10_d0 : S2x8x10x10.ReducesTo [0] S8x10x10
  reducesTo_S8x10x10_S8_d1_2 : S8x10x10.ReducesTo [1, 2] S8
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x10x10_0_1_2 : S8x1x1.BroadcastsInDim S8x10x10 (![0, 1, 2] : Fin 3 → Fin S8x10x10.rank)
  reducesTo_S8x10x10_S8x10_d2 : S8x10x10.ReducesTo [2] S8x10
  reducesTo_S8x10x10_S8x10_d1 : S8x10x10.ReducesTo [1] S8x10
  bcast_S8x10_S8x10x1_0_1 : S8x10.BroadcastsInDim S8x10x1 (![0, 1] : Fin 2 → Fin S8x10x1.rank)
  bcast_S8x10_S8x1x10_0_2 : S8x10.BroadcastsInDim S8x1x10 (![0, 2] : Fin 2 → Fin S8x1x10.rank)
  bcast_S8x10x1_S8x10x10_0_1_2 : S8x10x1.BroadcastsInDim S8x10x10 (![0, 1, 2] : Fin 3 → Fin S8x10x10.rank)
  bcast_S8x1x10_S8x10x10_0_1_2 : S8x1x10.BroadcastsInDim S8x10x10 (![0, 1, 2] : Fin 3 → Fin S8x10x10.rank)
  bcast_S_S8x10x10 : S_.BroadcastsInDim S8x10x10 (![] : Fin 0 → Fin S8x10x10.rank)
  bcast_S_S8 : S_.BroadcastsInDim S8 (![] : Fin 0 → Fin S8.rank)
  reducesTo_S8_S_d0 : S8.ReducesTo [0] S_
  dot_S8x64_S20000x64_S8x20000_1_1_0_0_n_n_wf : DotDims.WF S8x64 S20000x64 S8x20000 [1] [1] [0] [0] [] []
  dot_S8x64_S8000x64_S8x8000_1_1_0_0_n_n_wf : DotDims.WF S8x64 S8000x64 S8x8000 [1] [1] [0] [0] [] []
  dot_S8x8000x10_S8x8000x10_S8x10x10_1_1_2_2_0_0_wf : DotDims.WF S8x8000x10 S8x8000x10 S8x10x10 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S2000000x64.size a
  hwx0_0 : ∀ i : grid0.Coords, EltTy.bits .f32 = 32 ∨ (Rect.block (s := S2000000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1.size a ≤ S2x8x1.size a
  hwx0_2 : ∀ i : grid0.Coords, EltTy.bits .f32 = 32 ∨ (Rect.block (s := S2x8x1) S1x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1.size a ≤ S2x8x1.size a
  hwx0_3 : ∀ i : grid0.Coords, EltTy.bits .f32 = 32 ∨ (Rect.block (s := S2x8x1) S1x8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1.size a ≤ S2x8x1.size a
  hwx0_4 : ∀ i : grid0.Coords, EltTy.bits .f32 = 32 ∨ (Rect.block (s := S2x8x1) S1x8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x1.size a ≤ S2x8x1.size a
  hwx0_5 : ∀ i : grid0.Coords, EltTy.bits .f32 = 32 ∨ (Rect.block (s := S2x8x1) S1x8x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S2000000x64.size a
  hwx1_0 : ∀ i : grid1.Coords, EltTy.bits .f32 = 32 ∨ (Rect.block (s := S2000000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S8x64.size a
  hwx1_1 : ∀ i : grid1.Coords, EltTy.bits .f32 = 32 ∨ (Rect.block (s := S8x64) S8x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S8x1.size a
  hwx1_2 : ∀ i : grid1.Coords, EltTy.bits .f32 = 32 ∨ (Rect.block (s := S8x1) S8x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1.size a ≤ S8x1.size a
  hwx1_3 : ∀ i : grid1.Coords, EltTy.bits .f32 = 32 ∨ (Rect.block (s := S8x1) S8x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x1.size a ≤ S8x1.size a
  hwx1_5 : ∀ i : grid1.Coords, EltTy.bits .f32 = 32 ∨ (Rect.block (s := S8x1) S8x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x1.size a ≤ S8x1.size a
  hwx1_6 : ∀ i : grid1.Coords, EltTy.bits .f32 = 32 ∨ (Rect.block (s := S8x1) S8x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x1.size a ≤ S8x1.size a
  hwx1_7 : ∀ i : grid1.Coords, EltTy.bits .f32 = 32 ∨ (Rect.block (s := S8x1) S8x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x8x10x10.size a ≤ S2x8x10x10.size a
  hwx1_8 : ∀ i : grid1.Coords, EltTy.bits .f32 = 32 ∨ (Rect.block (s := S2x8x10x10) S1x8x10x10.size (cc1_transform_8 i) (hinb1_8 i)).WholeWords (EltTy.packing .f32)

variable [Facts₀]

def dot_S8x64_S20000x64_S8x20000_1_1_0_0_n_n : DotDims S8x64 S20000x64 S8x20000 where
  lhsContracting := [1]
  rhsContracting := [1]
  lhsNonContracting := [0]
  rhsNonContracting := [0]
  lhsBatch := []
  rhsBatch := []
  wf := dot_S8x64_S20000x64_S8x20000_1_1_0_0_n_n_wf
def dot_S8x64_S8000x64_S8x8000_1_1_0_0_n_n : DotDims S8x64 S8000x64 S8x8000 where
  lhsContracting := [1]
  rhsContracting := [1]
  lhsNonContracting := [0]
  rhsNonContracting := [0]
  lhsBatch := []
  rhsBatch := []
  wf := dot_S8x64_S8000x64_S8x8000_1_1_0_0_n_n_wf
def dot_S8x8000x10_S8x8000x10_S8x10x10_1_1_2_2_0_0 : DotDims S8x8000x10 S8x8000x10 S8x10x10 where
  lhsContracting := [1]
  rhsContracting := [1]
  lhsNonContracting := [2]
  rhsNonContracting := [2]
  lhsBatch := [0]
  rhsBatch := [0]
  wf := dot_S8x8000x10_S8x8000x10_S8x10x10_1_1_2_2_0_0_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S1x8x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S8x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S8x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S8x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S8x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x8x10x10.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2000000x64 : Shape := ⟨2, ![2000000, 64]⟩
abbrev S8x64 : Shape := ⟨2, ![8, 64]⟩
abbrev S_ : Shape := ⟨0, ![]⟩
abbrev S8 : Shape := ⟨1, ![8]⟩
abbrev S8x1 : Shape := ⟨2, ![8, 1]⟩
abbrev S8x2000000 : Shape := ⟨2, ![8, 2000000]⟩
abbrev S8x10x10 : Shape := ⟨3, ![8, 10, 10]⟩
abbrev S8x2000000x1 : Shape := ⟨3, ![8, 2000000, 1]⟩
abbrev S8x2000000x3 : Shape := ⟨3, ![8, 2000000, 3]⟩
abbrev S8x1x1 : Shape := ⟨3, ![8, 1, 1]⟩
abbrev S8x10 : Shape := ⟨2, ![8, 10]⟩
abbrev S8x10x1 : Shape := ⟨3, ![8, 10, 1]⟩
abbrev S8x1x10 : Shape := ⟨3, ![8, 1, 10]⟩

abbrev nBuf : Space → Nat
  | .hbm => 136
  | .vmem => 0
  | .smem => 0
  | _ => 0

abbrev hbmTy0_0 (i : Nat) : BufTy := match i % 128 with
  | 0 => ⟨S2000000x64, .f32⟩
  | 1 => ⟨S8x64, .i1⟩
  | 2 => ⟨S8x64, .f32⟩
  | 3 => ⟨S_, .f32⟩
  | 4 => ⟨S8x64, .f32⟩
  | 5 => ⟨S8x64, .f32⟩
  | 6 => ⟨S_, .f32⟩
  | 7 => ⟨S8, .f32⟩
  | 8 => ⟨S8x1, .f32⟩
  | 9 => ⟨S_, .f32⟩
  | 10 => ⟨S8, .f32⟩
  | 11 => ⟨S8x1, .f32⟩
  | 12 => ⟨S8x2000000, .f32⟩
  | 13 => ⟨S8x2000000, .f32⟩
  | 14 => ⟨S8x2000000, .f32⟩
  | 15 => ⟨S8x2000000, .f32⟩
  | 16 => ⟨S_, .f32⟩
  | 17 => ⟨S8, .f32⟩
  | 18 => ⟨S8x1, .f32⟩
  | 19 => ⟨S_, .f32⟩
  | 20 => ⟨S8, .f32⟩
  | 21 => ⟨S8x1, .f32⟩
  | 22 => ⟨S8x2000000, .f32⟩
  | 23 => ⟨S8x2000000, .f32⟩
  | 24 => ⟨S8x1, .f32⟩
  | 25 => ⟨S_, .f32⟩
  | 26 => ⟨S8x1, .f32⟩
  | 27 => ⟨S8x1, .f32⟩
  | 28 => ⟨S8x2000000, .f32⟩
  | 29 => ⟨S8x2000000, .f32⟩
  | 30 => ⟨S8x2000000, .f32⟩
  | 31 => ⟨S8x2000000, .f32⟩
  | 32 => ⟨S_, .f32⟩
  | 33 => ⟨S8, .f32⟩
  | 34 => ⟨S8x1, .f32⟩
  | 35 => ⟨S_, .f32⟩
  | 36 => ⟨S8, .f32⟩
  | 37 => ⟨S8x1, .f32⟩
  | 38 => ⟨S8x2000000, .f32⟩
  | 39 => ⟨S8x2000000, .f32⟩
  | 40 => ⟨S8x1, .f32⟩
  | 41 => ⟨S_, .f32⟩
  | 42 => ⟨S8x1, .f32⟩
  | 43 => ⟨S8x1, .f32⟩
  | 44 => ⟨S8x2000000, .f32⟩
  | 45 => ⟨S8x2000000, .f32⟩
  | 46 => ⟨S_, .f32⟩
  | 47 => ⟨S8x2000000, .f32⟩
  | 48 => ⟨S8x2000000, .f32⟩
  | 49 => ⟨S8x2000000, .i32⟩
  | 50 => ⟨S_, .i32⟩
  | 51 => ⟨S_, .i32⟩
  | 52 => ⟨S_, .i32⟩
  | 53 => ⟨S8x2000000, .i32⟩
  | 54 => ⟨S8x2000000, .i32⟩
  | 55 => ⟨S_, .i32⟩
  | 56 => ⟨S8x2000000, .i32⟩
  | 57 => ⟨S8x2000000, .i32⟩
  | 58 => ⟨S_, .f32⟩
  | 59 => ⟨S8x2000000, .f32⟩
  | 60 => ⟨S8x2000000, .f32⟩
  | 61 => ⟨S8x2000000, .i32⟩
  | 62 => ⟨S_, .i32⟩
  | 63 => ⟨S_, .i32⟩
  | 64 => ⟨S_, .i32⟩
  | 65 => ⟨S8x2000000, .i32⟩
  | 66 => ⟨S8x2000000, .i32⟩
  | 67 => ⟨S_, .i32⟩
  | 68 => ⟨S8x2000000, .i32⟩
  | 69 => ⟨S8x2000000, .i32⟩
  | 70 => ⟨S8, .i32⟩
  | 71 => ⟨S8x1, .i32⟩
  | 72 => ⟨S8x2000000, .i32⟩
  | 73 => ⟨S_, .f32⟩
  | 74 => ⟨S8x10x10, .f32⟩
  | 75 => ⟨S_, .i32⟩
  | 76 => ⟨S8x2000000, .i32⟩
  | 77 => ⟨S8x2000000, .i1⟩
  | 78 => ⟨S_, .i32⟩
  | 79 => ⟨S8x2000000, .i32⟩
  | 80 => ⟨S8x2000000, .i32⟩
  | 81 => ⟨S8x2000000, .i32⟩
  | 82 => ⟨S_, .i32⟩
  | 83 => ⟨S8x2000000, .i32⟩
  | 84 => ⟨S8x2000000, .i1⟩
  | 85 => ⟨S_, .i32⟩
  | 86 => ⟨S8x2000000, .i32⟩
  | 87 => ⟨S8x2000000, .i32⟩
  | 88 => ⟨S8x2000000, .i32⟩
  | 89 => ⟨S_, .i32⟩
  | 90 => ⟨S8x2000000, .i32⟩
  | 91 => ⟨S8x2000000, .i1⟩
  | 92 => ⟨S_, .i32⟩
  | 93 => ⟨S8x2000000, .i32⟩
  | 94 => ⟨S8x2000000, .i32⟩
  | 95 => ⟨S8x2000000, .i32⟩
  | 96 => ⟨S8x2000000x1, .i32⟩
  | 97 => ⟨S8x2000000x1, .i32⟩
  | 98 => ⟨S8x2000000x1, .i32⟩
  | 99 => ⟨S8x2000000x3, .i32⟩
  | 100 => ⟨S_, .f32⟩
  | 101 => ⟨S8x2000000, .f32⟩
  | 102 => ⟨S8x10x10, .f32⟩
  | 103 => ⟨S_, .f32⟩
  | 104 => ⟨S8, .f32⟩
  | 105 => ⟨S8x1x1, .f32⟩
  | 106 => ⟨S_, .f32⟩
  | 107 => ⟨S8x1x1, .f32⟩
  | 108 => ⟨S8x1x1, .f32⟩
  | 109 => ⟨S8x10x10, .f32⟩
  | 110 => ⟨S8x10x10, .f32⟩
  | 111 => ⟨S_, .f32⟩
  | 112 => ⟨S8x10, .f32⟩
  | 113 => ⟨S_, .f32⟩
  | 114 => ⟨S8x10, .f32⟩
  | 115 => ⟨S8x10x1, .f32⟩
  | 116 => ⟨S8x1x10, .f32⟩
  | 117 => ⟨S8x10x10, .f32⟩
  | 118 => ⟨S8x10x10, .f32⟩
  | 119 => ⟨S8x10x10, .f32⟩
  | 120 => ⟨S_, .f32⟩
  | 121 => ⟨S8x10x10, .f32⟩
  | 122 => ⟨S8x10x10, .f32⟩
  | 123 => ⟨S_, .f32⟩
  | 124 => ⟨S8x10x10, .f32⟩
  | 125 => ⟨S8x10x10, .f32⟩
  | 126 => ⟨S8x10x10, .f32⟩
  | 127 => ⟨S8x10x10, .f32⟩
  | _ => ⟨S2000000x64, .f32⟩

abbrev hbmTy0_1 (i : Nat) : BufTy := match i % 128 with
  | 0 => ⟨S8x10x10, .f32⟩
  | 1 => ⟨S_, .f32⟩
  | 2 => ⟨S8, .f32⟩
  | 3 => ⟨S_, .f32⟩
  | 4 => ⟨S8, .f32⟩
  | 5 => ⟨S8, .f32⟩
  | 6 => ⟨S_, .f32⟩
  | 7 => ⟨S_, .f32⟩
  | _ => ⟨S2000000x64, .f32⟩

abbrev hbmTy (i : Nat) : BufTy := match i / 128 with
  | 0 => hbmTy0_0 i
  | 1 => hbmTy0_1 i
  | _ => ⟨S2000000x64, .f32⟩

abbrev bufTy : (tb : Table) → Fin (tcTables nBuf tb) → BufTy
  | .hbm, ⟨i, _⟩ => hbmTy i
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_c_9 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_c_12 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_13 : Ref sig .tc := ⟨.hbm, 73, rfl⟩
abbrev main_v46 : Ref sig .tc := ⟨.hbm, 74, rfl⟩
abbrev main_c_14 : Ref sig .tc := ⟨.hbm, 75, rfl⟩
abbrev main_v47 : Ref sig .tc := ⟨.hbm, 76, rfl⟩
abbrev main_v48 : Ref sig .tc := ⟨.hbm, 77, rfl⟩
abbrev main_c_15 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_16 : Ref sig .tc := ⟨.hbm, 82, rfl⟩
abbrev main_v52 : Ref sig .tc := ⟨.hbm, 83, rfl⟩
abbrev main_v53 : Ref sig .tc := ⟨.hbm, 84, rfl⟩
abbrev main_c_17 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_18 : Ref sig .tc := ⟨.hbm, 89, rfl⟩
abbrev main_v57 : Ref sig .tc := ⟨.hbm, 90, rfl⟩
abbrev main_v58 : Ref sig .tc := ⟨.hbm, 91, rfl⟩
abbrev main_c_19 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_20 : Ref sig .tc := ⟨.hbm, 100, rfl⟩
abbrev main_v66 : Ref sig .tc := ⟨.hbm, 101, rfl⟩
abbrev main_v67 : Ref sig .tc := ⟨.hbm, 102, rfl⟩
abbrev main_cst_21 : Ref sig .tc := ⟨.hbm, 103, rfl⟩
abbrev main_v68 : Ref sig .tc := ⟨.hbm, 104, rfl⟩
abbrev main_v69 : Ref sig .tc := ⟨.hbm, 105, rfl⟩
abbrev main_cst_22 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_23 : Ref sig .tc := ⟨.hbm, 111, rfl⟩
abbrev main_v74 : Ref sig .tc := ⟨.hbm, 112, rfl⟩
abbrev main_cst_24 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_25 : Ref sig .tc := ⟨.hbm, 120, rfl⟩
abbrev main_v81 : Ref sig .tc := ⟨.hbm, 121, rfl⟩
abbrev main_v82 : Ref sig .tc := ⟨.hbm, 122, rfl⟩
abbrev main_cst_26 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_27 : Ref sig .tc := ⟨.hbm, 129, rfl⟩
abbrev main_v88 : Ref sig .tc := ⟨.hbm, 130, rfl⟩
abbrev main_cst_28 : Ref sig .tc := ⟨.hbm, 131, rfl⟩
abbrev main_v89 : Ref sig .tc := ⟨.hbm, 132, rfl⟩
abbrev main_v90 : Ref sig .tc := ⟨.hbm, 133, rfl⟩
abbrev main_cst_29 : Ref sig .tc := ⟨.hbm, 134, rfl⟩
abbrev main_v91 : Ref sig .tc := ⟨.hbm, 135, rfl⟩

abbrev nD : Nat := 1
abbrev τ : Topo := Topo.v7x

variable {F : FTy → Type} [FloatOps F]

class Facts₀ : Prop where
  bcast_S_S8x64 : S_.BroadcastsInDim S8x64 (![] : Fin 0 → Fin S8x64.rank)
  reducesTo_S8x64_S8_d1 : S8x64.ReducesTo [1] S8
  h_S_ : 0 < S_.numel
  bcast_S8_S8x1_0 : S8.BroadcastsInDim S8x1 (![0] : Fin 1 → Fin S8x1.rank)
  bcast_S8x1_S8x2000000_0_1 : S8x1.BroadcastsInDim S8x2000000 (![0, 1] : Fin 2 → Fin S8x2000000.rank)
  reducesTo_S8x2000000_S8_d1 : S8x2000000.ReducesTo [1] S8
  bcast_S_S8x1 : S_.BroadcastsInDim S8x1 (![] : Fin 0 → Fin S8x1.rank)
  bcast_S_S8x2000000 : S_.BroadcastsInDim S8x2000000 (![] : Fin 0 → Fin S8x2000000.rank)
  bcast_S_S8x10x10 : S_.BroadcastsInDim S8x10x10 (![] : Fin 0 → Fin S8x10x10.rank)
  bcast_S8x2000000_S8x2000000x1_0_1 : S8x2000000.BroadcastsInDim S8x2000000x1 (![0, 1] : Fin 2 → Fin S8x2000000x1.rank)
  concatenates_S8x2000000x1_S8x2000000x1_S8x2000000x1_S8x2000000x3_d2 : Shape.Concatenates [S8x2000000x1, S8x2000000x1, S8x2000000x1] S8x2000000x3 2
  reducesTo_S8x10x10_S8_d1_2 : S8x10x10.ReducesTo [1, 2] S8
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x10x10_0_1_2 : S8x1x1.BroadcastsInDim S8x10x10 (![0, 1, 2] : Fin 3 → Fin S8x10x10.rank)
  reducesTo_S8x10x10_S8x10_d2 : S8x10x10.ReducesTo [2] S8x10
  reducesTo_S8x10x10_S8x10_d1 : S8x10x10.ReducesTo [1] S8x10
  bcast_S8x10_S8x10x1_0_1 : S8x10.BroadcastsInDim S8x10x1 (![0, 1] : Fin 2 → Fin S8x10x1.rank)
  bcast_S8x10_S8x1x10_0_2 : S8x10.BroadcastsInDim S8x1x10 (![0, 2] : Fin 2 → Fin S8x1x10.rank)
  bcast_S8x10x1_S8x10x10_0_1_2 : S8x10x1.BroadcastsInDim S8x10x10 (![0, 1, 2] : Fin 3 → Fin S8x10x10.rank)
  bcast_S8x1x10_S8x10x10_0_1_2 : S8x1x10.BroadcastsInDim S8x10x10 (![0, 1, 2] : Fin 3 → Fin S8x10x10.rank)
  bcast_S_S8 : S_.BroadcastsInDim S8 (![] : Fin 0 → Fin S8.rank)
  reducesTo_S8_S_d0 : S8.ReducesTo [0] S_
  dot_S8x64_S2000000x64_S8x2000000_1_1_0_0_n_n_wf : DotDims.WF S8x64 S2000000x64 S8x2000000 [1] [1] [0] [0] [] []
  scatter_S8x10x10_S8x2000000x3_S8x2000000_n_012_012_2_wf : ScatterDims.WF S8x10x10 S8x2000000x3 S8x2000000 [] [0, 1, 2] [0, 1, 2] 2

variable [Facts₀]

def dot_S8x64_S2000000x64_S8x2000000_1_1_0_0_n_n : DotDims S8x64 S2000000x64 S8x2000000 where
  lhsContracting := [1]
  rhsContracting := [1]
  lhsNonContracting := [0]
  rhsNonContracting := [0]
  lhsBatch := []
  rhsBatch := []
  wf := dot_S8x64_S2000000x64_S8x2000000_1_1_0_0_n_n_wf
def scatter_S8x10x10_S8x2000000x3_S8x2000000_n_012_012_2 : ScatterDims S8x10x10 S8x2000000x3 S8x2000000 where
  updateWindowDims := []
  insertedWindowDims := [0, 1, 2]
  scatterDimsToOperandDims := [0, 1, 2]
  indexVectorDim := 2
  wf := scatter_S8x10x10_S8x2000000x3_S8x2000000_n_012_012_2_wf

class Facts : Prop extends Facts₀ where

variable [Facts]
-- ==== Proof.Spec.lean ====
/-
  The mathematics both programs compute, stated once over plain index types.

  Inputs: `x`, a 2000000 × 64 array of extended reals, and `mk`, an 8 × 64 mask already converted to floats
  (each entry 0 or 1).  For partition `p` and row `t`:
    sA p t = ∑_d mk p d · x t d              (sum over the columns the mask selects)
    sB p t = ∑_d (1 − mk p d) · x t d        (sum over the others)
    cA p   = ∑_d mk p d,   cB p = ∑_d (1 − mk p d)   (how many columns each side has).
  Each row sum is min–max normalised over `t`, scaled by ten, truncated to an integer and clipped to 0 … 9: its bin.
  One program normalises the raw sums with the offset scaled by the count (`binK`); the other divides by the count
  first and then normalises (`binR`).  The joint histogram counts, for each partition, the rows whose two bins are
  `(i, j)`.
-/
import Idealize.ShloMosaic.PureOps.Ideal
import Idealize.ShloMosaic.Lib.ValueIdx

noncomputable section

namespace Cert.MI

open Idealize.ShloMosaic Idealize.ShloMosaic.ValueIdx

abbrev SX : Shape := ⟨2, ![2000000, 64]⟩
abbrev SM : Shape := ⟨2, ![8, 64]⟩
abbrev SJ : Shape := ⟨3, ![8, 10, 10]⟩

/-- The float constants of the two programs, as the extended reals their patterns denote. -/
def one : EReal := Ideal.ofBits .f32 0x3F800000#32
def eps : EReal := Ideal.ofBits .f32 0x358637BD#32
def ten : EReal := Ideal.ofBits .f32 0x41200000#32
def c64 : EReal := Ideal.ofBits .f32 0x42800000#32

/-- Row `t` summed over the columns partition `p` selects. -/
def sA (x : SX.Idx → EReal) (mk : SM.Idx → EReal) (p : Fin 8) (t : Fin 2000000) : EReal :=
  ∑ d : Fin 64, mk (ix2 p d) * x (ix2 t d)

/-- Row `t` summed over the columns partition `p` leaves out. -/
def sB (x : SX.Idx → EReal) (mk : SM.Idx → EReal) (p : Fin 8) (t : Fin 2000000) : EReal :=
  ∑ d : Fin 64, (one - mk (ix2 p d)) * x (ix2 t d)

/-- How many columns partition `p` selects, and how many it leaves out. -/
def cA (mk : SM.Idx → EReal) (p : Fin 8) : EReal := ∑ d : Fin 64, mk (ix2 p d)
def cB (mk : SM.Idx → EReal) (p : Fin 8) : EReal := ∑ d : Fin 64, (one - mk (ix2 p d))

/-- Row `u` of half `cc`: the rows are split in two halves of a million. -/
def glue (cc : Fin 2) (u : Fin 1000000) : Fin 2000000 := ⟨cc.val * 1000000 + u.val, by have := cc.isLt; have := u.isLt; omega⟩

/-- The least and the greatest value of a family over all rows (`⊤` and `⊥` are the neutral elements). -/
def lo (s : Fin 2000000 → EReal) : EReal := Finset.univ.inf s
def hi (s : Fin 2000000 → EReal) : EReal := Finset.univ.sup s
/-- The same over one half of the rows. -/
def lo2 (s : Fin 2000000 → EReal) (cc : Fin 2) : EReal := Finset.univ.inf fun u : Fin 1000000 => s (glue cc u)
def hi2 (s : Fin 2000000 → EReal) (cc : Fin 2) : EReal := Finset.univ.sup fun u : Fin 1000000 => s (glue cc u)

/-- Clip a signed 32-bit integer to 0 … 9. -/
def clip9 (b : BitVec 32) : BitVec 32 := IntOp.minsi 9#32 (IntOp.maxsi 0#32 b)

/-- The bin of a value `s` normalised by a given least value, greatest value and count:
    `clip (trunc (((s − mn) / (mx − mn + ε · cnt)) · 10))`. -/
def binG (s mn mx cnt : EReal) : BitVec 32 :=
  clip9 (Ideal.fptosi 32 (Ideal.div (s - mn) (mx - mn + eps * cnt) * ten))

/-- The bin of row `t` when the raw sums are normalised by their own extremes and the count scales the offset. -/
def binK (s : Fin 2000000 → EReal) (cnt : EReal) (t : Fin 2000000) : BitVec 32 := binG (s t) (lo s) (hi s) cnt

/-- The bin of row `t` when the sums are first divided by the count and then normalised with the bare offset. -/
def binR (s : Fin 2000000 → EReal) (cnt : EReal) (t : Fin 2000000) : BitVec 32 :=
  clip9 (Ideal.fptosi 32 (Ideal.div (Ideal.div (s t) cnt - lo fun u => Ideal.div (s u) cnt)
    ((hi fun u => Ideal.div (s u) cnt) - (lo fun u => Ideal.div (s u) cnt) + eps) * ten))

/-- One if the bin is `i`, else zero. -/
def oh (b : BitVec 32) (i : Fin 10) : EReal := if b = BitVec.ofNat 32 i.val then 1 else 0

/-- The joint histogram of two bin assignments: for partition `p`, how many rows have bins `(i, j)`. -/
def joint (xb yb : Fin 8 → Fin 2000000 → BitVec 32) (p : Fin 8) (i j : Fin 10) : EReal :=
  ∑ t : Fin 2000000, oh (xb p t) i * oh (yb p t) j

/-- The histogram from bins of the first kind (the second count written as 64 minus the first). -/
def KJ (x : SX.Idx → EReal) (mk : SM.Idx → EReal) : SJ.Idx → EReal := fun q =>
  joint (fun p => binK (sA x mk p) (cA mk p)) (fun p => binK (sB x mk p) (c64 - cA mk p)) (q 0) (q 1) (q 2)

/-- The histogram from bins of the second kind. -/
def RJ (x : SX.Idx → EReal) (mk : SM.Idx → EReal) : SJ.Idx → EReal := fun q =>
  joint (fun p => binR (sA x mk p) (cA mk p)) (fun p => binR (sB x mk p) (cB mk p)) (q 0) (q 1) (q 2)

end Cert.MI

end
-- ==== Proof.KPay0.lean ====
/-
  The first kernel's arithmetic on one tile of 20000 rows, read at one partition: the running least and greatest
  values it stores, over what the buffers held.

  The tile's row sums are a product of the mask (or of one minus the mask) with the tile, both contracted on their
  last axis; a lane reduction takes each partition's least or greatest row sum; the result, a vector of length 8, is
  recast as a column and merged by min or max with the running column, itself a recast of the [1, 8, 1] buffer.
  The general facts come first, over arbitrary extents: a fold of min from plus infinity is an infimum, the product
  read at (r, c), a row's least and greatest value, and a vector recast as a column.
-/
import proofs.«135964_j5007931867607_1_alg».proof.Proof.Gen.KernelIdeal.Frame
import proofs.«135964_j5007931867607_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert

/-! ## General facts, over arbitrary extents -/

/-- Folding `min` from plus infinity over a finite family is the family's infimum. -/
theorem KPay0_fold_min_top_eq_inf {ι : Type} (s : Finset ι) (f : ι → EReal) : s.fold min ⊤ f = s.inf f := by
  classical
  induction s using Finset.induction_on with
  | empty => simp
  | insert a s ha ih => rw [Finset.fold_insert ha, Finset.inf_insert, ih]

/-- Folding `max` from minus infinity over a finite family is the family's supremum. -/
theorem KPay0_fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

theorem KPay0_ofBits_posInf : Ideal.ofBits .f32 0x7F800000#32 = (⊤ : EReal) := by simp [Ideal.ofBits, Ideal.ieee]
theorem KPay0_ofBits_negInf : Ideal.ofBits .f32 0xFF800000#32 = (⊥ : EReal) := by simp [Ideal.ofBits, Ideal.ieee]

/-- An [M, K] by [N, K] product, both operands contracted on their last axis, into the zero accumulator, read at
    (r, c): the sum over k of lhs (r, k) * rhs (c, k). -/
theorem KPay0_matmul_lastAxes_apply {φ₁ φ₂ : FTy} (M K N : Nat) (lhs : FVec Ideal ⟨2, ![M, K]⟩ φ₁) (rhs : FVec Ideal ⟨2, ![N, K]⟩ φ₂)
    (r : Fin M) (c : Fin N) :
    matmul (DotDims.transposedRhs M K N) none lhs rhs (constant ⟨2, ![M, N]⟩ .f32 0x00000000#32) (ix2 r c)
      = ∑ k : Fin K, lhs (ix2 r k) * rhs (ix2 c k) := by
  show FloatOps.matmul (DotDims.transposedRhs M K N) none lhs rhs (constant ⟨2, ![M, N]⟩ .f32 0x00000000#32) (ix2 r c) = _
  rw [Ideal.matmul_constant_zero_apply, ← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 r c) ((ValueIdx.contrEquiv1 (DotDims.transposedRhs M K N) K rfl rfl).symm k) = ix2 r k :=
    funext fun a => Fin.ext (by
      match a with
      | ⟨0, _⟩ => rfl
      | ⟨1, _⟩ => exact hk)
  have er : (DotDims.transposedRhs M K N).rhsIdx (ix2 r c) ((ValueIdx.contrEquiv1 (DotDims.transposedRhs M K N) K rfl rfl).symm k) = ix2 c k :=
    funext fun a => Fin.ext (by
      match a with
      | ⟨0, _⟩ => rfl
      | ⟨1, _⟩ => exact hk)
  rw [el, er]

/-- The source index of a lane reduction of an [M, N] vector over its second axis: (p, k) over p. -/
theorem KPay0_lift_rows {M N : Nat} (h : (⟨2, ![M, N]⟩ : Shape).Reduces [1] ⟨1, ![M]⟩) (p : Fin M) (k : Fin N) :
    h.lift (ix1 p) k = ix2 p k :=
  funext fun a => Fin.ext (by
    match a with
    | ⟨0, _⟩ => rfl
    | ⟨1, _⟩ => rfl)

/-- A row's least value: the lane reduction by minimum from plus infinity of an [M, N] vector, read at p. -/
theorem KPay0_rowMin_apply {M N : Nat} (src : FVec Ideal ⟨2, ![M, N]⟩ .f32) (h : (⟨2, ![M, N]⟩ : Shape).Reduces [1] ⟨1, ![M]⟩)
    (hφ : FKind.Formats .f32) (hacc : (0x7F800000#32 : BitVec 32) = FKind.minimumf.neutral .f32 hφ) (p : Fin M) :
    multiReduction .minimumf [1] ⟨1, ![M]⟩ src 0x7F800000#32 h hφ hacc (ix1 p) = Finset.univ.inf fun k : Fin N => src (ix2 p k) := by
  rw [multiReduction_minimumf_eq_fold]
  refine (h.fold_filter_drop_single _ _ src (ix1 p)).trans ?_
  refine (congrArg (fun b => Finset.fold min b (src ∘ h.lift (ix1 p)) Finset.univ) KPay0_ofBits_posInf).trans ?_
  refine (KPay0_fold_min_top_eq_inf _ _).trans ?_
  exact congrArg (Finset.univ.inf) (funext fun k => congrArg src (KPay0_lift_rows h p k))

/-- A row's greatest value: the lane reduction by maximum from minus infinity. -/
theorem KPay0_rowMax_apply {M N : Nat} (src : FVec Ideal ⟨2, ![M, N]⟩ .f32) (h : (⟨2, ![M, N]⟩ : Shape).Reduces [1] ⟨1, ![M]⟩)
    (hφ : FKind.Formats .f32) (hacc : (0xFF800000#32 : BitVec 32) = FKind.maximumf.neutral .f32 hφ) (p : Fin M) :
    multiReduction .maximumf [1] ⟨1, ![M]⟩ src 0xFF800000#32 h hφ hacc (ix1 p) = Finset.univ.sup fun k : Fin N => src (ix2 p k) := by
  rw [multiReduction_maximumf_eq_fold]
  refine (h.fold_filter_drop_single _ _ src (ix1 p)).trans ?_
  refine (congrArg (fun b => Finset.fold max b (src ∘ h.lift (ix1 p)) Finset.univ) KPay0_ofBits_negInf).trans ?_
  refine (KPay0_fold_max_bot_eq_sup _ _).trans ?_
  exact congrArg (Finset.univ.sup) (funext fun k => congrArg src (KPay0_lift_rows h p k))

/-- A vector of length a recast as a column [a, 1] reads, at (i, u), the operand at i. -/
theorem KPay0_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The tile's payloads -/

variable (x0 : Vec Ideal S20000x64 .f32) (x1 : Vec Ideal S8x64 .f32) (acc : Vec Ideal S1x8x1 .f32) (p : Fin 8)

/-- The selected-column sums: entry (p, r) of the first product is the sum over the columns of mask times tile. -/
theorem KPay0_pay6_apply (r : Fin 20000) :
    k0_pay6 (F := Ideal) x0 x1 (ix2 p r) = ∑ d : Fin 64, x1 (ix2 p d) * x0 (ix2 r d) := by
  unfold k0_pay6 k0_pay5 k0_pay4
  refine (KPay0_matmul_lastAxes_apply 8 64 20000 _ _ p r).trans ?_
  refine Finset.sum_congr rfl fun d _ => ?_
  show shapeCast S8x64 x1 shapeCasts_S8x64_S8x64 (ix2 p d) * x0 (ix2 r d) = _
  rw [shapeCast_self]

/-- The left-out-column sums: the second product has one minus the mask in the mask's place. -/
theorem KPay0_pay7_apply (r : Fin 20000) :
    k0_pay7 (F := Ideal) x0 x1 (ix2 p r) = ∑ d : Fin 64, (MI.one - x1 (ix2 p d)) * x0 (ix2 r d) := by
  unfold k0_pay7 k0_pay5 k0_pay4
  refine (KPay0_matmul_lastAxes_apply 8 64 20000 _ _ p r).trans ?_
  refine Finset.sum_congr rfl fun d _ => ?_
  show (Ideal.ofBits .f32 0x3F800000#32 - shapeCast S8x64 x1 shapeCasts_S8x64_S8x64 (ix2 p d)) * x0 (ix2 r d) = _
  rw [shapeCast_self]
  rfl

/-- The stored least value of the selected-column sums: the least of what was there and the tile's 20000 row sums. -/
theorem pay0_minA : k0_pay14 (F := Ideal) x0 x1 acc (ix3 0 p 0)
    = min (acc (ix3 0 p 0)) (Finset.univ.inf fun r : Fin 20000 => ∑ d : Fin 64, x1 (ix2 p d) * x0 (ix2 r d)) := by
  unfold k0_pay14
  refine (shapeCast_ab_1ab_apply _ _ 0 p 0).trans ?_
  show min (shapeCast S8x1 acc shapeCasts_S1x8x1_S8x1 (ix2 p 0))
      (shapeCast S8x1 (multiReduction .minimumf [1] S8 (k0_pay6 (F := Ideal) x0 x1) 0x7F800000#32 reduces_S8x20000_S8 (.inl rfl) rfl)
        shapeCasts_S8_S8x1 (ix2 p 0)) = _
  rw [shapeCast_1ab_ab_apply, KPay0_shapeCast_a_a1_apply]
  exact congrArg (min _) ((KPay0_rowMin_apply _ reduces_S8x20000_S8 _ _ p).trans
    (congrArg Finset.univ.inf (funext fun r => KPay0_pay6_apply x0 x1 p r)))
/-- The stored greatest value of the selected-column sums. -/
theorem pay0_maxA : k0_pay1 (F := Ideal) (k0_pay15 x0 x1 acc) (ix3 0 p 0)
    = max (acc (ix3 0 p 0)) (Finset.univ.sup fun r : Fin 20000 => ∑ d : Fin 64, x1 (ix2 p d) * x0 (ix2 r d)) := by
  unfold k0_pay1 k0_pay15
  refine (shapeCast_ab_1ab_apply _ _ 0 p 0).trans ?_
  show max (shapeCast S8x1 acc shapeCasts_S1x8x1_S8x1 (ix2 p 0))
      (shapeCast S8x1 (multiReduction .maximumf [1] S8 (k0_pay6 (F := Ideal) x0 x1) 0xFF800000#32 reduces_S8x20000_S8 (.inl rfl) rfl)
        shapeCasts_S8_S8x1 (ix2 p 0)) = _
  rw [shapeCast_1ab_ab_apply, KPay0_shapeCast_a_a1_apply]
  exact congrArg (max _) ((KPay0_rowMax_apply _ reduces_S8x20000_S8 _ _ p).trans
    (congrArg Finset.univ.sup (funext fun r => KPay0_pay6_apply x0 x1 p r)))
/-- The stored least value of the left-out-column sums. -/
theorem pay0_minB : k0_pay2 (F := Ideal) (k0_pay8 x0 x1) acc (ix3 0 p 0)
    = min (acc (ix3 0 p 0)) (Finset.univ.inf fun r : Fin 20000 => ∑ d : Fin 64, (MI.one - x1 (ix2 p d)) * x0 (ix2 r d)) := by
  unfold k0_pay2 k0_pay8
  refine (shapeCast_ab_1ab_apply _ _ 0 p 0).trans ?_
  show min (shapeCast S8x1 acc shapeCasts_S1x8x1_S8x1 (ix2 p 0))
      (shapeCast S8x1 (multiReduction .minimumf [1] S8 (k0_pay7 (F := Ideal) x0 x1) 0x7F800000#32 reduces_S8x20000_S8 (.inl rfl) rfl)
        shapeCasts_S8_S8x1 (ix2 p 0)) = _
  rw [shapeCast_1ab_ab_apply, KPay0_shapeCast_a_a1_apply]
  exact congrArg (min _) ((KPay0_rowMin_apply _ reduces_S8x20000_S8 _ _ p).trans
    (congrArg Finset.univ.inf (funext fun r => KPay0_pay7_apply x0 x1 p r)))
/-- The stored greatest value of the left-out-column sums. -/
theorem pay0_maxB : k0_pay3 (F := Ideal) (k0_pay9 x0 x1) acc (ix3 0 p 0)
    = max (acc (ix3 0 p 0)) (Finset.univ.sup fun r : Fin 20000 => ∑ d : Fin 64, (MI.one - x1 (ix2 p d)) * x0 (ix2 r d)) := by
  unfold k0_pay3 k0_pay9
  refine (shapeCast_ab_1ab_apply _ _ 0 p 0).trans ?_
  show max (shapeCast S8x1 acc shapeCasts_S1x8x1_S8x1 (ix2 p 0))
      (shapeCast S8x1 (multiReduction .maximumf [1] S8 (k0_pay7 (F := Ideal) x0 x1) 0xFF800000#32 reduces_S8x20000_S8 (.inl rfl) rfl)
        shapeCasts_S8_S8x1 (ix2 p 0)) = _
  rw [shapeCast_1ab_ab_apply, KPay0_shapeCast_a_a1_apply]
  exact congrArg (max _) ((KPay0_rowMax_apply _ reduces_S8x20000_S8 _ _ p).trans
    (congrArg Finset.univ.sup (funext fun r => KPay0_pay7_apply x0 x1 p r)))
/-- The reset values: plus infinity for a least value, minus infinity for a greatest one. -/
theorem pay0_top10 (i : S1x8x1.Idx) : k0_pay10 (F := Ideal) i = (⊤ : EReal) := by
  unfold k0_pay10
  rw [eq_ix3 i]
  exact (shapeCast_ab_1ab_apply _ _ _ _ _).trans KPay0_ofBits_posInf
theorem pay0_bot11 (i : S1x8x1.Idx) : k0_pay11 (F := Ideal) i = (⊥ : EReal) := by
  unfold k0_pay11
  rw [eq_ix3 i]
  exact (shapeCast_ab_1ab_apply _ _ _ _ _).trans KPay0_ofBits_negInf
theorem pay0_top12 (i : S1x8x1.Idx) : k0_pay12 (F := Ideal) i = (⊤ : EReal) := by
  unfold k0_pay12
  rw [eq_ix3 i]
  exact (shapeCast_ab_1ab_apply _ _ _ _ _).trans KPay0_ofBits_posInf
theorem pay0_bot13 (i : S1x8x1.Idx) : k0_pay13 (F := Ideal) i = (⊥ : EReal) := by
  unfold k0_pay13
  rw [eq_ix3 i]
  exact (shapeCast_ab_1ab_apply _ _ _ _ _).trans KPay0_ofBits_negInf

end Cert.KernelIdeal.KV

end
-- ==== Proof.Reindex.lean ====
/-
  Splitting the two million rows: into two halves of a million, a half into 50 tiles of 20000 rows or into 125 tiles
  of 8000 rows.  A least value, a greatest value and a sum over all rows are the same taken half by half and tile by
  tile.
-/
import proofs.«135964_j5007931867607_1_alg».proof.Proof.Spec

noncomputable section

namespace Cert.MI

open Idealize.ShloMosaic

/-- Row `r` of tile `k` of a half, for tiles of 20000 rows and for tiles of 8000 rows. -/
def tile0 (k : Fin 50) (r : Fin 20000) : Fin 1000000 := ⟨k.val * 20000 + r.val, by have := k.isLt; have := r.isLt; omega⟩
def tile1 (k : Fin 125) (r : Fin 8000) : Fin 1000000 := ⟨k.val * 8000 + r.val, by have := k.isLt; have := r.isLt; omega⟩

/-- A family indexed through a map onto the index type has the same least value taken in two stages. -/
private theorem inf_reindex {α β γ : Type*} [Fintype α] [Fintype β] [Fintype γ] (g : α → β → γ)
    (hg : ∀ u : γ, ∃ k r, g k r = u) (f : γ → EReal) :
    Finset.univ.inf f = Finset.univ.inf fun k : α => Finset.univ.inf fun r : β => f (g k r) := by
  apply le_antisymm
  · exact Finset.le_inf fun k _ => Finset.le_inf fun r _ => Finset.inf_le (Finset.mem_univ _)
  · refine Finset.le_inf fun u _ => ?_
    obtain ⟨k, r, rfl⟩ := hg u
    exact (Finset.inf_le (f := fun k : α => Finset.univ.inf fun r : β => f (g k r)) (Finset.mem_univ k)).trans
      (Finset.inf_le (f := fun r : β => f (g k r)) (Finset.mem_univ r))

/-- The same for the greatest value. -/
private theorem sup_reindex {α β γ : Type*} [Fintype α] [Fintype β] [Fintype γ] (g : α → β → γ)
    (hg : ∀ u : γ, ∃ k r, g k r = u) (f : γ → EReal) :
    Finset.univ.sup f = Finset.univ.sup fun k : α => Finset.univ.sup fun r : β => f (g k r) := by
  apply le_antisymm
  · refine Finset.sup_le fun u _ => ?_
    obtain ⟨k, r, rfl⟩ := hg u
    exact (Finset.le_sup (f := fun r : β => f (g k r)) (Finset.mem_univ r)).trans
      (Finset.le_sup (f := fun k : α => Finset.univ.sup fun r : β => f (g k r)) (Finset.mem_univ k))
  · exact Finset.sup_le fun k _ => Finset.sup_le fun r _ => Finset.le_sup (Finset.mem_univ _)

/-- A sum over an index type reached one-to-one and onto from pairs is the double sum. -/
private theorem sum_reindex {α β γ : Type*} [Fintype α] [Fintype β] [Fintype γ] (g : α → β → γ)
    (hg : Function.Bijective fun p : α × β => g p.1 p.2) (f : γ → EReal) :
    ∑ u : γ, f u = ∑ k : α, ∑ r : β, f (g k r) := by
  rw [← Fintype.sum_prod_type' (fun k r => f (g k r))]
  exact (Fintype.sum_bijective _ hg _ _ fun _ => rfl).symm

/-- Over the two halves: the least value, the greatest value and the sum of a pair. -/
private theorem inf_two (g : Fin 2 → EReal) : Finset.univ.inf g = g 0 ⊓ g 1 := by
  apply le_antisymm
  · exact le_inf (Finset.inf_le (Finset.mem_univ _)) (Finset.inf_le (Finset.mem_univ _))
  · refine Finset.le_inf fun i _ => ?_
    fin_cases i
    · exact inf_le_left
    · exact inf_le_right

private theorem sup_two (g : Fin 2 → EReal) : Finset.univ.sup g = g 0 ⊔ g 1 := by
  apply le_antisymm
  · refine Finset.sup_le fun i _ => ?_
    fin_cases i
    · exact le_sup_left
    · exact le_sup_right
  · exact sup_le (Finset.le_sup (Finset.mem_univ _)) (Finset.le_sup (Finset.mem_univ _))

/-- Every row lies in exactly one half, every row of a half in exactly one tile. -/
private theorem glue_surj (t : Fin 2000000) : ∃ cc u, glue cc u = t := by
  have := t.isLt
  refine ⟨⟨t.val / 1000000, by omega⟩, ⟨t.val % 1000000, by omega⟩, Fin.ext ?_⟩
  simp only [glue]
  omega

private theorem tile0_surj (u : Fin 1000000) : ∃ k r, tile0 k r = u := by
  have := u.isLt
  refine ⟨⟨u.val / 20000, by omega⟩, ⟨u.val % 20000, by omega⟩, Fin.ext ?_⟩
  simp only [tile0]
  omega

private theorem tile1_surj (u : Fin 1000000) : ∃ k r, tile1 k r = u := by
  have := u.isLt
  refine ⟨⟨u.val / 8000, by omega⟩, ⟨u.val % 8000, by omega⟩, Fin.ext ?_⟩
  simp only [tile1]
  omega

private theorem glue_bij : Function.Bijective fun p : Fin 2 × Fin 1000000 => glue p.1 p.2 := by
  refine ⟨?_, fun t => ?_⟩
  · rintro ⟨c, u⟩ ⟨c', u'⟩ h
    have h' := congrArg Fin.val h
    simp only [glue] at h'
    have := u.isLt
    have := u'.isLt
    refine Prod.ext (Fin.ext ?_) (Fin.ext ?_)
    · show c.val = c'.val
      omega
    · show u.val = u'.val
      omega
  · obtain ⟨c, u, h⟩ := glue_surj t
    exact ⟨(c, u), h⟩

private theorem tile1_bij : Function.Bijective fun p : Fin 125 × Fin 8000 => tile1 p.1 p.2 := by
  refine ⟨?_, fun t => ?_⟩
  · rintro ⟨k, r⟩ ⟨k', r'⟩ h
    have h' := congrArg Fin.val h
    simp only [tile1] at h'
    have := r.isLt
    have := r'.isLt
    refine Prod.ext (Fin.ext ?_) (Fin.ext ?_)
    · show k.val = k'.val
      omega
    · show r.val = r'.val
      omega
  · obtain ⟨k, r, h⟩ := tile1_surj t
    exact ⟨(k, r), h⟩

theorem lo_glue (s : Fin 2000000 → EReal) : lo s = lo2 s 0 ⊓ lo2 s 1 := by
  unfold lo lo2
  rw [inf_reindex glue glue_surj s, inf_two]

theorem hi_glue (s : Fin 2000000 → EReal) : hi s = hi2 s 0 ⊔ hi2 s 1 := by
  unfold hi hi2
  rw [sup_reindex glue glue_surj s, sup_two]

theorem sum_glue (f : Fin 2000000 → EReal) :
    ∑ t : Fin 2000000, f t = (∑ u : Fin 1000000, f (glue 0 u)) + ∑ u : Fin 1000000, f (glue 1 u) := by
  rw [sum_reindex glue glue_bij f, Fin.sum_univ_two]

theorem inf_tile0 (f : Fin 1000000 → EReal) :
    Finset.univ.inf f = Finset.univ.inf fun k : Fin 50 => Finset.univ.inf fun r : Fin 20000 => f (tile0 k r) :=
  inf_reindex tile0 tile0_surj f

theorem sup_tile0 (f : Fin 1000000 → EReal) :
    Finset.univ.sup f = Finset.univ.sup fun k : Fin 50 => Finset.univ.sup fun r : Fin 20000 => f (tile0 k r) :=
  sup_reindex tile0 tile0_surj f

theorem sum_tile1 (f : Fin 1000000 → EReal) :
    ∑ u : Fin 1000000, f u = ∑ k : Fin 125, ∑ r : Fin 8000, f (tile1 k r) :=
  sum_reindex tile1 tile1_bij f

end Cert.MI

end
-- ==== Proof.KReg0.lean ====
/-
  The first kernel region: for each half of the rows (one per core) and each partition it leaves the least and
  the greatest of the two masked row sums over that half.

  A half is a million rows, worked in 50 tiles of 20000 rows, one tile per grid point: point `t` works on tile
  `t % 50` of half `t / 50`.  Where the tile index is 0 the four running extremes restart from their neutral
  elements; every point takes its tile's extreme into them; the point with tile index 49 writes them to row
  `t / 50` of the four [2, 8, 1] outputs.  So each output entry is the extreme over the 50 tiles of the extremes
  over a tile's rows, which is the extreme over the half.
-/
import proofs.«135964_j5007931867607_1_alg».proof.Proof.Gen.KernelIdeal.Frame
import proofs.«135964_j5007931867607_1_alg».proof.Proof.Spec
import proofs.«135964_j5007931867607_1_alg».proof.Proof.KPay0
import proofs.«135964_j5007931867607_1_alg».proof.Proof.Reindex
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert

variable (V : (c : Dev nD) → (b : Ref sig .tc) → Buf (Elt Ideal) ((c : Thread nD τ).loc b))

private theorem hz3 : (![0, 0, 0] : Fin 3 → Nat) = fun _ => 0 := funext fun a => by fin_cases a <;> rfl
private theorem hz2 : (![0, 0] : Fin 2 → Nat) = fun _ => 0 := funext fun a => by fin_cases a <;> rfl

/-! ## What one point leaves in each output's block

Where the tile index is not 0 each output's block is stored once, with the update of what the block held; where it is
0 the block is first stored with the neutral element, read back, and stored with the update of that. -/

section Pieces
variable {F : FTy → Type} [FloatOps F]

private theorem outB2 (c : Dev nD) (i : grid0.Coords) (a2 : Memref sig .tc .vmem S20000x64 .f32) (h2 : a2.IsWhole) (a3 : Memref sig .tc .vmem S8x64 .f32) (h3 : a3.IsWhole) (a4 : Memref sig .tc .vmem S1x8x1 .f32) (h4 : a4.IsWhole) (a5 : Memref sig .tc .vmem S1x8x1 .f32) (h5 : a5.IsWhole) (a6 : Memref sig .tc .vmem S1x8x1 .f32) (h6 : a6.IsWhole) (a7 : Memref sig .tc .vmem S1x8x1 .f32) (h7 : a7.IsWhole) (hc : ¬cond0_0 i)
    (x0 : Vec F S20000x64 .f32) (x1 : Vec F S8x64 .f32) (xo2 xo3 xo4 xo5 : Vec F S1x8x1 .f32) :
    out0_B_2 c i a2 h2 a3 h3 a4 h4 a5 h5 a6 h6 a7 h7 hc x0 x1 xo2 xo3 xo4 xo5 = k0_pay14 x0 x1 xo2 := by
  unfold out0_B_2
  rw [View.read_writes_eq_canon _ _ _ (cover0_B_2 c i a2 h2 a3 h3 a4 h4 a5 h5 a6 h6 a7 h7 hc x0 x1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S20000x64) hz2, View.ld_unit_zero (S := S8x64) hz2, View.ld_unit_zero (S := S1x8x1) hz3]

private theorem outB3 (c : Dev nD) (i : grid0.Coords) (a2 : Memref sig .tc .vmem S20000x64 .f32) (h2 : a2.IsWhole) (a3 : Memref sig .tc .vmem S8x64 .f32) (h3 : a3.IsWhole) (a4 : Memref sig .tc .vmem S1x8x1 .f32) (h4 : a4.IsWhole) (a5 : Memref sig .tc .vmem S1x8x1 .f32) (h5 : a5.IsWhole) (a6 : Memref sig .tc .vmem S1x8x1 .f32) (h6 : a6.IsWhole) (a7 : Memref sig .tc .vmem S1x8x1 .f32) (h7 : a7.IsWhole) (hc : ¬cond0_0 i)
    (x0 : Vec F S20000x64 .f32) (x1 : Vec F S8x64 .f32) (xo2 xo3 xo4 xo5 : Vec F S1x8x1 .f32) :
    out0_B_3 c i a2 h2 a3 h3 a4 h4 a5 h5 a6 h6 a7 h7 hc x0 x1 xo2 xo3 xo4 xo5 = k0_pay1 (k0_pay15 x0 x1 xo3) := by
  unfold out0_B_3
  rw [View.read_writes_eq_canon _ _ _ (cover0_B_3 c i a2 h2 a3 h3 a4 h4 a5 h5 a6 h6 a7 h7 hc x0 x1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S20000x64) hz2, View.ld_unit_zero (S := S8x64) hz2, View.ld_unit_zero (S := S1x8x1) hz3]

private theorem outB4 (c : Dev nD) (i : grid0.Coords) (a2 : Memref sig .tc .vmem S20000x64 .f32) (h2 : a2.IsWhole) (a3 : Memref sig .tc .vmem S8x64 .f32) (h3 : a3.IsWhole) (a4 : Memref sig .tc .vmem S1x8x1 .f32) (h4 : a4.IsWhole) (a5 : Memref sig .tc .vmem S1x8x1 .f32) (h5 : a5.IsWhole) (a6 : Memref sig .tc .vmem S1x8x1 .f32) (h6 : a6.IsWhole) (a7 : Memref sig .tc .vmem S1x8x1 .f32) (h7 : a7.IsWhole) (hc : ¬cond0_0 i)
    (x0 : Vec F S20000x64 .f32) (x1 : Vec F S8x64 .f32) (xo2 xo3 xo4 xo5 : Vec F S1x8x1 .f32) :
    out0_B_4 c i a2 h2 a3 h3 a4 h4 a5 h5 a6 h6 a7 h7 hc x0 x1 xo2 xo3 xo4 xo5 = k0_pay2 (k0_pay8 x0 x1) xo4 := by
  unfold out0_B_4
  rw [View.read_writes_eq_canon _ _ _ (cover0_B_4 c i a2 h2 a3 h3 a4 h4 a5 h5 a6 h6 a7 h7 hc x0 x1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S20000x64) hz2, View.ld_unit_zero (S := S8x64) hz2, View.ld_unit_zero (S := S1x8x1) hz3]

private theorem outB5 (c : Dev nD) (i : grid0.Coords) (a2 : Memref sig .tc .vmem S20000x64 .f32) (h2 : a2.IsWhole) (a3 : Memref sig .tc .vmem S8x64 .f32) (h3 : a3.IsWhole) (a4 : Memref sig .tc .vmem S1x8x1 .f32) (h4 : a4.IsWhole) (a5 : Memref sig .tc .vmem S1x8x1 .f32) (h5 : a5.IsWhole) (a6 : Memref sig .tc .vmem S1x8x1 .f32) (h6 : a6.IsWhole) (a7 : Memref sig .tc .vmem S1x8x1 .f32) (h7 : a7.IsWhole) (hc : ¬cond0_0 i)
    (x0 : Vec F S20000x64 .f32) (x1 : Vec F S8x64 .f32) (xo2 xo3 xo4 xo5 : Vec F S1x8x1 .f32) :
    out0_B_5 c i a2 h2 a3 h3 a4 h4 a5 h5 a6 h6 a7 h7 hc x0 x1 xo2 xo3 xo4 xo5 = k0_pay3 (k0_pay9 x0 x1) xo5 := by
  unfold out0_B_5
  rw [View.read_writes_eq_canon _ _ _ (cover0_B_5 c i a2 h2 a3 h3 a4 h4 a5 h5 a6 h6 a7 h7 hc x0 x1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S20000x64) hz2, View.ld_unit_zero (S := S8x64) hz2, View.ld_unit_zero (S := S1x8x1) hz3]

private theorem outA2 (c : Dev nD) (i : grid0.Coords) (a2 : Memref sig .tc .vmem S20000x64 .f32) (h2 : a2.IsWhole) (a3 : Memref sig .tc .vmem S8x64 .f32) (h3 : a3.IsWhole) (a4 : Memref sig .tc .vmem S1x8x1 .f32) (h4 : a4.IsWhole) (a5 : Memref sig .tc .vmem S1x8x1 .f32) (h5 : a5.IsWhole) (a6 : Memref sig .tc .vmem S1x8x1 .f32) (h6 : a6.IsWhole) (a7 : Memref sig .tc .vmem S1x8x1 .f32) (h7 : a7.IsWhole) (hc : cond0_0 i)
    (x0 : Vec F S20000x64 .f32) (x1 : Vec F S8x64 .f32) :
    out0_A_2 c i a2 h2 a3 h3 a4 h4 a5 h5 a6 h6 a7 h7 hc x0 x1 = k0_pay14 x0 x1 k0_pay10 := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_cons_unit_zero (S := S1x8x1) hz3, View.readCov_unit_zero (S := S1x8x1) _ hz3]
  simp only [View.readAt_eq_ld, h2.read_unread, h3.read_unread,
    View.ld_unit_zero (S := S20000x64) hz2, View.ld_unit_zero (S := S8x64) hz2, View.ld_unit_zero (S := S1x8x1) hz3]

private theorem outA3 (c : Dev nD) (i : grid0.Coords) (a2 : Memref sig .tc .vmem S20000x64 .f32) (h2 : a2.IsWhole) (a3 : Memref sig .tc .vmem S8x64 .f32) (h3 : a3.IsWhole) (a4 : Memref sig .tc .vmem S1x8x1 .f32) (h4 : a4.IsWhole) (a5 : Memref sig .tc .vmem S1x8x1 .f32) (h5 : a5.IsWhole) (a6 : Memref sig .tc .vmem S1x8x1 .f32) (h6 : a6.IsWhole) (a7 : Memref sig .tc .vmem S1x8x1 .f32) (h7 : a7.IsWhole) (hc : cond0_0 i)
    (x0 : Vec F S20000x64 .f32) (x1 : Vec F S8x64 .f32) :
    out0_A_3 c i a2 h2 a3 h3 a4 h4 a5 h5 a6 h6 a7 h7 hc x0 x1 = k0_pay1 (k0_pay15 x0 x1 k0_pay11) := by
  unfold out0_A_3
  rw [View.read_writes_eq_canon _ _ _ (cover0_A_3 c i a2 h2 a3 h3 a4 h4 a5 h5 a6 h6 a7 h7 hc x0 x1)]
  unfold kernelRun0_A
  dsimp only
  sl_unfold_words
  rw [View.canon_cons_unit_zero (S := S1x8x1) hz3, View.readCov_unit_zero (S := S1x8x1) _ hz3]
  simp only [View.readAt_eq_ld, h2.read_unread, h3.read_unread,
    View.ld_unit_zero (S := S20000x64) hz2, View.ld_unit_zero (S := S8x64) hz2, View.ld_unit_zero (S := S1x8x1) hz3]

private theorem outA4 (c : Dev nD) (i : grid0.Coords) (a2 : Memref sig .tc .vmem S20000x64 .f32) (h2 : a2.IsWhole) (a3 : Memref sig .tc .vmem S8x64 .f32) (h3 : a3.IsWhole) (a4 : Memref sig .tc .vmem S1x8x1 .f32) (h4 : a4.IsWhole) (a5 : Memref sig .tc .vmem S1x8x1 .f32) (h5 : a5.IsWhole) (a6 : Memref sig .tc .vmem S1x8x1 .f32) (h6 : a6.IsWhole) (a7 : Memref sig .tc .vmem S1x8x1 .f32) (h7 : a7.IsWhole) (hc : cond0_0 i)
    (x0 : Vec F S20000x64 .f32) (x1 : Vec F S8x64 .f32) :
    out0_A_4 c i a2 h2 a3 h3 a4 h4 a5 h5 a6 h6 a7 h7 hc x0 x1 = k0_pay2 (k0_pay8 x0 x1) k0_pay12 := by
  unfold out0_A_4
  rw [View.read_writes_eq_canon _ _ _ (cover0_A_4 c i a2 h2 a3 h3 a4 h4 a5 h5 a6 h6 a7 h7 hc x0 x1)]
  unfold kernelRun0_A
  dsimp only
  sl_unfold_words
  rw [View.canon_cons_unit_zero (S := S1x8x1) hz3, View.readCov_unit_zero (S := S1x8x1) _ hz3]
  simp only [View.readAt_eq_ld, h2.read_unread, h3.read_unread,
    View.ld_unit_zero (S := S20000x64) hz2, View.ld_unit_zero (S := S8x64) hz2, View.ld_unit_zero (S := S1x8x1) hz3]

private theorem outA5 (c : Dev nD) (i : grid0.Coords) (a2 : Memref sig .tc .vmem S20000x64 .f32) (h2 : a2.IsWhole) (a3 : Memref sig .tc .vmem S8x64 .f32) (h3 : a3.IsWhole) (a4 : Memref sig .tc .vmem S1x8x1 .f32) (h4 : a4.IsWhole) (a5 : Memref sig .tc .vmem S1x8x1 .f32) (h5 : a5.IsWhole) (a6 : Memref sig .tc .vmem S1x8x1 .f32) (h6 : a6.IsWhole) (a7 : Memref sig .tc .vmem S1x8x1 .f32) (h7 : a7.IsWhole) (hc : cond0_0 i)
    (x0 : Vec F S20000x64 .f32) (x1 : Vec F S8x64 .f32) :
    out0_A_5 c i a2 h2 a3 h3 a4 h4 a5 h5 a6 h6 a7 h7 hc x0 x1 = k0_pay3 (k0_pay9 x0 x1) k0_pay13 := by
  unfold out0_A_5
  rw [View.read_writes_eq_canon _ _ _ (cover0_A_5 c i a2 h2 a3 h3 a4 h4 a5 h5 a6 h6 a7 h7 hc x0 x1)]
  unfold kernelRun0_A
  dsimp only
  sl_unfold_words
  rw [View.canon_cons_unit_zero (S := S1x8x1) hz3, View.readCov_unit_zero (S := S1x8x1) _ hz3]
  simp only [View.readAt_eq_ld, h2.read_unread, h3.read_unread,
    View.ld_unit_zero (S := S20000x64) hz2, View.ld_unit_zero (S := S8x64) hz2, View.ld_unit_zero (S := S1x8x1) hz3]

end Pieces

/-! ## The blocks a point reads

The row array and the mask as the region finds them, and a point's blocks of them: 20000 rows starting at row
`20000 · t`, and the whole mask. -/

private abbrev X (c : Dev nD) : MI.SX.Idx → EReal := V c main_arg0
private abbrev M (c : Dev nD) : MI.SM.Idx → EReal := V c main_v0
private abbrev xblk (c : Dev nD) (t : Fin cfg0.N) : Vec Ideal S20000x64 .f32 := iblk0 (F := Ideal) V c 0 t
private abbrev mblk (c : Dev nD) (t : Fin cfg0.N) : Vec Ideal S8x64 .f32 := iblk0 (F := Ideal) V c 1 t

private theorem N100 : cfg0.N = 100 := N_0

private theorem idx0_0 : ∀ t : Fin cfg0.N, win0_0.index t 0 = t.val ∧ win0_0.index t 1 = 0 :=
  (by decide +kernel : ∀ t : Fin grid0.N, win0_0.index t 0 = t.val ∧ win0_0.index t 1 = 0)
private theorem idx0_1 : ∀ t : Fin cfg0.N, win0_1.index t 0 = 0 ∧ win0_1.index t 1 = 0 :=
  (by decide +kernel : ∀ t : Fin grid0.N, win0_1.index t 0 = 0 ∧ win0_1.index t 1 = 0)

private theorem xblk_apply (c : Dev nD) (t : Fin cfg0.N) (r : Fin 20000) (d : Fin 64) (hb : t.val * 20000 + r.val < 2000000) :
    xblk V c t (ix2 r d) = X V c (ix2 ⟨t.val * 20000 + r.val, hb⟩ d) := by
  unfold xblk iblk0
  rw [View.read_apply]
  show V c main_arg0 _ = V c main_arg0 _
  congr 1
  funext a
  apply Fin.ext
  match a with
  | ⟨0, _⟩ => show win0_0.index t 0 * 20000 + 1 * r.val = t.val * 20000 + r.val; rw [(idx0_0 t).1]; omega
  | ⟨1, _⟩ => show win0_0.index t 1 * 64 + 1 * d.val = d.val; rw [(idx0_0 t).2]; omega

private theorem mblk_apply (c : Dev nD) (t : Fin cfg0.N) (p : Fin 8) (d : Fin 64) :
    mblk V c t (ix2 p d) = M V c (ix2 p d) := by
  unfold mblk iblk0
  rw [View.read_apply]
  show V c main_v0 _ = V c main_v0 _
  congr 1
  funext a
  apply Fin.ext
  match a with
  | ⟨0, _⟩ => show win0_1.index t 0 * 8 + 1 * p.val = p.val; rw [(idx0_1 t).1]; omega
  | ⟨1, _⟩ => show win0_1.index t 1 * 64 + 1 * d.val = d.val; rw [(idx0_1 t).2]; omega

/-- The least and the greatest value of a family of row values over tile `k` of half `cc`. -/
private def tileInf (s : Fin 2000000 → EReal) (cc : Fin 2) (k : Fin 50) : EReal := Finset.univ.inf fun r : Fin 20000 => s (MI.glue cc (MI.tile0 k r))
private def tileSup (s : Fin 2000000 → EReal) (cc : Fin 2) (k : Fin 50) : EReal := Finset.univ.sup fun r : Fin 20000 => s (MI.glue cc (MI.tile0 k r))

/-- Row `r` of point `t`'s block is row `r` of tile `t % 50` of half `t / 50`: `20000 t + r = 1000000 (t / 50) + 20000 (t % 50) + r`. -/
private theorem row_eq (t : ℕ) (ht : t < 100) (r : Fin 20000) (hb : t * 20000 + r.val < 2000000) :
    (⟨t * 20000 + r.val, hb⟩ : Fin 2000000) = MI.glue ⟨t / 50, by omega⟩ (MI.tile0 ⟨t % 50, by omega⟩ r) := by
  apply Fin.ext
  show t * 20000 + r.val = t / 50 * 1000000 + (t % 50 * 20000 + r.val)
  omega

/-- So the two masked sums of a block's row are those of that row of the array. -/
private theorem ptA_sum (c : Dev nD) (t : Fin cfg0.N) (ht : t.val < 100) (p : Fin 8) (r : Fin 20000) :
    (∑ d : Fin 64, mblk V c t (ix2 p d) * xblk V c t (ix2 r d))
      = MI.sA (X V c) (M V c) p (MI.glue ⟨t.val / 50, by omega⟩ (MI.tile0 ⟨t.val % 50, by omega⟩ r)) := by
  unfold MI.sA
  refine Finset.sum_congr rfl fun d _ => ?_
  rw [mblk_apply, xblk_apply V c t r d (by have := r.isLt; omega), row_eq t.val ht r]

private theorem ptB_sum (c : Dev nD) (t : Fin cfg0.N) (ht : t.val < 100) (p : Fin 8) (r : Fin 20000) :
    (∑ d : Fin 64, (MI.one - mblk V c t (ix2 p d)) * xblk V c t (ix2 r d))
      = MI.sB (X V c) (M V c) p (MI.glue ⟨t.val / 50, by omega⟩ (MI.tile0 ⟨t.val % 50, by omega⟩ r)) := by
  unfold MI.sB
  refine Finset.sum_congr rfl fun d _ => ?_
  rw [mblk_apply, xblk_apply V c t r d (by have := r.isLt; omega), row_eq t.val ht r]

/-! ## The fold over a half's points -/

/-! The fold over the points of one half: a quantity that restarts from the neutral element where the tile index is 0
    and takes in one tile's extreme at every point holds, after tile `j`, the extreme over tiles `0 … j`. -/

private theorem filt_zero (n : ℕ) (h : n < 100) (h0 : n % 50 = 0) :
    (Finset.univ.filter fun k : Fin 50 => k.val ≤ n % 50) = {(⟨n % 50, by omega⟩ : Fin 50)} := by
  ext k
  simp only [Finset.mem_filter, Finset.mem_univ, true_and, Finset.mem_singleton, Fin.ext_iff]
  omega

private theorem filt_succ (n : ℕ) (h : n < 100) (h0 : ¬n % 50 = 0) :
    (Finset.univ.filter fun k : Fin 50 => k.val ≤ n % 50)
      = insert (⟨n % 50, by omega⟩ : Fin 50) (Finset.univ.filter fun k : Fin 50 => k.val ≤ (n - 1) % 50) := by
  ext k
  simp only [Finset.mem_filter, Finset.mem_univ, true_and, Finset.mem_insert, Fin.ext_iff]
  omega

private theorem filt_last (n : ℕ) (h49 : n % 50 = 49) : (Finset.univ.filter fun k : Fin 50 => k.val ≤ n % 50) = Finset.univ := by
  ext k
  simp only [Finset.mem_filter, Finset.mem_univ, true_and, iff_true]
  have := k.isLt
  omega

private theorem fold_inf (a : (n : ℕ) → n < 100 → EReal) (g : Fin 2 → Fin 50 → EReal)
    (hA : ∀ n (h : n < 100), n % 50 = 0 → a n h = min ⊤ (g ⟨n / 50, by omega⟩ ⟨n % 50, by omega⟩))
    (hB : ∀ n (h : n < 100), ¬n % 50 = 0 → a n h = min (a (n - 1) (by omega)) (g ⟨n / 50, by omega⟩ ⟨n % 50, by omega⟩)) :
    ∀ n (h : n < 100), a n h = (Finset.univ.filter fun k : Fin 50 => k.val ≤ n % 50).inf (g ⟨n / 50, by omega⟩) := by
  intro n
  induction n using Nat.strong_induction_on with
  | _ n ih =>
    intro h
    by_cases h0 : n % 50 = 0
    · rw [hA n h h0, filt_zero n h h0, Finset.inf_singleton, min_top_left]
    · have hcc : (⟨(n - 1) / 50, by omega⟩ : Fin 2) = ⟨n / 50, by omega⟩ := Fin.ext (by show (n - 1) / 50 = n / 50; omega)
      rw [hB n h h0, ih (n - 1) (by omega) (by omega), filt_succ n h h0, Finset.inf_insert, hcc]
      exact min_comm _ _

private theorem fold_sup (a : (n : ℕ) → n < 100 → EReal) (g : Fin 2 → Fin 50 → EReal)
    (hA : ∀ n (h : n < 100), n % 50 = 0 → a n h = max ⊥ (g ⟨n / 50, by omega⟩ ⟨n % 50, by omega⟩))
    (hB : ∀ n (h : n < 100), ¬n % 50 = 0 → a n h = max (a (n - 1) (by omega)) (g ⟨n / 50, by omega⟩ ⟨n % 50, by omega⟩)) :
    ∀ n (h : n < 100), a n h = (Finset.univ.filter fun k : Fin 50 => k.val ≤ n % 50).sup (g ⟨n / 50, by omega⟩) := by
  intro n
  induction n using Nat.strong_induction_on with
  | _ n ih =>
    intro h
    by_cases h0 : n % 50 = 0
    · rw [hA n h h0, filt_zero n h h0, Finset.sup_singleton, max_bot_left]
    · have hcc : (⟨(n - 1) / 50, by omega⟩ : Fin 2) = ⟨n / 50, by omega⟩ := Fin.ext (by show (n - 1) / 50 = n / 50; omega)
      rw [hB n h h0, ih (n - 1) (by omega) (by omega), filt_succ n h h0, Finset.sup_insert, hcc]
      exact max_comm _ _

/-! ## The four outputs after each point -/

/-- Output 2 at partition `p` after a point where the tile index is 0: the tile's least row sum taken against the neutral element. -/
private theorem pt2_A (c : Dev nD) (t : Fin cfg0.N) (h0 : t.val % 50 = 0) (p : Fin 8) :
    (outsAt0 V c t.val t.isLt).1 (ix3 0 p 0)
      = min ⊤ (Finset.univ.inf fun r : Fin 20000 => ∑ d : Fin 64, mblk V c t (ix2 p d) * xblk V c t (ix2 r d)) := by
  rw [outsAt0_A V c t h0]
  dsimp only
  refine (congrFun (outA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk V c t) (mblk V c t)) (ix3 0 p 0)).trans ?_
  refine (pay0_minA (xblk V c t) (mblk V c t) (k0_pay10 (F := Ideal)) p).trans ?_
  rw [pay0_top10]

/-- and after any other point: the same against what the point before left there. -/
private theorem pt2_B (c : Dev nD) (t : Fin cfg0.N) (h0 : ¬t.val % 50 = 0) (p : Fin 8) :
    (outsAt0 V c t.val t.isLt).1 (ix3 0 p 0)
      = min ((outsAt0 V c (t.val - 1) (Nat.lt_of_le_of_lt (Nat.sub_le _ _) t.isLt)).1 (ix3 0 p 0))
          (Finset.univ.inf fun r : Fin 20000 => ∑ d : Fin 64, mblk V c t (ix2 p d) * xblk V c t (ix2 r d)) := by
  rw [outsAt0_B V c t h0]
  dsimp only
  refine (congrFun (outB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk V c t) (mblk V c t)
    (outsAt0 V c (t.val - 1) (Nat.lt_of_le_of_lt (Nat.sub_le _ _) t.isLt)).1 (outsAt0 V c (t.val - 1) (Nat.lt_of_le_of_lt (Nat.sub_le _ _) t.isLt)).2.1
    (outsAt0 V c (t.val - 1) (Nat.lt_of_le_of_lt (Nat.sub_le _ _) t.isLt)).2.2.1 (outsAt0 V c (t.val - 1) (Nat.lt_of_le_of_lt (Nat.sub_le _ _) t.isLt)).2.2.2) (ix3 0 p 0)).trans ?_
  exact pay0_minA (xblk V c t) (mblk V c t) _ p

/-- The tile's extreme at point `t` is the extreme of the row values over tile `t % 50` of half `t / 50`. -/
private theorem tile2 (c : Dev nD) (t : Fin cfg0.N) (ht : t.val < 100) (p : Fin 8) :
    (Finset.univ.inf fun r : Fin 20000 => ∑ d : Fin 64, mblk V c t (ix2 p d) * xblk V c t (ix2 r d))
      = tileInf (MI.sA (X V c) (M V c) p) ⟨t.val / 50, by omega⟩ ⟨t.val % 50, by omega⟩ := by
  unfold tileInf
  exact Finset.inf_congr rfl fun r _ => ptA_sum V c t ht p r

/-- After point `n` output 2 holds, at partition `p`, the extreme over tiles `0 … n % 50` of half `n / 50`. -/
private theorem inv2 (c : Dev nD) (p : Fin 8) (n : ℕ) (h : n < 100) :
    (outsAt0 V c n (lt_of_lt_of_eq h N100.symm)).1 (ix3 0 p 0)
      = (Finset.univ.filter fun k : Fin 50 => k.val ≤ n % 50).inf (tileInf (MI.sA (X V c) (M V c) p) ⟨n / 50, by omega⟩) :=
  fold_inf (fun n h => (outsAt0 V c n (lt_of_lt_of_eq h N100.symm)).1 (ix3 0 p 0)) (tileInf (MI.sA (X V c) (M V c) p))
    (fun n h h0 => (pt2_A V c ⟨n, lt_of_lt_of_eq h N100.symm⟩ h0 p).trans
      (congrArg (min ⊤) (tile2 V c ⟨n, lt_of_lt_of_eq h N100.symm⟩ h p)))
    (fun n h h0 => (pt2_B V c ⟨n, lt_of_lt_of_eq h N100.symm⟩ h0 p).trans
      (congrArg (min _) (tile2 V c ⟨n, lt_of_lt_of_eq h N100.symm⟩ h p)))
    n h

/-- Output 3 at partition `p` after a point where the tile index is 0: the tile's greatest row sum taken against the neutral element. -/
private theorem pt3_A (c : Dev nD) (t : Fin cfg0.N) (h0 : t.val % 50 = 0) (p : Fin 8) :
    (outsAt0 V c t.val t.isLt).2.1 (ix3 0 p 0)
      = max ⊥ (Finset.univ.sup fun r : Fin 20000 => ∑ d : Fin 64, mblk V c t (ix2 p d) * xblk V c t (ix2 r d)) := by
  rw [outsAt0_A V c t h0]
  dsimp only
  refine (congrFun (outA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk V c t) (mblk V c t)) (ix3 0 p 0)).trans ?_
  refine (pay0_maxA (xblk V c t) (mblk V c t) (k0_pay11 (F := Ideal)) p).trans ?_
  rw [pay0_bot11]

/-- and after any other point: the same against what the point before left there. -/
private theorem pt3_B (c : Dev nD) (t : Fin cfg0.N) (h0 : ¬t.val % 50 = 0) (p : Fin 8) :
    (outsAt0 V c t.val t.isLt).2.1 (ix3 0 p 0)
      = max ((outsAt0 V c (t.val - 1) (Nat.lt_of_le_of_lt (Nat.sub_le _ _) t.isLt)).2.1 (ix3 0 p 0))
          (Finset.univ.sup fun r : Fin 20000 => ∑ d : Fin 64, mblk V c t (ix2 p d) * xblk V c t (ix2 r d)) := by
  rw [outsAt0_B V c t h0]
  dsimp only
  refine (congrFun (outB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk V c t) (mblk V c t)
    (outsAt0 V c (t.val - 1) (Nat.lt_of_le_of_lt (Nat.sub_le _ _) t.isLt)).1 (outsAt0 V c (t.val - 1) (Nat.lt_of_le_of_lt (Nat.sub_le _ _) t.isLt)).2.1
    (outsAt0 V c (t.val - 1) (Nat.lt_of_le_of_lt (Nat.sub_le _ _) t.isLt)).2.2.1 (outsAt0 V c (t.val - 1) (Nat.lt_of_le_of_lt (Nat.sub_le _ _) t.isLt)).2.2.2) (ix3 0 p 0)).trans ?_
  exact pay0_maxA (xblk V c t) (mblk V c t) _ p

/-- The tile's extreme at point `t` is the extreme of the row values over tile `t % 50` of half `t / 50`. -/
private theorem tile3 (c : Dev nD) (t : Fin cfg0.N) (ht : t.val < 100) (p : Fin 8) :
    (Finset.univ.sup fun r : Fin 20000 => ∑ d : Fin 64, mblk V c t (ix2 p d) * xblk V c t (ix2 r d))
      = tileSup (MI.sA (X V c) (M V c) p) ⟨t.val / 50, by omega⟩ ⟨t.val % 50, by omega⟩ := by
  unfold tileSup
  exact Finset.sup_congr rfl fun r _ => ptA_sum V c t ht p r

/-- After point `n` output 3 holds, at partition `p`, the extreme over tiles `0 … n % 50` of half `n / 50`. -/
private theorem inv3 (c : Dev nD) (p : Fin 8) (n : ℕ) (h : n < 100) :
    (outsAt0 V c n (lt_of_lt_of_eq h N100.symm)).2.1 (ix3 0 p 0)
      = (Finset.univ.filter fun k : Fin 50 => k.val ≤ n % 50).sup (tileSup (MI.sA (X V c) (M V c) p) ⟨n / 50, by omega⟩) :=
  fold_sup (fun n h => (outsAt0 V c n (lt_of_lt_of_eq h N100.symm)).2.1 (ix3 0 p 0)) (tileSup (MI.sA (X V c) (M V c) p))
    (fun n h h0 => (pt3_A V c ⟨n, lt_of_lt_of_eq h N100.symm⟩ h0 p).trans
      (congrArg (max ⊥) (tile3 V c ⟨n, lt_of_lt_of_eq h N100.symm⟩ h p)))
    (fun n h h0 => (pt3_B V c ⟨n, lt_of_lt_of_eq h N100.symm⟩ h0 p).trans
      (congrArg (max _) (tile3 V c ⟨n, lt_of_lt_of_eq h N100.symm⟩ h p)))
    n h

/-- Output 4 at partition `p` after a point where the tile index is 0: the tile's least row sum taken against the neutral element. -/
private theorem pt4_A (c : Dev nD) (t : Fin cfg0.N) (h0 : t.val % 50 = 0) (p : Fin 8) :
    (outsAt0 V c t.val t.isLt).2.2.1 (ix3 0 p 0)
      = min ⊤ (Finset.univ.inf fun r : Fin 20000 => ∑ d : Fin 64, (MI.one - mblk V c t (ix2 p d)) * xblk V c t (ix2 r d)) := by
  rw [outsAt0_A V c t h0]
  dsimp only
  refine (congrFun (outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk V c t) (mblk V c t)) (ix3 0 p 0)).trans ?_
  refine (pay0_minB (xblk V c t) (mblk V c t) (k0_pay12 (F := Ideal)) p).trans ?_
  rw [pay0_top12]

/-- and after any other point: the same against what the point before left there. -/
private theorem pt4_B (c : Dev nD) (t : Fin cfg0.N) (h0 : ¬t.val % 50 = 0) (p : Fin 8) :
    (outsAt0 V c t.val t.isLt).2.2.1 (ix3 0 p 0)
      = min ((outsAt0 V c (t.val - 1) (Nat.lt_of_le_of_lt (Nat.sub_le _ _) t.isLt)).2.2.1 (ix3 0 p 0))
          (Finset.univ.inf fun r : Fin 20000 => ∑ d : Fin 64, (MI.one - mblk V c t (ix2 p d)) * xblk V c t (ix2 r d)) := by
  rw [outsAt0_B V c t h0]
  dsimp only
  refine (congrFun (outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk V c t) (mblk V c t)
    (outsAt0 V c (t.val - 1) (Nat.lt_of_le_of_lt (Nat.sub_le _ _) t.isLt)).1 (outsAt0 V c (t.val - 1) (Nat.lt_of_le_of_lt (Nat.sub_le _ _) t.isLt)).2.1
    (outsAt0 V c (t.val - 1) (Nat.lt_of_le_of_lt (Nat.sub_le _ _) t.isLt)).2.2.1 (outsAt0 V c (t.val - 1) (Nat.lt_of_le_of_lt (Nat.sub_le _ _) t.isLt)).2.2.2) (ix3 0 p 0)).trans ?_
  exact pay0_minB (xblk V c t) (mblk V c t) _ p

/-- The tile's extreme at point `t` is the extreme of the row values over tile `t % 50` of half `t / 50`. -/
private theorem tile4 (c : Dev nD) (t : Fin cfg0.N) (ht : t.val < 100) (p : Fin 8) :
    (Finset.univ.inf fun r : Fin 20000 => ∑ d : Fin 64, (MI.one - mblk V c t (ix2 p d)) * xblk V c t (ix2 r d))
      = tileInf (MI.sB (X V c) (M V c) p) ⟨t.val / 50, by omega⟩ ⟨t.val % 50, by omega⟩ := by
  unfold tileInf
  exact Finset.inf_congr rfl fun r _ => ptB_sum V c t ht p r

/-- After point `n` output 4 holds, at partition `p`, the extreme over tiles `0 … n % 50` of half `n / 50`. -/
private theorem inv4 (c : Dev nD) (p : Fin 8) (n : ℕ) (h : n < 100) :
    (outsAt0 V c n (lt_of_lt_of_eq h N100.symm)).2.2.1 (ix3 0 p 0)
      = (Finset.univ.filter fun k : Fin 50 => k.val ≤ n % 50).inf (tileInf (MI.sB (X V c) (M V c) p) ⟨n / 50, by omega⟩) :=
  fold_inf (fun n h => (outsAt0 V c n (lt_of_lt_of_eq h N100.symm)).2.2.1 (ix3 0 p 0)) (tileInf (MI.sB (X V c) (M V c) p))
    (fun n h h0 => (pt4_A V c ⟨n, lt_of_lt_of_eq h N100.symm⟩ h0 p).trans
      (congrArg (min ⊤) (tile4 V c ⟨n, lt_of_lt_of_eq h N100.symm⟩ h p)))
    (fun n h h0 => (pt4_B V c ⟨n, lt_of_lt_of_eq h N100.symm⟩ h0 p).trans
      (congrArg (min _) (tile4 V c ⟨n, lt_of_lt_of_eq h N100.symm⟩ h p)))
    n h

/-- Output 5 at partition `p` after a point where the tile index is 0: the tile's greatest row sum taken against the neutral element. -/
private theorem pt5_A (c : Dev nD) (t : Fin cfg0.N) (h0 : t.val % 50 = 0) (p : Fin 8) :
    (outsAt0 V c t.val t.isLt).2.2.2 (ix3 0 p 0)
      = max ⊥ (Finset.univ.sup fun r : Fin 20000 => ∑ d : Fin 64, (MI.one - mblk V c t (ix2 p d)) * xblk V c t (ix2 r d)) := by
  rw [outsAt0_A V c t h0]
  dsimp only
  refine (congrFun (outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk V c t) (mblk V c t)) (ix3 0 p 0)).trans ?_
  refine (pay0_maxB (xblk V c t) (mblk V c t) (k0_pay13 (F := Ideal)) p).trans ?_
  rw [pay0_bot13]

/-- and after any other point: the same against what the point before left there. -/
private theorem pt5_B (c : Dev nD) (t : Fin cfg0.N) (h0 : ¬t.val % 50 = 0) (p : Fin 8) :
    (outsAt0 V c t.val t.isLt).2.2.2 (ix3 0 p 0)
      = max ((outsAt0 V c (t.val - 1) (Nat.lt_of_le_of_lt (Nat.sub_le _ _) t.isLt)).2.2.2 (ix3 0 p 0))
          (Finset.univ.sup fun r : Fin 20000 => ∑ d : Fin 64, (MI.one - mblk V c t (ix2 p d)) * xblk V c t (ix2 r d)) := by
  rw [outsAt0_B V c t h0]
  dsimp only
  refine (congrFun (outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk V c t) (mblk V c t)
    (outsAt0 V c (t.val - 1) (Nat.lt_of_le_of_lt (Nat.sub_le _ _) t.isLt)).1 (outsAt0 V c (t.val - 1) (Nat.lt_of_le_of_lt (Nat.sub_le _ _) t.isLt)).2.1
    (outsAt0 V c (t.val - 1) (Nat.lt_of_le_of_lt (Nat.sub_le _ _) t.isLt)).2.2.1 (outsAt0 V c (t.val - 1) (Nat.lt_of_le_of_lt (Nat.sub_le _ _) t.isLt)).2.2.2) (ix3 0 p 0)).trans ?_
  exact pay0_maxB (xblk V c t) (mblk V c t) _ p

/-- The tile's extreme at point `t` is the extreme of the row values over tile `t % 50` of half `t / 50`. -/
private theorem tile5 (c : Dev nD) (t : Fin cfg0.N) (ht : t.val < 100) (p : Fin 8) :
    (Finset.univ.sup fun r : Fin 20000 => ∑ d : Fin 64, (MI.one - mblk V c t (ix2 p d)) * xblk V c t (ix2 r d))
      = tileSup (MI.sB (X V c) (M V c) p) ⟨t.val / 50, by omega⟩ ⟨t.val % 50, by omega⟩ := by
  unfold tileSup
  exact Finset.sup_congr rfl fun r _ => ptB_sum V c t ht p r

/-- After point `n` output 5 holds, at partition `p`, the extreme over tiles `0 … n % 50` of half `n / 50`. -/
private theorem inv5 (c : Dev nD) (p : Fin 8) (n : ℕ) (h : n < 100) :
    (outsAt0 V c n (lt_of_lt_of_eq h N100.symm)).2.2.2 (ix3 0 p 0)
      = (Finset.univ.filter fun k : Fin 50 => k.val ≤ n % 50).sup (tileSup (MI.sB (X V c) (M V c) p) ⟨n / 50, by omega⟩) :=
  fold_sup (fun n h => (outsAt0 V c n (lt_of_lt_of_eq h N100.symm)).2.2.2 (ix3 0 p 0)) (tileSup (MI.sB (X V c) (M V c) p))
    (fun n h h0 => (pt5_A V c ⟨n, lt_of_lt_of_eq h N100.symm⟩ h0 p).trans
      (congrArg (max ⊥) (tile5 V c ⟨n, lt_of_lt_of_eq h N100.symm⟩ h p)))
    (fun n h h0 => (pt5_B V c ⟨n, lt_of_lt_of_eq h N100.symm⟩ h0 p).trans
      (congrArg (max _) (tile5 V c ⟨n, lt_of_lt_of_eq h N100.symm⟩ h p)))
    n h

/-! ## The arrays after the run

Each point with tile index 49 writes its block, row `t / 50` of the output, and the two such points cover the two rows. -/

private abbrev G2 (c : Dev nD) : Buf (Elt Ideal) ((c : Thread nD τ).loc main_v1_0) := fun i => MI.lo2 (MI.sA (X V c) (M V c) (i 1)) (i 0)

private theorem idx0_2 : ∀ t : Fin cfg0.N, win0_2.index t 0 = t.val / 50 ∧ win0_2.index t 1 = 0 ∧ win0_2.index t 2 = 0 :=
  (by decide +kernel : ∀ t : Fin grid0.N, win0_2.index t 0 = t.val / 50 ∧ win0_2.index t 1 = 0 ∧ win0_2.index t 2 = 0)

/-- What a point with tile index 49 writes back is its block of the half's extremes: the block is row `t / 50` of the
    [2, 8, 1] array, and after the half's last tile the running extreme is the extreme over all 50 tiles. -/
private theorem flushed2 (c : Dev nD) (t : Fin cfg0.N) (hf : (cfg0.win 2).flush t = true) :
    (dat0 V c).flushed 2 t = ((cfg0.win 2).blk t).view.read (Elt Ideal) (G2 V c) := by
  have hN : t.val < 100 := lt_of_lt_of_eq t.isLt N100
  have h49 : t.val % 50 = 49 := (flush0_2 t).mp hf
  show (cfg0.win 2).cut (grid0.coords t) ((dat0 V c).after 2 t) = _
  rw [after0_2]
  funext y
  have hy0 : (y 0).val < 1 := (y 0).isLt
  have hy1 : (y 1).val < 8 := (y 1).isLt
  have hy2 : (y 2).val < 1 := (y 2).isLt
  rw [View.read_apply]
  refine Eq.trans ?_ (cast_eq _ _).symm
  show (outsAt0 V c t.val t.isLt).1 (win0_2.xinj (grid0.coords t) y) = _
  have ex : (win0_2.xinj (grid0.coords t) y : S1x8x1.Idx) = ix3 0 ⟨(y 1).val, hy1⟩ 0 := by
    funext a
    apply Fin.ext
    match a with
    | ⟨0, _⟩ => show (y 0).val = 0; omega
    | ⟨1, _⟩ => rfl
    | ⟨2, _⟩ => show (y 2).val = 0; omega
  have ey : (((cfg0.win 2).blk t).view.emb y : S2x8x1.Idx) = ix3 ⟨t.val / 50, by omega⟩ ⟨(y 1).val, hy1⟩ 0 := by
    funext a
    apply Fin.ext
    match a with
    | ⟨0, _⟩ => show win0_2.index t 0 * 1 + 1 * (y 0).val = t.val / 50; rw [(idx0_2 t).1]; omega
    | ⟨1, _⟩ => show win0_2.index t 1 * 8 + 1 * (y 1).val = (y 1).val; rw [(idx0_2 t).2.1]; omega
    | ⟨2, _⟩ => show win0_2.index t 2 * 1 + 1 * (y 2).val = 0; rw [(idx0_2 t).2.2]; omega
  refine (congrArg (outsAt0 V c t.val t.isLt).1 ex).trans ?_
  refine (inv2 V c ⟨(y 1).val, hy1⟩ t.val hN).trans ?_
  refine Eq.trans ?_ (congrArg (G2 V c) ey).symm
  rw [filt_last t.val h49]
  show _ = MI.lo2 (MI.sA (X V c) (M V c) ⟨(y 1).val, hy1⟩) ⟨t.val / 50, by omega⟩
  unfold MI.lo2
  rw [MI.inf_tile0]
  rfl

private theorem cover2 (i : S2x8x1.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 1 := (i 2).isLt
  have ht : 50 * (i 0).val + 49 < cfg0.N := by rw [N100]; omega
  refine ⟨⟨50 * (i 0).val + 49, ht⟩, (flush0_2 _).mpr (by show (50 * (i 0).val + 49) % 50 = 49; omega), ?_⟩
  show i ∈ ((View.whole main_v1_0).slice (win0_2.rect ⟨50 * (i 0).val + 49, ht⟩)).set
  rw [View.set_slice_whole, Rect.mem_set_unit]
  have e0 : win0_2.index ⟨50 * (i 0).val + 49, ht⟩ 0 = (50 * (i 0).val + 49) / 50 := (idx0_2 _).1
  have e1 : win0_2.index ⟨50 * (i 0).val + 49, ht⟩ 1 = 0 := (idx0_2 _).2.1
  have e2 : win0_2.index ⟨50 * (i 0).val + 49, ht⟩ 2 = 0 := (idx0_2 _).2.2
  intro a
  match a with
  | ⟨0, _⟩ => show win0_2.index ⟨50 * (i 0).val + 49, ht⟩ 0 * 1 ≤ (i 0).val ∧ (i 0).val < win0_2.index ⟨50 * (i 0).val + 49, ht⟩ 0 * 1 + 1
              rw [e0]; omega
  | ⟨1, _⟩ => show win0_2.index ⟨50 * (i 0).val + 49, ht⟩ 1 * 8 ≤ (i 1).val ∧ (i 1).val < win0_2.index ⟨50 * (i 0).val + 49, ht⟩ 1 * 8 + 8
              rw [e1]; omega
  | ⟨2, _⟩ => show win0_2.index ⟨50 * (i 0).val + 49, ht⟩ 2 * 1 ≤ (i 2).val ∧ (i 2).val < win0_2.index ⟨50 * (i 0).val + 49, ht⟩ 2 * 1 + 1
              rw [e2]; omega

/-- After the first region, for any contents `V` at its entry: output 2 holds, at `(cc, p, 0)`, the least of
    partition `p`'s selected-column sums over half `cc` of the rows; outputs 3, 4, 5 the greatest of those, and the
    least and the greatest of the left-out-column sums. -/
theorem reg0_minA (c : Dev nD) : (dat0 (F := Ideal) V c).arrAt 2 cfg0.N =
    (fun i => MI.lo2 (MI.sA (V c main_arg0) (V c main_v0) (i 1)) (i 0) : Buf (Elt Ideal) ((c : Thread nD τ).loc main_v1_0)) :=
  (dat0 V c).arrAt_eq_of_cover 2 (G2 V c) (flushed2 V c) cover2

private abbrev G3 (c : Dev nD) : Buf (Elt Ideal) ((c : Thread nD τ).loc main_v1_1) := fun i => MI.hi2 (MI.sA (X V c) (M V c) (i 1)) (i 0)

private theorem idx0_3 : ∀ t : Fin cfg0.N, win0_3.index t 0 = t.val / 50 ∧ win0_3.index t 1 = 0 ∧ win0_3.index t 2 = 0 :=
  (by decide +kernel : ∀ t : Fin grid0.N, win0_3.index t 0 = t.val / 50 ∧ win0_3.index t 1 = 0 ∧ win0_3.index t 2 = 0)

/-- What a point with tile index 49 writes back is its block of the half's extremes: the block is row `t / 50` of the
    [2, 8, 1] array, and after the half's last tile the running extreme is the extreme over all 50 tiles. -/
private theorem flushed3 (c : Dev nD) (t : Fin cfg0.N) (hf : (cfg0.win 3).flush t = true) :
    (dat0 V c).flushed 3 t = ((cfg0.win 3).blk t).view.read (Elt Ideal) (G3 V c) := by
  have hN : t.val < 100 := lt_of_lt_of_eq t.isLt N100
  have h49 : t.val % 50 = 49 := (flush0_3 t).mp hf
  show (cfg0.win 3).cut (grid0.coords t) ((dat0 V c).after 3 t) = _
  rw [after0_3]
  funext y
  have hy0 : (y 0).val < 1 := (y 0).isLt
  have hy1 : (y 1).val < 8 := (y 1).isLt
  have hy2 : (y 2).val < 1 := (y 2).isLt
  rw [View.read_apply]
  refine Eq.trans ?_ (cast_eq _ _).symm
  show (outsAt0 V c t.val t.isLt).2.1 (win0_3.xinj (grid0.coords t) y) = _
  have ex : (win0_3.xinj (grid0.coords t) y : S1x8x1.Idx) = ix3 0 ⟨(y 1).val, hy1⟩ 0 := by
    funext a
    apply Fin.ext
    match a with
    | ⟨0, _⟩ => show (y 0).val = 0; omega
    | ⟨1, _⟩ => rfl
    | ⟨2, _⟩ => show (y 2).val = 0; omega
  have ey : (((cfg0.win 3).blk t).view.emb y : S2x8x1.Idx) = ix3 ⟨t.val / 50, by omega⟩ ⟨(y 1).val, hy1⟩ 0 := by
    funext a
    apply Fin.ext
    match a with
    | ⟨0, _⟩ => show win0_3.index t 0 * 1 + 1 * (y 0).val = t.val / 50; rw [(idx0_3 t).1]; omega
    | ⟨1, _⟩ => show win0_3.index t 1 * 8 + 1 * (y 1).val = (y 1).val; rw [(idx0_3 t).2.1]; omega
    | ⟨2, _⟩ => show win0_3.index t 2 * 1 + 1 * (y 2).val = 0; rw [(idx0_3 t).2.2]; omega
  refine (congrArg (outsAt0 V c t.val t.isLt).2.1 ex).trans ?_
  refine (inv3 V c ⟨(y 1).val, hy1⟩ t.val hN).trans ?_
  refine Eq.trans ?_ (congrArg (G3 V c) ey).symm
  rw [filt_last t.val h49]
  show _ = MI.hi2 (MI.sA (X V c) (M V c) ⟨(y 1).val, hy1⟩) ⟨t.val / 50, by omega⟩
  unfold MI.hi2
  rw [MI.sup_tile0]
  rfl

private theorem cover3 (i : S2x8x1.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 1 := (i 2).isLt
  have ht : 50 * (i 0).val + 49 < cfg0.N := by rw [N100]; omega
  refine ⟨⟨50 * (i 0).val + 49, ht⟩, (flush0_3 _).mpr (by show (50 * (i 0).val + 49) % 50 = 49; omega), ?_⟩
  show i ∈ ((View.whole main_v1_1).slice (win0_3.rect ⟨50 * (i 0).val + 49, ht⟩)).set
  rw [View.set_slice_whole, Rect.mem_set_unit]
  have e0 : win0_3.index ⟨50 * (i 0).val + 49, ht⟩ 0 = (50 * (i 0).val + 49) / 50 := (idx0_3 _).1
  have e1 : win0_3.index ⟨50 * (i 0).val + 49, ht⟩ 1 = 0 := (idx0_3 _).2.1
  have e2 : win0_3.index ⟨50 * (i 0).val + 49, ht⟩ 2 = 0 := (idx0_3 _).2.2
  intro a
  match a with
  | ⟨0, _⟩ => show win0_3.index ⟨50 * (i 0).val + 49, ht⟩ 0 * 1 ≤ (i 0).val ∧ (i 0).val < win0_3.index ⟨50 * (i 0).val + 49, ht⟩ 0 * 1 + 1
              rw [e0]; omega
  | ⟨1, _⟩ => show win0_3.index ⟨50 * (i 0).val + 49, ht⟩ 1 * 8 ≤ (i 1).val ∧ (i 1).val < win0_3.index ⟨50 * (i 0).val + 49, ht⟩ 1 * 8 + 8
              rw [e1]; omega
  | ⟨2, _⟩ => show win0_3.index ⟨50 * (i 0).val + 49, ht⟩ 2 * 1 ≤ (i 2).val ∧ (i 2).val < win0_3.index ⟨50 * (i 0).val + 49, ht⟩ 2 * 1 + 1
              rw [e2]; omega

theorem reg0_maxA (c : Dev nD) : (dat0 (F := Ideal) V c).arrAt 3 cfg0.N =
    (fun i => MI.hi2 (MI.sA (V c main_arg0) (V c main_v0) (i 1)) (i 0) : Buf (Elt Ideal) ((c : Thread nD τ).loc main_v1_1)) :=
  (dat0 V c).arrAt_eq_of_cover 3 (G3 V c) (flushed3 V c) cover3

private abbrev G4 (c : Dev nD) : Buf (Elt Ideal) ((c : Thread nD τ).loc main_v1_2) := fun i => MI.lo2 (MI.sB (X V c) (M V c) (i 1)) (i 0)

private theorem idx0_4 : ∀ t : Fin cfg0.N, win0_4.index t 0 = t.val / 50 ∧ win0_4.index t 1 = 0 ∧ win0_4.index t 2 = 0 :=
  (by decide +kernel : ∀ t : Fin grid0.N, win0_4.index t 0 = t.val / 50 ∧ win0_4.index t 1 = 0 ∧ win0_4.index t 2 = 0)

/-- What a point with tile index 49 writes back is its block of the half's extremes: the block is row `t / 50` of the
    [2, 8, 1] array, and after the half's last tile the running extreme is the extreme over all 50 tiles. -/
private theorem flushed4 (c : Dev nD) (t : Fin cfg0.N) (hf : (cfg0.win 4).flush t = true) :
    (dat0 V c).flushed 4 t = ((cfg0.win 4).blk t).view.read (Elt Ideal) (G4 V c) := by
  have hN : t.val < 100 := lt_of_lt_of_eq t.isLt N100
  have h49 : t.val % 50 = 49 := (flush0_4 t).mp hf
  show (cfg0.win 4).cut (grid0.coords t) ((dat0 V c).after 4 t) = _
  rw [after0_4]
  funext y
  have hy0 : (y 0).val < 1 := (y 0).isLt
  have hy1 : (y 1).val < 8 := (y 1).isLt
  have hy2 : (y 2).val < 1 := (y 2).isLt
  rw [View.read_apply]
  refine Eq.trans ?_ (cast_eq _ _).symm
  show (outsAt0 V c t.val t.isLt).2.2.1 (win0_4.xinj (grid0.coords t) y) = _
  have ex : (win0_4.xinj (grid0.coords t) y : S1x8x1.Idx) = ix3 0 ⟨(y 1).val, hy1⟩ 0 := by
    funext a
    apply Fin.ext
    match a with
    | ⟨0, _⟩ => show (y 0).val = 0; omega
    | ⟨1, _⟩ => rfl
    | ⟨2, _⟩ => show (y 2).val = 0; omega
  have ey : (((cfg0.win 4).blk t).view.emb y : S2x8x1.Idx) = ix3 ⟨t.val / 50, by omega⟩ ⟨(y 1).val, hy1⟩ 0 := by
    funext a
    apply Fin.ext
    match a with
    | ⟨0, _⟩ => show win0_4.index t 0 * 1 + 1 * (y 0).val = t.val / 50; rw [(idx0_4 t).1]; omega
    | ⟨1, _⟩ => show win0_4.index t 1 * 8 + 1 * (y 1).val = (y 1).val; rw [(idx0_4 t).2.1]; omega
    | ⟨2, _⟩ => show win0_4.index t 2 * 1 + 1 * (y 2).val = 0; rw [(idx0_4 t).2.2]; omega
  refine (congrArg (outsAt0 V c t.val t.isLt).2.2.1 ex).trans ?_
  refine (inv4 V c ⟨(y 1).val, hy1⟩ t.val hN).trans ?_
  refine Eq.trans ?_ (congrArg (G4 V c) ey).symm
  rw [filt_last t.val h49]
  show _ = MI.lo2 (MI.sB (X V c) (M V c) ⟨(y 1).val, hy1⟩) ⟨t.val / 50, by omega⟩
  unfold MI.lo2
  rw [MI.inf_tile0]
  rfl

private theorem cover4 (i : S2x8x1.Idx) : ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 1 := (i 2).isLt
  have ht : 50 * (i 0).val + 49 < cfg0.N := by rw [N100]; omega
  refine ⟨⟨50 * (i 0).val + 49, ht⟩, (flush0_4 _).mpr (by show (50 * (i 0).val + 49) % 50 = 49; omega), ?_⟩
  show i ∈ ((View.whole main_v1_2).slice (win0_4.rect ⟨50 * (i 0).val + 49, ht⟩)).set
  rw [View.set_slice_whole, Rect.mem_set_unit]
  have e0 : win0_4.index ⟨50 * (i 0).val + 49, ht⟩ 0 = (50 * (i 0).val + 49) / 50 := (idx0_4 _).1
  have e1 : win0_4.index ⟨50 * (i 0).val + 49, ht⟩ 1 = 0 := (idx0_4 _).2.1
  have e2 : win0_4.index ⟨50 * (i 0).val + 49, ht⟩ 2 = 0 := (idx0_4 _).2.2
  intro a
  match a with
  | ⟨0, _⟩ => show win0_4.index ⟨50 * (i 0).val + 49, ht⟩ 0 * 1 ≤ (i 0).val ∧ (i 0).val < win0_4.index ⟨50 * (i 0).val + 49, ht⟩ 0 * 1 + 1
              rw [e0]; omega
  | ⟨1, _⟩ => show win0_4.index ⟨50 * (i 0).val + 49, ht⟩ 1 * 8 ≤ (i 1).val ∧ (i 1).val < win0_4.index ⟨50 * (i 0).val + 49, ht⟩ 1 * 8 + 8
              rw [e1]; omega
  | ⟨2, _⟩ => show win0_4.index ⟨50 * (i 0).val + 49, ht⟩ 2 * 1 ≤ (i 2).val ∧ (i 2).val < win0_4.index ⟨50 * (i 0).val + 49, ht⟩ 2 * 1 + 1
              rw [e2]; omega

theorem reg0_minB (c : Dev nD) : (dat0 (F := Ideal) V c).arrAt 4 cfg0.N =
    (fun i => MI.lo2 (MI.sB (V c main_arg0) (V c main_v0) (i 1)) (i 0) : Buf (Elt Ideal) ((c : Thread nD τ).loc main_v1_2)) :=
  (dat0 V c).arrAt_eq_of_cover 4 (G4 V c) (flushed4 V c) cover4

private abbrev G5 (c : Dev nD) : Buf (Elt Ideal) ((c : Thread nD τ).loc main_v1_3) := fun i => MI.hi2 (MI.sB (X V c) (M V c) (i 1)) (i 0)

private theorem idx0_5 : ∀ t : Fin cfg0.N, win0_5.index t 0 = t.val / 50 ∧ win0_5.index t 1 = 0 ∧ win0_5.index t 2 = 0 :=
  (by decide +kernel : ∀ t : Fin grid0.N, win0_5.index t 0 = t.val / 50 ∧ win0_5.index t 1 = 0 ∧ win0_5.index t 2 = 0)

/-- What a point with tile index 49 writes back is its block of the half's extremes: the block is row `t / 50` of the
    [2, 8, 1] array, and after the half's last tile the running extreme is the extreme over all 50 tiles. -/
private theorem flushed5 (c : Dev nD) (t : Fin cfg0.N) (hf : (cfg0.win 5).flush t = true) :
    (dat0 V c).flushed 5 t = ((cfg0.win 5).blk t).view.read (Elt Ideal) (G5 V c) := by
  have hN : t.val < 100 := lt_of_lt_of_eq t.isLt N100
  have h49 : t.val % 50 = 49 := (flush0_5 t).mp hf
  show (cfg0.win 5).cut (grid0.coords t) ((dat0 V c).after 5 t) = _
  rw [after0_5]
  funext y
  have hy0 : (y 0).val < 1 := (y 0).isLt
  have hy1 : (y 1).val < 8 := (y 1).isLt
  have hy2 : (y 2).val < 1 := (y 2).isLt
  rw [View.read_apply]
  refine Eq.trans ?_ (cast_eq _ _).symm
  show (outsAt0 V c t.val t.isLt).2.2.2 (win0_5.xinj (grid0.coords t) y) = _
  have ex : (win0_5.xinj (grid0.coords t) y : S1x8x1.Idx) = ix3 0 ⟨(y 1).val, hy1⟩ 0 := by
    funext a
    apply Fin.ext
    match a with
    | ⟨0, _⟩ => show (y 0).val = 0; omega
    | ⟨1, _⟩ => rfl
    | ⟨2, _⟩ => show (y 2).val = 0; omega
  have ey : (((cfg0.win 5).blk t).view.emb y : S2x8x1.Idx) = ix3 ⟨t.val / 50, by omega⟩ ⟨(y 1).val, hy1⟩ 0 := by
    funext a
    apply Fin.ext
    match a with
    | ⟨0, _⟩ => show win0_5.index t 0 * 1 + 1 * (y 0).val = t.val / 50; rw [(idx0_5 t).1]; omega
    | ⟨1, _⟩ => show win0_5.index t 1 * 8 + 1 * (y 1).val = (y 1).val; rw [(idx0_5 t).2.1]; omega
    | ⟨2, _⟩ => show win0_5.index t 2 * 1 + 1 * (y 2).val = 0; rw [(idx0_5 t).2.2]; omega
  refine (congrArg (outsAt0 V c t.val t.isLt).2.2.2 ex).trans ?_
  refine (inv5 V c ⟨(y 1).val, hy1⟩ t.val hN).trans ?_
  refine Eq.trans ?_ (congrArg (G5 V c) ey).symm
  rw [filt_last t.val h49]
  show _ = MI.hi2 (MI.sB (X V c) (M V c) ⟨(y 1).val, hy1⟩) ⟨t.val / 50, by omega⟩
  unfold MI.hi2
  rw [MI.sup_tile0]
  rfl

private theorem cover5 (i : S2x8x1.Idx) : ∃ t : Fin cfg0.N, (cfg0.win 5).flush t = true ∧ i ∈ ((cfg0.win 5).blk t).view.set := by
  have h0 : (i 0).val < 2 := (i 0).isLt
  have h1 : (i 1).val < 8 := (i 1).isLt
  have h2 : (i 2).val < 1 := (i 2).isLt
  have ht : 50 * (i 0).val + 49 < cfg0.N := by rw [N100]; omega
  refine ⟨⟨50 * (i 0).val + 49, ht⟩, (flush0_5 _).mpr (by show (50 * (i 0).val + 49) % 50 = 49; omega), ?_⟩
  show i ∈ ((View.whole main_v1_3).slice (win0_5.rect ⟨50 * (i 0).val + 49, ht⟩)).set
  rw [View.set_slice_whole, Rect.mem_set_unit]
  have e0 : win0_5.index ⟨50 * (i 0).val + 49, ht⟩ 0 = (50 * (i 0).val + 49) / 50 := (idx0_5 _).1
  have e1 : win0_5.index ⟨50 * (i 0).val + 49, ht⟩ 1 = 0 := (idx0_5 _).2.1
  have e2 : win0_5.index ⟨50 * (i 0).val + 49, ht⟩ 2 = 0 := (idx0_5 _).2.2
  intro a
  match a with
  | ⟨0, _⟩ => show win0_5.index ⟨50 * (i 0).val + 49, ht⟩ 0 * 1 ≤ (i 0).val ∧ (i 0).val < win0_5.index ⟨50 * (i 0).val + 49, ht⟩ 0 * 1 + 1
              rw [e0]; omega
  | ⟨1, _⟩ => show win0_5.index ⟨50 * (i 0).val + 49, ht⟩ 1 * 8 ≤ (i 1).val ∧ (i 1).val < win0_5.index ⟨50 * (i 0).val + 49, ht⟩ 1 * 8 + 8
              rw [e1]; omega
  | ⟨2, _⟩ => show win0_5.index ⟨50 * (i 0).val + 49, ht⟩ 2 * 1 ≤ (i 2).val ∧ (i 2).val < win0_5.index ⟨50 * (i 0).val + 49, ht⟩ 2 * 1 + 1
              rw [e2]; omega

theorem reg0_maxB (c : Dev nD) : (dat0 (F := Ideal) V c).arrAt 5 cfg0.N =
    (fun i => MI.hi2 (MI.sB (V c main_arg0) (V c main_v0) (i 1)) (i 0) : Buf (Elt Ideal) ((c : Thread nD τ).loc main_v1_3)) :=
  (dat0 V c).arrAt_eq_of_cover 5 (G5 V c) (flushed5 V c) cover5

end Cert.KernelIdeal.KV

end
-- ==== Proof.KPay1.lean ====
/-
  The second kernel's arithmetic on one tile of 8000 rows, read at one entry of the histogram block.
-/
import proofs.«135964_j5007931867607_1_alg».proof.Proof.Gen.KernelIdeal.Frame
import proofs.«135964_j5007931867607_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert

/-! ### The row-by-row product: a [8,64] block against the transpose of a [8000,64] block -/

private theorem dotA_lhs_0 (i : S8x8000.Idx) (q : dot_S8x64_S8000x64_S8x8000_1_1_0_0_n_n.contr.Idx) :
    (dot_S8x64_S8000x64_S8x8000_1_1_0_0_n_n.lhsIdx i q 0).val = (i 0).val := by
  unfold DotDims.lhsIdx
  rw [dif_neg (show ¬(0 : Fin S8x64.rank) ∈ dot_S8x64_S8000x64_S8x8000_1_1_0_0_n_n.lhsBatch by decide), dif_pos (show (0 : Fin S8x64.rank) ∈ dot_S8x64_S8000x64_S8x8000_1_1_0_0_n_n.lhsNonContracting by decide)]
  rfl
private theorem dotA_lhs_1 (i : S8x8000.Idx) (q : dot_S8x64_S8000x64_S8x8000_1_1_0_0_n_n.contr.Idx) :
    (dot_S8x64_S8000x64_S8x8000_1_1_0_0_n_n.lhsIdx i q 1).val = (q ⟨0, by decide⟩).val :=
  dot_S8x64_S8000x64_S8x8000_1_1_0_0_n_n.lhsIdx_val_of_single rfl i q
private theorem dotA_rhs_0 (i : S8x8000.Idx) (q : dot_S8x64_S8000x64_S8x8000_1_1_0_0_n_n.contr.Idx) :
    (dot_S8x64_S8000x64_S8x8000_1_1_0_0_n_n.rhsIdx i q 0).val = (i 1).val := by
  unfold DotDims.rhsIdx
  rw [dif_neg (show ¬(0 : Fin S8000x64.rank) ∈ dot_S8x64_S8000x64_S8x8000_1_1_0_0_n_n.rhsBatch by decide), dif_pos (show (0 : Fin S8000x64.rank) ∈ dot_S8x64_S8000x64_S8x8000_1_1_0_0_n_n.rhsNonContracting by decide)]
  rfl
private theorem dotA_rhs_1 (i : S8x8000.Idx) (q : dot_S8x64_S8000x64_S8x8000_1_1_0_0_n_n.contr.Idx) :
    (dot_S8x64_S8000x64_S8x8000_1_1_0_0_n_n.rhsIdx i q 1).val = (q ⟨0, by decide⟩).val :=
  dot_S8x64_S8000x64_S8x8000_1_1_0_0_n_n.rhsIdx_val_of_single rfl i q

/-- Entry `(p, t)` of the product into the zero block is the sum over the 64 columns of row `p` of the left block
    times row `t` of the right block. -/
private theorem dotA_apply (l : FVec Ideal S8x64 .bf16) (r : FVec Ideal S8000x64 .bf16) (p : Fin 8) (t : Fin 8000) :
    matmul dot_S8x64_S8000x64_S8x8000_1_1_0_0_n_n none l r (constant (F := Ideal) S8x8000 .f32 0x00000000#32) (ix2 p t)
      = ∑ d : Fin 64, l (ix2 p d) * r (ix2 t d) := by
  show FloatOps.matmul dot_S8x64_S8000x64_S8x8000_1_1_0_0_n_n none l r (constant (F := Ideal) S8x8000 .f32 0x00000000#32) (ix2 p t) = _
  rw [Ideal.matmul_constant_zero_apply, ← Equiv.sum_comp (ValueIdx.contrEquiv1 dot_S8x64_S8000x64_S8x8000_1_1_0_0_n_n 64 rfl rfl).symm]
  refine Finset.sum_congr rfl fun k _ => ?_
  have hk := ValueIdx.contrEquiv1_symm_val dot_S8x64_S8000x64_S8x8000_1_1_0_0_n_n 64 rfl rfl k
  have el : dot_S8x64_S8000x64_S8x8000_1_1_0_0_n_n.lhsIdx (ix2 p t) ((ValueIdx.contrEquiv1 dot_S8x64_S8000x64_S8x8000_1_1_0_0_n_n 64 rfl rfl).symm k) = ix2 p k := funext fun a => Fin.ext (by
    match a with
    | ⟨0, _⟩ => exact dotA_lhs_0 _ _
    | ⟨1, _⟩ => exact (dotA_lhs_1 _ _).trans hk)
  have er : dot_S8x64_S8000x64_S8x8000_1_1_0_0_n_n.rhsIdx (ix2 p t) ((ValueIdx.contrEquiv1 dot_S8x64_S8000x64_S8x8000_1_1_0_0_n_n 64 rfl rfl).symm k) = ix2 t k := funext fun a => Fin.ext (by
    match a with
    | ⟨0, _⟩ => exact dotA_rhs_0 _ _
    | ⟨1, _⟩ => exact (dotA_rhs_1 _ _).trans hk)
  rw [el, er]

/-! ### A column broadcast along the rows of a tile -/

/-- An [8,1] column broadcast to [8,8000] reads, at `(p, t)`, the column's entry `p`. -/
private theorem bcol_apply {α : Type} (v : S8x1.Idx → α) (h : S8x1.Broadcasts S8x8000) (p : Fin 8) (t : Fin 8000) :
    broadcastTo S8x8000 v h (ix2 p t) = v (ix2 p 0) := by
  refine broadcastTo_apply v h (ix2 p t) (ix2 p 0) fun ax => ?_
  match ax with
  | ⟨0, _⟩ =>
    show p.val = if (8 : Nat) = 1 then 0 else p.val
    rw [if_neg (by decide)]
  | ⟨1, _⟩ => rfl

/-! ### The two normalised sums of one row, and the second one's denominator -/

private theorem pay4_apply (x0 : Vec Ideal S8000x64 .f32) (x1 : Vec Ideal S8x64 .f32) (mn mx cnt : Vec Ideal S8x1 .f32)
    (p : Fin 8) (t : Fin 8000) :
    k1_pay4 (F := Ideal) x0 x1 mn mx cnt (ix2 p t)
      = Ideal.div ((∑ d : Fin 64, x1 (ix2 p d) * x0 (ix2 t d)) - mn (ix2 p 0))
          (mx (ix2 p 0) - mn (ix2 p 0) + MI.eps * cnt (ix2 p 0)) := by
  unfold k1_pay4 k1_pay1 k1_pay2
  simp only [shapeCast_self, divf_apply, subf_apply, bcol_apply, dotA_apply, addf_apply, mulf_apply, broadcast_apply, truncf_apply]
  rfl

private theorem pay5_apply (x0 : Vec Ideal S8000x64 .f32) (x1 : Vec Ideal S8x64 .f32) (mn : Vec Ideal S8x1 .f32)
    (p : Fin 8) (t : Fin 8000) :
    k1_pay5 (F := Ideal) x0 x1 mn (ix2 p t)
      = (∑ d : Fin 64, (MI.one - x1 (ix2 p d)) * x0 (ix2 t d)) - mn (ix2 p 0) := by
  unfold k1_pay5 k1_pay1 k1_pay2 k1_pay3
  simp only [shapeCast_self, subf_apply, bcol_apply, dotA_apply, broadcast_apply, truncf_apply]
  rfl

private theorem pay6_apply (mn mx cnt : Vec Ideal S8x1 .f32) (p : Fin 8) (t : Fin 8000) :
    k1_pay6 (F := Ideal) mn mx cnt (ix2 p t) = mx (ix2 p 0) - mn (ix2 p 0) + MI.eps * cnt (ix2 p 0) := by
  unfold k1_pay6 k1_pay3
  simp only [shapeCast_self, subf_apply, bcol_apply, addf_apply, mulf_apply, broadcast_apply]
  rfl

/-! ### The bin of a row compared with the ten bin numbers -/

/-- A 32-bit comparison for equality, widened and read as a signed integer, is 1 where the words agree and 0 elsewhere. -/
private theorem eqBit_toReal (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [if_pos rfl]
    simp [IntOp.cmpi]
  · rw [if_neg h]
    have hb : (a == b) = false := beq_eq_false_iff_ne.mpr h
    simp [IntOp.cmpi, hb]

/-- An [8,8000] block seen as [8,8000,1] reads, at `(p, t, u)`, the block at `(p, t)`. -/
private theorem castLast_apply {α : Type} (v : S8x8000.Idx → α) (h : S8x8000.ShapeCasts S8x8000x1) (p : Fin 8) (t : Fin 8000) (u : Fin 1) :
    shapeCast S8x8000x1 v h (ix3 p t u) = v (ix2 p t) :=
  shapeCast_apply v h _ _ (by
    have hu : u.val = 0 := by omega
    rw [Shape.rowMajor_val_three, Shape.rowMajor_val_two]
    show p.val * 8000 + t.val = (p.val * 8000 + t.val) * 1 + u.val
    rw [hu, Nat.mul_one, Nat.add_zero])

/-- An [8,8000,1] block broadcast along a last axis of ten reads, at `(p, t, i)`, the block at `(p, t, 0)`. -/
private theorem bcLast_apply {α : Type} (v : S8x8000x1.Idx → α) (h : S8x8000x1.Broadcasts S8x8000x10) (p : Fin 8) (t : Fin 8000) (i : Fin 10) :
    broadcastTo S8x8000x10 v h (ix3 p t i) = v (ix3 p t 0) := by
  refine broadcastTo_apply v h (ix3 p t i) (ix3 p t 0) fun ax => ?_
  match ax with
  | ⟨0, _⟩ =>
    show p.val = if (8 : Nat) = 1 then 0 else p.val
    rw [if_neg (by decide)]
  | ⟨1, _⟩ =>
    show t.val = if (8000 : Nat) = 1 then 0 else t.val
    rw [if_neg (by decide)]
  | ⟨2, _⟩ => rfl

/-- A [1,1,10] row broadcast over [8,8000,10] reads, at `(p, t, i)`, the row at `i`. -/
private theorem bcRow_apply {α : Type} (v : S1x1x10.Idx → α) (h : S1x1x10.Broadcasts S8x8000x10) (p : Fin 8) (t : Fin 8000) (i : Fin 10) :
    broadcastTo S8x8000x10 v h (ix3 p t i) = v (ix3 0 0 i) := by
  refine broadcastTo_apply v h (ix3 p t i) (ix3 0 0 i) fun ax => ?_
  match ax with
  | ⟨0, _⟩ => rfl
  | ⟨1, _⟩ => rfl
  | ⟨2, _⟩ =>
    show i.val = if (10 : Nat) = 1 then 0 else i.val
    rw [if_neg (by decide)]

/-- The indicator block: entry `(p, t, i)` is 1 where the word at `(p, t)` is the bin number `i`, else 0. -/
private theorem onehot_apply (xb : IVec S8x8000 32) (h1 : S8x8000.ShapeCasts S8x8000x1) (h2 : S8x8000x1.Broadcasts S8x8000x10)
    (h3 : S1x1x10.Broadcasts S8x8000x10) (hI : S1x1x10.Iotas .tc 32 [2]) (hw : 1 < 32) (p : Fin 8) (t : Fin 8000) (i : Fin 10) :
    (sitofp (F := Ideal) .f32 (extui 32 (cmpi .eq (broadcastTo S8x8000x10 (shapeCast S8x8000x1 xb h1) h2)
        (broadcastTo S8x8000x10 (iota .tc S1x1x10 32 [2] hI) h3)) hw)) (ix3 p t i)
      = MI.oh (xb (ix2 p t)) i := by
  show FloatOps.sitofp (F := Ideal) .f32 ((IntOp.cmpi .eq (broadcastTo S8x8000x10 (shapeCast S8x8000x1 xb h1) h2 (ix3 p t i))
        (broadcastTo S8x8000x10 (iota .tc S1x1x10 32 [2] hI) h3 (ix3 p t i))).setWidth 32) = _
  rw [bcLast_apply, bcRow_apply, castLast_apply, iota_single_apply, eqBit_toReal]
  rfl

/-! ### The product of two indicator blocks, partition by partition, contracted over the tile's rows -/

private theorem dotB_lhs_0 (i : S8x10x10.Idx) (q : dot_S8x8000x10_S8x8000x10_S8x10x10_1_1_2_2_0_0.contr.Idx) :
    (dot_S8x8000x10_S8x8000x10_S8x10x10_1_1_2_2_0_0.lhsIdx i q 0).val = (i 0).val := by
  unfold DotDims.lhsIdx
  rw [dif_pos (show (0 : Fin S8x8000x10.rank) ∈ dot_S8x8000x10_S8x8000x10_S8x10x10_1_1_2_2_0_0.lhsBatch by decide)]
  rfl
private theorem dotB_lhs_1 (i : S8x10x10.Idx) (q : dot_S8x8000x10_S8x8000x10_S8x10x10_1_1_2_2_0_0.contr.Idx) :
    (dot_S8x8000x10_S8x8000x10_S8x10x10_1_1_2_2_0_0.lhsIdx i q 1).val = (q ⟨0, by decide⟩).val :=
  dot_S8x8000x10_S8x8000x10_S8x10x10_1_1_2_2_0_0.lhsIdx_val_of_single rfl i q
private theorem dotB_lhs_2 (i : S8x10x10.Idx) (q : dot_S8x8000x10_S8x8000x10_S8x10x10_1_1_2_2_0_0.contr.Idx) :
    (dot_S8x8000x10_S8x8000x10_S8x10x10_1_1_2_2_0_0.lhsIdx i q 2).val = (i 1).val := by
  unfold DotDims.lhsIdx
  rw [dif_neg (show ¬(2 : Fin S8x8000x10.rank) ∈ dot_S8x8000x10_S8x8000x10_S8x10x10_1_1_2_2_0_0.lhsBatch by decide), dif_pos (show (2 : Fin S8x8000x10.rank) ∈ dot_S8x8000x10_S8x8000x10_S8x10x10_1_1_2_2_0_0.lhsNonContracting by decide)]
  rfl
private theorem dotB_rhs_0 (i : S8x10x10.Idx) (q : dot_S8x8000x10_S8x8000x10_S8x10x10_1_1_2_2_0_0.contr.Idx) :
    (dot_S8x8000x10_S8x8000x10_S8x10x10_1_1_2_2_0_0.rhsIdx i q 0).val = (i 0).val := by
  unfold DotDims.rhsIdx
  rw [dif_pos (show (0 : Fin S8x8000x10.rank) ∈ dot_S8x8000x10_S8x8000x10_S8x10x10_1_1_2_2_0_0.rhsBatch by decide)]
  rfl
private theorem dotB_rhs_1 (i : S8x10x10.Idx) (q : dot_S8x8000x10_S8x8000x10_S8x10x10_1_1_2_2_0_0.contr.Idx) :
    (dot_S8x8000x10_S8x8000x10_S8x10x10_1_1_2_2_0_0.rhsIdx i q 1).val = (q ⟨0, by decide⟩).val :=
  dot_S8x8000x10_S8x8000x10_S8x10x10_1_1_2_2_0_0.rhsIdx_val_of_single rfl i q
private theorem dotB_rhs_2 (i : S8x10x10.Idx) (q : dot_S8x8000x10_S8x8000x10_S8x10x10_1_1_2_2_0_0.contr.Idx) :
    (dot_S8x8000x10_S8x8000x10_S8x10x10_1_1_2_2_0_0.rhsIdx i q 2).val = (i 2).val := by
  unfold DotDims.rhsIdx
  rw [dif_neg (show ¬(2 : Fin S8x8000x10.rank) ∈ dot_S8x8000x10_S8x8000x10_S8x10x10_1_1_2_2_0_0.rhsBatch by decide), dif_pos (show (2 : Fin S8x8000x10.rank) ∈ dot_S8x8000x10_S8x8000x10_S8x10x10_1_1_2_2_0_0.rhsNonContracting by decide)]
  rfl

/-- Entry `(p, i, j)` of the batched product into the zero block is the sum over the tile's 8000 rows of the left
    block at `(p, t, i)` times the right block at `(p, t, j)`. -/
private theorem dotB_apply (l r : FVec Ideal S8x8000x10 .bf16) (p : Fin 8) (i j : Fin 10) :
    matmul dot_S8x8000x10_S8x8000x10_S8x10x10_1_1_2_2_0_0 none l r (constant (F := Ideal) S8x10x10 .f32 0x00000000#32) (ix3 p i j)
      = ∑ t : Fin 8000, l (ix3 p t i) * r (ix3 p t j) := by
  show FloatOps.matmul dot_S8x8000x10_S8x8000x10_S8x10x10_1_1_2_2_0_0 none l r (constant (F := Ideal) S8x10x10 .f32 0x00000000#32) (ix3 p i j) = _
  rw [Ideal.matmul_constant_zero_apply, ← Equiv.sum_comp (ValueIdx.contrEquiv1 dot_S8x8000x10_S8x8000x10_S8x10x10_1_1_2_2_0_0 8000 rfl rfl).symm]
  refine Finset.sum_congr rfl fun k _ => ?_
  have hk := ValueIdx.contrEquiv1_symm_val dot_S8x8000x10_S8x8000x10_S8x10x10_1_1_2_2_0_0 8000 rfl rfl k
  have el : dot_S8x8000x10_S8x8000x10_S8x10x10_1_1_2_2_0_0.lhsIdx (ix3 p i j) ((ValueIdx.contrEquiv1 dot_S8x8000x10_S8x8000x10_S8x10x10_1_1_2_2_0_0 8000 rfl rfl).symm k) = ix3 p k i := funext fun a => Fin.ext (by
    match a with
    | ⟨0, _⟩ => exact dotB_lhs_0 _ _
    | ⟨1, _⟩ => exact (dotB_lhs_1 _ _).trans hk
    | ⟨2, _⟩ => exact dotB_lhs_2 _ _)
  have er : dot_S8x8000x10_S8x8000x10_S8x10x10_1_1_2_2_0_0.rhsIdx (ix3 p i j) ((ValueIdx.contrEquiv1 dot_S8x8000x10_S8x8000x10_S8x10x10_1_1_2_2_0_0 8000 rfl rfl).symm k) = ix3 p k j := funext fun a => Fin.ext (by
    match a with
    | ⟨0, _⟩ => exact dotB_rhs_0 _ _
    | ⟨1, _⟩ => exact (dotB_rhs_1 _ _).trans hk
    | ⟨2, _⟩ => exact dotB_rhs_2 _ _)
  rw [el, er]

/-! ### The store's value at one entry -/

/-- The accumulation step at `(0, p, i, j)`, over any three row-by-partition blocks: the buffer's entry plus the
    number of rows whose two clipped, truncated, ten-fold values are `i` and `j`. -/
private theorem pay8_apply (a b c : FVec Ideal S8x8000 .f32) (acc : Vec Ideal S1x8x10x10 .f32) (p : Fin 8) (i j : Fin 10) :
    k1_pay8 (F := Ideal) a b c acc (ix4 0 p i j)
      = acc (ix4 0 p i j) + ∑ t : Fin 8000,
          MI.oh (MI.clip9 (Ideal.fptosi 32 (a (ix2 p t) * MI.ten))) i
          * MI.oh (MI.clip9 (Ideal.fptosi 32 (Ideal.div (b (ix2 p t)) (c (ix2 p t)) * MI.ten))) j := by
  unfold k1_pay8
  dsimp only
  refine (shapeCast_abc_1abc_apply _ _ 0 p i j).trans ?_
  rw [addf_apply, shapeCast_1abc_abc_apply, dotB_apply]
  refine congrArg (acc (ix4 0 p i j) + ·) (Finset.sum_congr rfl fun t _ => ?_)
  rw [truncf_apply, truncf_apply, onehot_apply, onehot_apply]
  rfl

/-- One tile's contribution: the store's value at `(0, p, i, j)` is what the buffer held there plus the number of
    the tile's rows whose two bins — from the row's two masked sums, normalised by the given extremes and counts —
    are `i` and `j`. -/
theorem pay1_apply (x0 : Vec Ideal S8000x64 .f32) (x1 : Vec Ideal S8x64 .f32)
    (cnta cntb mina maxa minb maxb : Vec Ideal S8x1 .f32) (acc : Vec Ideal S1x8x10x10 .f32) (p : Fin 8) (i j : Fin 10) :
    k1_pay8 (F := Ideal) (k1_pay4 x0 x1 mina maxa cnta) (k1_pay5 x0 x1 minb) (k1_pay6 minb maxb cntb) acc (ix4 0 p i j)
      = acc (ix4 0 p i j) + ∑ r : Fin 8000,
          MI.oh (MI.binG (∑ d : Fin 64, x1 (ix2 p d) * x0 (ix2 r d)) (mina (ix2 p 0)) (maxa (ix2 p 0)) (cnta (ix2 p 0))) i
          * MI.oh (MI.binG (∑ d : Fin 64, (MI.one - x1 (ix2 p d)) * x0 (ix2 r d)) (minb (ix2 p 0)) (maxb (ix2 p 0)) (cntb (ix2 p 0))) j := by
  rw [pay8_apply]
  refine congrArg (acc (ix4 0 p i j) + ·) (Finset.sum_congr rfl fun t _ => ?_)
  rw [pay4_apply, pay5_apply, pay6_apply]
  rfl

end Cert.KernelIdeal.KV

end
-- ==== Proof.KReg1.lean ====
/-
  The second kernel region: for each half of the rows (one per core), each partition and each pair of bins it leaves
  the number of the half's rows that fall in that pair of bins.
-/
import proofs.«135964_j5007931867607_1_alg».proof.Proof.Gen.KernelIdeal.Frame
import proofs.«135964_j5007931867607_1_alg».proof.Proof.Spec
import proofs.«135964_j5007931867607_1_alg».proof.Proof.KPay1
import proofs.«135964_j5007931867607_1_alg».proof.Proof.Reindex
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert

open Idealize.ShloMosaic.Tactic

/-! ## What each case of the body leaves in the output block -/

section Pieces

variable {F : FTy → Type} [FloatOps F]

private theorem zero4 : (![0, 0, 0, 0] : Fin 4 → Nat) = fun _ => 0 := funext fun a => by fin_cases a <;> rfl
private theorem zero2 : (![0, 0] : Fin 2 → Nat) = fun _ => 0 := funext fun a => by fin_cases a <;> rfl

/-- Away from the first tile of a half the body adds the tile's counts to what the block held. -/
private theorem out_step (c : Dev nD) (i : grid1.Coords) (a2 : Memref sig .tc .vmem S8000x64 .f32) (h2 : a2.IsWhole) (a3 : Memref sig .tc .vmem S8x64 .f32) (h3 : a3.IsWhole) (a4 : Memref sig .tc .vmem S8x1 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (a9 : Memref sig .tc .vmem S8x1 .f32) (h9 : a9.IsWhole) (a10 : Memref sig .tc .vmem S1x8x10x10 .f32) (h10 : a10.IsWhole) (hc : ¬cond1_0 i)
    (x0 : Vec F S8000x64 .f32) (x1 : Vec F S8x64 .f32) (x2 x3 x4 x5 x6 x7 : Vec F S8x1 .f32) (xo8 : Vec F S1x8x10x10 .f32) :
    out1_B_8 c i a2 h2 a3 h3 a4 h4 a5 h5 a6 h6 a7 h7 a8 h8 a9 h9 a10 h10 hc x0 x1 x2 x3 x4 x5 x6 x7 xo8
      = k1_pay8 (k1_pay4 x0 x1 x4 x5 x2) (k1_pay5 x0 x1 x6) (k1_pay6 x6 x7 x3) xo8 := by
  unfold out1_B_8
  rw [View.read_writes_eq_canon _ _ _ (cover1_B_8 c i a2 h2 a3 h3 a4 h4 a5 h5 a6 h6 a7 h7 a8 h8 a9 h9 a10 h10 hc x0 x1 x2 x3 x4 x5 x6 x7 xo8)]
  unfold kernelRun1_B
  dsimp only
  sl_unfold_words
  rw [View.canon_unit_zero zero4]
  simp only [View.readAt_eq_ld, h2.read_unread, h3.read_unread, h4.read_unread, h5.read_unread, h6.read_unread, h7.read_unread, h8.read_unread, h9.read_unread, h10.read_unread, View.ld_unit_zero (S := S8000x64) zero2, View.ld_unit_zero (S := S8x64) zero2, View.ld_unit_zero (S := S8x1) zero2, View.ld_unit_zero (S := S1x8x10x10) zero4]

/-- At the first tile of a half the body first clears the block, so it adds the tile's counts to zero. -/
private theorem out_first (c : Dev nD) (i : grid1.Coords) (a2 : Memref sig .tc .vmem S8000x64 .f32) (h2 : a2.IsWhole) (a3 : Memref sig .tc .vmem S8x64 .f32) (h3 : a3.IsWhole) (a4 : Memref sig .tc .vmem S8x1 .f32) (h4 : a4.IsWhole) (a5 : Memref sig .tc .vmem S8x1 .f32) (h5 : a5.IsWhole) (a6 : Memref sig .tc .vmem S8x1 .f32) (h6 : a6.IsWhole) (a7 : Memref sig .tc .vmem S8x1 .f32) (h7 : a7.IsWhole) (a8 : Memref sig .tc .vmem S8x1 .f32) (h8 : a8.IsWhole) (a9 : Memref sig .tc .vmem S8x1 .f32) (h9 : a9.IsWhole) (a10 : Memref sig .tc .vmem S1x8x10x10 .f32) (h10 : a10.IsWhole) (hc : cond1_0 i)
    (x0 : Vec F S8000x64 .f32) (x1 : Vec F S8x64 .f32) (x2 x3 x4 x5 x6 x7 : Vec F S8x1 .f32) :
    out1_A_8 c i a2 h2 a3 h3 a4 h4 a5 h5 a6 h6 a7 h7 a8 h8 a9 h9 a10 h10 hc x0 x1 x2 x3 x4 x5 x6 x7
      = k1_pay8 (k1_pay4 x0 x1 x4 x5 x2) (k1_pay5 x0 x1 x6) (k1_pay6 x6 x7 x3) (k1_pay7 (F := F)) := by
  unfold out1_A_8
  rw [View.read_writes_eq_canon _ _ _ (cover1_A_8 c i a2 h2 a3 h3 a4 h4 a5 h5 a6 h6 a7 h7 a8 h8 a9 h9 a10 h10 hc x0 x1 x2 x3 x4 x5 x6 x7)]
  unfold kernelRun1_A
  dsimp only
  sl_unfold_words
  rw [View.canon_cons_unit_zero (S := S1x8x10x10) zero4, View.readCov_unit_zero (S := S1x8x10x10) _ zero4]
  simp only [View.readAt_eq_ld, h2.read_unread, h3.read_unread, h4.read_unread, h5.read_unread, h6.read_unread, h7.read_unread, h8.read_unread, h9.read_unread, View.ld_unit_zero (S := S8000x64) zero2, View.ld_unit_zero (S := S8x64) zero2, View.ld_unit_zero (S := S8x1) zero2, View.ld_unit_zero (S := S1x8x10x10) zero4, View.readCov_unit_zero (S := S1x8x10x10) _ zero4]

end Pieces

variable (V : (c : Dev nD) → (b : Ref sig .tc) → Buf (Elt Ideal) ((c : Thread nD τ).loc b))

/-! ## The blocks a point reads -/

/-- Row `r` of the tile of 8000 rows that point `n` works on. -/
private def rowN (n : ℕ) (r : Fin 8000) : Fin 2000000 := ⟨(n * 8000 + r.val) % 2000000, Nat.mod_lt _ (by decide)⟩

/-- Point `t` reads block `t` of the rows. -/
private theorem idx_rows : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

private abbrev rowsAt (c : Dev nD) (t : Fin cfg1.N) : Vec Ideal S8000x64 .f32 := iblk1 V c 0 t
private abbrev maskAt (c : Dev nD) (t : Fin cfg1.N) : Vec Ideal S8x64 .f32 := iblk1 V c 1 t
private abbrev cntaAt (c : Dev nD) (t : Fin cfg1.N) : Vec Ideal S8x1 .f32 := iblk1 V c 2 t
private abbrev cntbAt (c : Dev nD) (t : Fin cfg1.N) : Vec Ideal S8x1 .f32 := iblk1 V c 3 t
private abbrev minaAt (c : Dev nD) (t : Fin cfg1.N) : Vec Ideal S8x1 .f32 := iblk1 V c 4 t
private abbrev maxaAt (c : Dev nD) (t : Fin cfg1.N) : Vec Ideal S8x1 .f32 := iblk1 V c 5 t
private abbrev minbAt (c : Dev nD) (t : Fin cfg1.N) : Vec Ideal S8x1 .f32 := iblk1 V c 6 t
private abbrev maxbAt (c : Dev nD) (t : Fin cfg1.N) : Vec Ideal S8x1 .f32 := iblk1 V c 7 t

private theorem rowsAt_apply (c : Dev nD) (t : Fin cfg1.N) (r : Fin 8000) (d : Fin 64) :
    rowsAt V c t (ix2 r d) = V c main_arg0 (ix2 (rowN t.val r) d) := by
  have hN : t.val < 250 := lt_of_lt_of_eq t.isLt (show cfg1.N = 250 from N_1)
  obtain ⟨e0, e1⟩ := idx_rows t
  unfold rowsAt iblk1
  rw [View.read_apply]
  show V c main_arg0 (((cfg1.win 0).blk t).view.emb (ix2 r d)) = _
  refine congrArg (V c main_arg0) (funext fun a => Fin.ext ?_)
  match a with
  | ⟨0, _⟩ =>
    show win1_0.index t 0 * 8000 + 1 * r.val = (t.val * 8000 + r.val) % 2000000
    have hr : r.val < 8000 := r.isLt
    rw [e0]; omega
  | ⟨1, _⟩ =>
    show win1_0.index t 1 * 64 + 1 * d.val = d.val
    rw [e1]; omega

private theorem maskAt_apply (c : Dev nD) (t : Fin cfg1.N) (p : Fin 8) (d : Fin 64) :
    maskAt V c t (ix2 p d) = V c main_v0 (ix2 p d) := by
  unfold maskAt iblk1
  rw [View.read_apply]
  show V c main_v0 (((cfg1.win 1).blk t).view.emb (ix2 p d)) = _
  refine congrArg (V c main_v0) (funext fun a => Fin.ext ?_)
  match a with
  | ⟨0, _⟩ => show 0 * 8 + 1 * p.val = p.val; omega
  | ⟨1, _⟩ => show 0 * 64 + 1 * d.val = d.val; omega

private theorem cntaAt_apply (c : Dev nD) (t : Fin cfg1.N) (p : Fin 8) :
    cntaAt V c t (ix2 p 0) = V c main_v15 (ix2 p 0) := by
  unfold cntaAt iblk1
  rw [View.read_apply]
  show V c main_v15 (((cfg1.win 2).blk t).view.emb (ix2 p 0)) = _
  refine congrArg (V c main_v15) (funext fun a => Fin.ext ?_)
  match a with
  | ⟨0, _⟩ => show 0 * 8 + 1 * p.val = p.val; omega
  | ⟨1, _⟩ => rfl

private theorem cntbAt_apply (c : Dev nD) (t : Fin cfg1.N) (p : Fin 8) :
    cntbAt V c t (ix2 p 0) = V c main_v17 (ix2 p 0) := by
  unfold cntbAt iblk1
  rw [View.read_apply]
  show V c main_v17 (((cfg1.win 3).blk t).view.emb (ix2 p 0)) = _
  refine congrArg (V c main_v17) (funext fun a => Fin.ext ?_)
  match a with
  | ⟨0, _⟩ => show 0 * 8 + 1 * p.val = p.val; omega
  | ⟨1, _⟩ => rfl

private theorem minaAt_apply (c : Dev nD) (t : Fin cfg1.N) (p : Fin 8) :
    minaAt V c t (ix2 p 0) = V c main_v4 (ix2 p 0) := by
  unfold minaAt iblk1
  rw [View.read_apply]
  show V c main_v4 (((cfg1.win 4).blk t).view.emb (ix2 p 0)) = _
  refine congrArg (V c main_v4) (funext fun a => Fin.ext ?_)
  match a with
  | ⟨0, _⟩ => show 0 * 8 + 1 * p.val = p.val; omega
  | ⟨1, _⟩ => rfl

private theorem maxaAt_apply (c : Dev nD) (t : Fin cfg1.N) (p : Fin 8) :
    maxaAt V c t (ix2 p 0) = V c main_v7 (ix2 p 0) := by
  unfold maxaAt iblk1
  rw [View.read_apply]
  show V c main_v7 (((cfg1.win 5).blk t).view.emb (ix2 p 0)) = _
  refine congrArg (V c main_v7) (funext fun a => Fin.ext ?_)
  match a with
  | ⟨0, _⟩ => show 0 * 8 + 1 * p.val = p.val; omega
  | ⟨1, _⟩ => rfl

private theorem minbAt_apply (c : Dev nD) (t : Fin cfg1.N) (p : Fin 8) :
    minbAt V c t (ix2 p 0) = V c main_v10 (ix2 p 0) := by
  unfold minbAt iblk1
  rw [View.read_apply]
  show V c main_v10 (((cfg1.win 6).blk t).view.emb (ix2 p 0)) = _
  refine congrArg (V c main_v10) (funext fun a => Fin.ext ?_)
  match a with
  | ⟨0, _⟩ => show 0 * 8 + 1 * p.val = p.val; omega
  | ⟨1, _⟩ => rfl

private theorem maxbAt_apply (c : Dev nD) (t : Fin cfg1.N) (p : Fin 8) :
    maxbAt V c t (ix2 p 0) = V c main_v13 (ix2 p 0) := by
  unfold maxbAt iblk1
  rw [View.read_apply]
  show V c main_v13 (((cfg1.win 7).blk t).view.emb (ix2 p 0)) = _
  refine congrArg (V c main_v13) (funext fun a => Fin.ext ?_)
  match a with
  | ⟨0, _⟩ => show 0 * 8 + 1 * p.val = p.val; omega
  | ⟨1, _⟩ => rfl

/-! ## The running count -/

/-- Whether row `u` falls in the pair of bins `(i, j)` of partition `p`: one or zero. -/
private def hit (c : Dev nD) (p : Fin 8) (i j : Fin 10) (u : Fin 2000000) : EReal :=
  MI.oh (MI.binG (MI.sA (V c main_arg0) (V c main_v0) p u)
      (V c main_v4 (ix2 p 0)) (V c main_v7 (ix2 p 0)) (V c main_v15 (ix2 p 0))) i
    * MI.oh (MI.binG (MI.sB (V c main_arg0) (V c main_v0) p u)
      (V c main_v10 (ix2 p 0)) (V c main_v13 (ix2 p 0)) (V c main_v17 (ix2 p 0))) j

/-- The count over the tile of point `n`. -/
private def tileCount (c : Dev nD) (n : ℕ) (p : Fin 8) (i j : Fin 10) : EReal := ∑ r : Fin 8000, hit V c p i j (rowN n r)

/-- The body's store at point `t`, read at `(0, p, i, j)`: what the block held there plus the tile's count. -/
private theorem pay_at (c : Dev nD) (t : Fin cfg1.N) (acc : Vec Ideal S1x8x10x10 .f32) (p : Fin 8) (i j : Fin 10) :
    k1_pay8 (F := Ideal) (k1_pay4 (rowsAt V c t) (maskAt V c t) (minaAt V c t) (maxaAt V c t) (cntaAt V c t))
        (k1_pay5 (rowsAt V c t) (maskAt V c t) (minbAt V c t)) (k1_pay6 (minbAt V c t) (maxbAt V c t) (cntbAt V c t)) acc (ix4 0 p i j)
      = acc (ix4 0 p i j) + tileCount V c t.val p i j := by
  refine (pay1_apply (rowsAt V c t) (maskAt V c t) (cntaAt V c t) (cntbAt V c t) (minaAt V c t) (maxaAt V c t) (minbAt V c t) (maxbAt V c t) acc p i j).trans ?_
  refine congrArg (acc (ix4 0 p i j) + ·) (Finset.sum_congr rfl fun r _ => ?_)
  unfold hit MI.sA MI.sB
  rw [minaAt_apply, maxaAt_apply, cntaAt_apply, minbAt_apply, maxbAt_apply, cntbAt_apply]
  simp only [rowsAt_apply, maskAt_apply]

private theorem cleared_apply (y : S1x8x10x10.Idx) : k1_pay7 (F := Ideal) y = 0 := by
  show Ideal.ofBits .f32 0x00000000#32 = 0
  exact Ideal.ofBits_zero_f32

/-- At the first tile of a half the block holds that tile's count. -/
private theorem first_at (c : Dev nD) (t : Fin cfg1.N) (h0 : t.val % 125 = 0) (p : Fin 8) (i j : Fin 10) :
    outsAt1 V c t.val t.isLt (ix4 0 p i j) = tileCount V c t.val p i j := by
  rw [outsAt1_A V c t h0]
  refine (congrFun (out_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (rowsAt V c t) (maskAt V c t) (cntaAt V c t) (cntbAt V c t) (minaAt V c t) (maxaAt V c t) (minbAt V c t) (maxbAt V c t)) (ix4 0 p i j)).trans ?_
  refine (pay_at V c t (k1_pay7 (F := Ideal)) p i j).trans ?_
  rw [cleared_apply, zero_add]

/-- At every other tile the block holds what the tile before left plus this tile's count. -/
private theorem step_at (c : Dev nD) (t : Fin cfg1.N) (h0 : ¬t.val % 125 = 0) (p : Fin 8) (i j : Fin 10) :
    outsAt1 V c t.val t.isLt (ix4 0 p i j)
      = outsAt1 V c (t.val - 1) (Nat.lt_of_le_of_lt (Nat.sub_le _ _) t.isLt) (ix4 0 p i j) + tileCount V c t.val p i j := by
  rw [outsAt1_B V c t h0]
  refine (congrFun (out_step (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (rowsAt V c t) (maskAt V c t) (cntaAt V c t) (cntbAt V c t) (minaAt V c t) (maxaAt V c t) (minbAt V c t) (maxbAt V c t)
    (outsAt1 V c (t.val - 1) (Nat.lt_of_le_of_lt (Nat.sub_le _ _) t.isLt))) (ix4 0 p i j)).trans ?_
  exact pay_at V c t _ p i j

/-- After point `n`, the `n % 125`-th tile of its half, the block holds the counts of the half's tiles so far. -/
private theorem count_at (c : Dev nD) (p : Fin 8) (i j : Fin 10) : ∀ (n : ℕ) (hn : n < cfg1.N),
    outsAt1 V c n hn (ix4 0 p i j) = ∑ s ∈ Finset.range (n % 125 + 1), tileCount V c (125 * (n / 125) + s) p i j
  | 0, hn => by
    rw [first_at V c ⟨0, hn⟩ rfl p i j]
    simp
  | n + 1, hn => by
    by_cases h0 : (n + 1) % 125 = 0
    · rw [first_at V c ⟨n + 1, hn⟩ h0 p i j, h0, Finset.sum_range_one]
      refine congrArg (tileCount V c · p i j) ?_
      show n + 1 = 125 * ((n + 1) / 125) + 0
      omega
    · rw [step_at V c ⟨n + 1, hn⟩ h0 p i j]
      show outsAt1 V c n _ (ix4 0 p i j) + tileCount V c (n + 1) p i j = _
      rw [count_at c p i j n]
      have e1 : (n + 1) % 125 = n % 125 + 1 := by omega
      have e2 : (n + 1) / 125 = n / 125 := by omega
      rw [e1, e2, Finset.sum_range_succ _ (n % 125 + 1)]
      refine congrArg (_ + tileCount V c · p i j) ?_
      omega

/-! ## The array after the run -/

/-- The count of the rows of half `cc` in the pair of bins `(i, j)` of partition `p`, as an array. -/
private def halfCounts (c : Dev nD) : Buf (Elt Ideal) ((c : Thread nD τ).loc main_v18) :=
  fun i => ((∑ u : Fin 1000000, hit V c (i 1) (i 2) (i 3) (MI.glue (i 0) u)) : EReal)

/-- Point `t` works on block `t / 125` of the output. -/
private theorem idx_out : ∀ t : Fin cfg1.N, win1_8.index t (0 : Fin 4) = t.val / 125 ∧ win1_8.index t (1 : Fin 4) = 0
    ∧ win1_8.index t (2 : Fin 4) = 0 ∧ win1_8.index t (3 : Fin 4) = 0 :=
  (by decide +kernel : ∀ t : Fin grid1.N, win1_8.index t (0 : Fin 4) = t.val / 125 ∧ win1_8.index t (1 : Fin 4) = 0
    ∧ win1_8.index t (2 : Fin 4) = 0 ∧ win1_8.index t (3 : Fin 4) = 0)

private theorem halfCounts_apply (c : Dev nD) (cc : Fin 2) (p : Fin 8) (i j : Fin 10) :
    halfCounts V c (ix4 cc p i j) = ∑ u : Fin 1000000, hit V c p i j (MI.glue cc u) := rfl

/-- Block `t` of an array shaped like the output, read at `(0, p, i, j)`, is the array at `(t / 125, p, i, j)`. -/
private theorem read_out (c : Dev nD) (t : Fin cfg1.N) (hcc : t.val / 125 < 2) (X : Buf (Elt Ideal) ((c : Thread nD τ).loc main_v18))
    (p : Fin 8) (i j : Fin 10) :
    ((cfg1.win 8).blk t).view.read (Elt Ideal) X (ix4 (0 : Fin 1) p i j) = X (ix4 (⟨t.val / 125, hcc⟩ : Fin 2) p i j) := by
  obtain ⟨e0, e1, e2, e3⟩ := idx_out t
  rw [View.read_apply]
  show X (((cfg1.win 8).blk t).view.emb (ix4 (0 : Fin 1) p i j)) = _
  refine congrArg X (funext fun a => Fin.ext ?_)
  match a with
  | ⟨0, _⟩ => show win1_8.index t 0 * 1 + 1 * 0 = t.val / 125; rw [e0]; omega
  | ⟨1, _⟩ => show win1_8.index t 1 * 8 + 1 * p.val = p.val; rw [e1]; omega
  | ⟨2, _⟩ => show win1_8.index t 2 * 10 + 1 * i.val = i.val; rw [e2]; omega
  | ⟨3, _⟩ => show win1_8.index t 3 * 10 + 1 * j.val = j.val; rw [e3]; omega

/-- What is written back after the last tile of a half is that half's block of the counts. -/
private theorem flushed_eq (c : Dev nD) (t : Fin cfg1.N) (hf : (cfg1.win 8).flush t = true) :
    (dat1 V c).flushed 8 t = ((cfg1.win 8).blk t).view.read (Elt Ideal) (halfCounts V c) := by
  have h124 : t.val % 125 = 124 := (flush1_8 t).mp hf
  have hN : t.val < 250 := lt_of_lt_of_eq t.isLt (show cfg1.N = 250 from N_1)
  have hcc : t.val / 125 < 2 := by omega
  show (cfg1.win 8).cut (grid1.coords t) ((dat1 V c).after 8 t) = _
  rw [after1_8]
  show outsAt1 V c t.val t.isLt = _
  funext y
  obtain ⟨q, p, i, j, rfl⟩ : ∃ (q : Fin 1) (p : Fin 8) (i j : Fin 10), y = ix4 q p i j :=
    ⟨y 0, y 1, y 2, y 3, eq_ix4 (n0 := 1) (n1 := 8) (n2 := 10) (n3 := 10) y⟩
  obtain rfl : q = 0 := Subsingleton.elim _ _
  refine Eq.trans ?_ (read_out c t hcc (halfCounts V c) p i j).symm
  rw [halfCounts_apply, count_at V c p i j t.val t.isLt, h124, MI.sum_tile1,
    Finset.sum_range fun s => tileCount V c (125 * (t.val / 125) + s) p i j]
  refine Finset.sum_congr rfl fun k _ => Finset.sum_congr rfl fun r _ => congrArg (hit V c p i j) (Fin.ext ?_)
  show ((125 * (t.val / 125) + k.val) * 8000 + r.val) % 2000000 = t.val / 125 * 1000000 + (k.val * 8000 + r.val)
  have hk : k.val < 125 := k.isLt
  have hr : r.val < 8000 := r.isLt
  omega

/-- Every entry of the output lies in the block written back after the last tile of its half. -/
private theorem covered (c : Dev nD) (i : ((cfg1.win 8).arr.view.loc (c.tc : Thread nD τ)).2.ty.Idx) :
    ∃ t : Fin cfg1.N, (cfg1.win 8).flush t = true ∧ i ∈ ((cfg1.win 8).blk t).view.set := by
  have h0 : (i 0).val < 2 := (i 0).isLt
  have h1 : (i 1).val < 8 := (i 1).isLt
  have h2 : (i 2).val < 10 := (i 2).isLt
  have h3 : (i 3).val < 10 := (i 3).isLt
  have hN : cfg1.N = 250 := N_1
  have hlt : 125 * (i 0).val + 124 < cfg1.N := by rw [hN]; omega
  obtain ⟨e0, e1, e2, e3⟩ := idx_out ⟨125 * (i 0).val + 124, hlt⟩
  refine ⟨⟨125 * (i 0).val + 124, hlt⟩, (flush1_8 _).mpr (by show (125 * (i 0).val + 124) % 125 = 124; omega), ?_⟩
  show i ∈ ((View.whole main_v18).slice (win1_8.rect ⟨125 * (i 0).val + 124, hlt⟩)).set
  rw [View.set_slice_whole, Rect.mem_set_unit]
  intro a
  match a with
  | ⟨0, _⟩ =>
    show win1_8.index ⟨125 * (i 0).val + 124, hlt⟩ 0 * 1 ≤ (i 0).val ∧ (i 0).val < win1_8.index ⟨125 * (i 0).val + 124, hlt⟩ 0 * 1 + 1
    rw [e0]; show (125 * (i 0).val + 124) / 125 * 1 ≤ (i 0).val ∧ (i 0).val < (125 * (i 0).val + 124) / 125 * 1 + 1; omega
  | ⟨1, _⟩ =>
    show win1_8.index ⟨125 * (i 0).val + 124, hlt⟩ 1 * 8 ≤ (i 1).val ∧ (i 1).val < win1_8.index ⟨125 * (i 0).val + 124, hlt⟩ 1 * 8 + 8
    rw [e1]; omega
  | ⟨2, _⟩ =>
    show win1_8.index ⟨125 * (i 0).val + 124, hlt⟩ 2 * 10 ≤ (i 2).val ∧ (i 2).val < win1_8.index ⟨125 * (i 0).val + 124, hlt⟩ 2 * 10 + 10
    rw [e2]; omega
  | ⟨3, _⟩ =>
    show win1_8.index ⟨125 * (i 0).val + 124, hlt⟩ 3 * 10 ≤ (i 3).val ∧ (i 3).val < win1_8.index ⟨125 * (i 0).val + 124, hlt⟩ 3 * 10 + 10
    rw [e3]; omega

/-- After the second region, for any contents `V` at its entry: its output holds, at `(cc, p, i, j)`, the number of
    rows `u` of half `cc` whose first bin is `i` and second bin is `j`; the bins are those of the row's two masked sums,
    normalised by the least values, greatest values and counts the region finds in its six small operands. -/
theorem reg1_joint (c : Dev nD) : (dat1 (F := Ideal) V c).arrAt 8 cfg1.N =
    (fun i => ((∑ u : Fin 1000000,
        MI.oh (MI.binG (MI.sA (V c main_arg0) (V c main_v0) (i 1) (MI.glue (i 0) u))
          (V c main_v4 (ix2 (i 1) 0)) (V c main_v7 (ix2 (i 1) 0)) (V c main_v15 (ix2 (i 1) 0))) (i 2)
        * MI.oh (MI.binG (MI.sB (V c main_arg0) (V c main_v0) (i 1) (MI.glue (i 0) u))
          (V c main_v10 (ix2 (i 1) 0)) (V c main_v13 (ix2 (i 1) 0)) (V c main_v17 (ix2 (i 1) 0))) (i 3)) : EReal)
      : Buf (Elt Ideal) ((c : Thread nD τ).loc main_v18)) :=
  (dat1 (F := Ideal) V c).arrAt_eq_of_cover 8 (halfCounts V c) (flushed_eq V c) (covered c)

end Cert.KernelIdeal.KV

end
-- ==== Proof.Tail.lean ====
/-
  What both programs do with the joint histogram `J` (8 × 10 × 10): normalise each partition's table by its total
  plus 1e-10, take the two marginals, and sum `P · log ((P + 1e-10) / (Px · Py + 1e-10))` over the table; the result per
  partition is clamped below at zero (`tail42`), and the least over the partitions is the second result (`tail43`).
-/
import proofs.«135964_j5007931867607_1_alg».proof.KernelIdeal
import proofs.«135964_j5007931867607_1_alg».proof.Proof.Gen.KernelIdeal

noncomputable section

namespace Cert.KernelIdeal.KV

open Idealize.ShloMosaic Cert.KernelIdeal Cert.KernelIdeal.Facts₀ Cert.KernelIdeal.Facts

variable {F : FTy → Type} [FloatOps F]

/-- The table normalised by its total plus 1e-10. -/
def tailP (j : FVec F S8x10x10 .f32) : FVec F S8x10x10 .f32 :=
  Host.divf j (broadcastInDim S8x10x10 ![0, 1, 2] bcast_S8x1x1_S8x10x10_0_1_2
    (addf (broadcastInDim S8x1x1 ![0] bcast_S8_S8x1x1_0 (Host.reduceAdd j (constant S_ .f32 0x00000000#32) reducesTo_S8x10x10_S8_d1_2 h_S_))
      (broadcastInDim S8x1x1 ![] bcast_S_S8x1x1 (constant S_ .f32 0x2EDBE6FF#32))))

/-- The per-partition sums of `P · log ((P + 1e-10) / (Px · Py + 1e-10))`, clamped below at zero. -/
def tail42 (j : FVec F S8x10x10 .f32) : FVec F S8 .f32 :=
  maximumf (Host.reduceAdd (mulf (tailP j) (Host.log (Host.divf
      (addf (tailP j) (broadcastInDim S8x10x10 ![] bcast_S_S8x10x10 (constant S_ .f32 0x2EDBE6FF#32)))
      (addf (mulf
          (broadcastInDim S8x10x10 ![0, 1, 2] bcast_S8x10x1_S8x10x10_0_1_2 (broadcastInDim S8x10x1 ![0, 1] bcast_S8x10_S8x10x1_0_1
            (Host.reduceAdd (tailP j) (constant S_ .f32 0x00000000#32) reducesTo_S8x10x10_S8x10_d2 h_S_)))
          (broadcastInDim S8x10x10 ![0, 1, 2] bcast_S8x1x10_S8x10x10_0_1_2 (broadcastInDim S8x1x10 ![0, 2] bcast_S8x10_S8x1x10_0_2
            (Host.reduceAdd (tailP j) (constant S_ .f32 0x00000000#32) reducesTo_S8x10x10_S8x10_d1 h_S_))))
        (broadcastInDim S8x10x10 ![] bcast_S_S8x10x10 (constant S_ .f32 0x2EDBE6FF#32))))))
    (constant S_ .f32 0x00000000#32) reducesTo_S8x10x10_S8_d1_2 h_S_)
    (broadcastInDim S8 ![] bcast_S_S8 (constant S_ .f32 0x00000000#32))

/-- The least of those over the partitions. -/
def tail43 (j : FVec F S8x10x10 .f32) : FVec F S_ .f32 :=
  Host.reduce FloatOps.minimumf (tail42 j) (constant S_ .f32 0x7F800000#32) reducesTo_S8_S_d0 h_S_

end Cert.KernelIdeal.KV

end
-- ==== Proof.KValue.lean ====
/-
  The kernel program's two results as functions of its arguments: the host operations between and after the two
  regions read at an index, with what the regions leave.
-/
import proofs.«135964_j5007931867607_1_alg».proof.Proof.Gen.KernelIdeal.Frame
import proofs.«135964_j5007931867607_1_alg».proof.Proof.Spec
import proofs.«135964_j5007931867607_1_alg».proof.Proof.KReg0
import proofs.«135964_j5007931867607_1_alg».proof.Proof.KReg1
import proofs.«135964_j5007931867607_1_alg».proof.Proof.Reindex
import proofs.«135964_j5007931867607_1_alg».proof.Proof.Tail
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert

/-! ## The host operations between the regions, as functions of the arrays they read -/

section Abs
variable {F : FTy → Type} [FloatOps F]

/-- The least over the two halves, per partition, as a column. -/
private def mn8 (x : FVec F S2x8x1 .f32) : FVec F S8x1 .f32 :=
  broadcastInDim S8x1 ![0] bcast_S8_S8x1_0
    (Host.reduce FloatOps.minimumf (shapeCast S2x8 x shapeCasts_S2x8x1_S2x8) (constant S_ .f32 0x7F800000#32) reducesTo_S2x8_S8_d0 h_S_)
/-- The greatest over the two halves, per partition, as a column. -/
private def mx8 (x : FVec F S2x8x1 .f32) : FVec F S8x1 .f32 :=
  broadcastInDim S8x1 ![0] bcast_S8_S8x1_0
    (Host.reduce FloatOps.maximumf (shapeCast S2x8 x shapeCasts_S2x8x1_S2x8) (constant S_ .f32 0xFF800000#32) reducesTo_S2x8_S8_d0 h_S_)
/-- The number of selected columns per partition, as a column. -/
private def cnt8 (mk : FVec F S8x64 .f32) : FVec F S8x1 .f32 :=
  broadcastInDim S8x1 ![0] bcast_S8_S8x1_0 (Host.reduceAdd mk (constant S_ .f32 0x00000000#32) reducesTo_S8x64_S8_d1 h_S_)
/-- Sixty-four less that number. -/
private def rest8 (mk : FVec F S8x64 .f32) : FVec F S8x1 .f32 :=
  subf (broadcastInDim S8x1 ![] bcast_S_S8x1 (constant S_ .f32 0x42800000#32)) (cnt8 mk)
end Abs

/-! ## What each buffer holds after a line of host operations, at any float type

The closing chain after the second region is carried as the one function `tail42` / `tail43` of the table summed over the two halves. -/

section Run
variable {F : FTy → Type} [FloatOps F]

private theorem after1_v4 (V : Valuation τ sig (Elt F)) :
    StableHlo.after hostOps1 V (Proc.devRef .tc main_v4) = mn8 (F := F) (V (Proc.devRef .tc main_v1_0)) := by
  after_results
  rfl
private theorem after1_v7 (V : Valuation τ sig (Elt F)) :
    StableHlo.after hostOps1 V (Proc.devRef .tc main_v7) = mx8 (F := F) (V (Proc.devRef .tc main_v1_1)) := by
  after_results
  rfl
private theorem after1_v10 (V : Valuation τ sig (Elt F)) :
    StableHlo.after hostOps1 V (Proc.devRef .tc main_v10) = mn8 (F := F) (V (Proc.devRef .tc main_v1_2)) := by
  after_results
  rfl
private theorem after1_v13 (V : Valuation τ sig (Elt F)) :
    StableHlo.after hostOps1 V (Proc.devRef .tc main_v13) = mx8 (F := F) (V (Proc.devRef .tc main_v1_3)) := by
  after_results
  rfl
private theorem after1_v15 (V : Valuation τ sig (Elt F)) :
    StableHlo.after hostOps1 V (Proc.devRef .tc main_v15) = cnt8 (F := F) (V (Proc.devRef .tc main_v0)) := by
  after_results
  rfl
private theorem after1_v17 (V : Valuation τ sig (Elt F)) :
    StableHlo.after hostOps1 V (Proc.devRef .tc main_v17) = rest8 (F := F) (V (Proc.devRef .tc main_v0)) := by
  after_results
  rfl
private theorem after1_arg0 (V : Valuation τ sig (Elt F)) :
    StableHlo.after hostOps1 V (Proc.devRef .tc main_arg0) = V (Proc.devRef .tc main_arg0) := by
  after_results
private theorem after1_v0 (V : Valuation τ sig (Elt F)) :
    StableHlo.after hostOps1 V (Proc.devRef .tc main_v0) = V (Proc.devRef .tc main_v0) := by
  after_results

set_option maxHeartbeats 1000000 in
private theorem after2_v42 (V : Valuation τ sig (Elt F)) :
    StableHlo.after hostOps2 V (Proc.devRef .tc main_v42)
      = tail42 (F := F) (Host.reduceAdd (V (Proc.devRef .tc main_v18)) (constant S_ .f32 0x00000000#32) reducesTo_S2x8x10x10_S8x10x10_d0 h_S_) := by
  open StableHlo in after_results_simp
  rfl
set_option maxHeartbeats 1000000 in
private theorem after2_v43 (V : Valuation τ sig (Elt F)) :
    StableHlo.after hostOps2 V (Proc.devRef .tc main_v43)
      = tail43 (F := F) (Host.reduceAdd (V (Proc.devRef .tc main_v18)) (constant S_ .f32 0x00000000#32) reducesTo_S2x8x10x10_S8x10x10_d0 h_S_) := by
  open StableHlo in after_results_simp
  rfl
end Run

/-! ## The same read at an index, at the extended reals

A least or greatest over the two halves from the neutral element is the meet or join of the two; the count is the sum of the mask's row. -/

section AtIdeal

private theorem fold_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

private theorem ofBits_pinf : Ideal.ofBits .f32 0x7F800000#32 = (⊤ : EReal) := by simp [Ideal.ofBits, Ideal.ieee]
private theorem ofBits_ninf : Ideal.ofBits .f32 0xFF800000#32 = (⊥ : EReal) := by simp [Ideal.ofBits, Ideal.ieee]

private theorem lift_2x8 (h : S2x8.Reduces [0] S8) (p : Fin 8) (k : Fin 2) : h.lift (ix1 p) k = ix2 k p := by
  funext a; match a with | ⟨0, _⟩ => rfl | ⟨1, _⟩ => rfl

private theorem cast_2x8 (x : FVec Ideal S2x8x1 .f32) (k : Fin 2) (p : Fin 8) :
    shapeCast S2x8 x shapeCasts_S2x8x1_S2x8 (ix2 k p) = x (ix3 k p 0) :=
  shapeCast_apply x _ (ix2 k p) (ix3 k p 0) (by
    rw [Shape.rowMajor_val_two, Shape.rowMajor_val_three]
    show (k.val * 8 + p.val) * 1 + 0 = k.val * 8 + p.val; omega)

private theorem mn8_apply (x : FVec Ideal S2x8x1 .f32) (p : Fin 8) :
    mn8 (F := Ideal) x (ix2 p 0) = x (ix3 0 p 0) ⊓ x (ix3 1 p 0) := by
  have h : S2x8.Reduces [0] S8 := by decide
  unfold mn8
  refine (broadcastInDim_apply _ _ _ (ix2 p 0) (ix1 p) (fun a => match a with | ⟨0, _⟩ => rfl)).trans ?_
  refine (Host.reduce_eq_fold_single FloatOps.minimumf _ _ reducesTo_S2x8_S8_d0 h h_S_ (ix1 p)).trans ?_
  refine (fold_fin2 _ _ _).trans ?_
  show min (shapeCast S2x8 x shapeCasts_S2x8x1_S2x8 (h.lift (ix1 p) (0 : Fin 2))) (min (shapeCast S2x8 x shapeCasts_S2x8x1_S2x8 (h.lift (ix1 p) (1 : Fin 2))) (Ideal.ofBits .f32 0x7F800000#32)) = _
  rw [lift_2x8, lift_2x8, cast_2x8, cast_2x8, ofBits_pinf, min_top_right]

private theorem mx8_apply (x : FVec Ideal S2x8x1 .f32) (p : Fin 8) :
    mx8 (F := Ideal) x (ix2 p 0) = x (ix3 0 p 0) ⊔ x (ix3 1 p 0) := by
  have h : S2x8.Reduces [0] S8 := by decide
  unfold mx8
  refine (broadcastInDim_apply _ _ _ (ix2 p 0) (ix1 p) (fun a => match a with | ⟨0, _⟩ => rfl)).trans ?_
  refine (Host.reduce_eq_fold_single FloatOps.maximumf _ _ reducesTo_S2x8_S8_d0 h h_S_ (ix1 p)).trans ?_
  refine (fold_fin2 _ _ _).trans ?_
  show max (shapeCast S2x8 x shapeCasts_S2x8x1_S2x8 (h.lift (ix1 p) (0 : Fin 2))) (max (shapeCast S2x8 x shapeCasts_S2x8x1_S2x8 (h.lift (ix1 p) (1 : Fin 2))) (Ideal.ofBits .f32 0xFF800000#32)) = _
  rw [lift_2x8, lift_2x8, cast_2x8, cast_2x8, ofBits_ninf, max_bot_right]

private theorem lift_8x64 (h : S8x64.Reduces [1] S8) (p : Fin 8) (d : Fin 64) : h.lift (ix1 p) d = ix2 p d := by
  funext a; match a with | ⟨0, _⟩ => rfl | ⟨1, _⟩ => rfl

private theorem cnt8_apply (mk : FVec Ideal S8x64 .f32) (p : Fin 8) :
    cnt8 (F := Ideal) mk (ix2 p 0) = MI.cA mk p := by
  have h : S8x64.Reduces [1] S8 := by decide
  unfold cnt8
  refine (broadcastInDim_apply _ _ _ (ix2 p 0) (ix1 p) (fun a => match a with | ⟨0, _⟩ => rfl)).trans ?_
  rw [hostReduceAdd_apply, Ideal.hostReduceAdd_single reducesTo_S8x64_S8_d1 h]
  show Ideal.ofBits .f32 0x00000000#32 + ∑ d : Fin 64, mk (h.lift (ix1 p) d) = _
  rw [Ideal.ofBits_zero_f32, zero_add]
  unfold MI.cA
  exact Finset.sum_congr rfl fun d _ => congrArg mk (lift_8x64 _ p d)

private theorem rest8_apply (mk : FVec Ideal S8x64 .f32) (p : Fin 8) :
    rest8 (F := Ideal) mk (ix2 p 0) = MI.c64 - MI.cA mk p := by
  unfold rest8
  rw [subf_apply, cnt8_apply, broadcastInDim_scalar_apply]
  rfl

end AtIdeal

/-! ## The regions' entry contents

The first region enters with the arguments (the mask converted); the second with, per partition, the extremes over all rows of the two masked row sums, the count and sixty-four less the count. -/

section Main
variable (m : (ℓ : Loc nD τ sig) → Buf (Elt Ideal) ℓ) (ρ : Dev nD → PrngReg)

private theorem V1_arg0 (c : Dev nD) : V1 (F := Ideal) m ρ c main_arg0 = m ((c : Thread nD τ).loc main_arg0) := by
  show StableHlo.after hostOps0 _ (Proc.devRef .tc main_arg0) = _
  after_results
private theorem V1_v0 (c : Dev nD) : V1 (F := Ideal) m ρ c main_v0 = uitofp (F := Ideal) .f32 (m ((c : Thread nD τ).loc main_arg1)) := by
  show StableHlo.after hostOps0 _ (Proc.devRef .tc main_v0) = _
  after_results
private theorem W2_arg0 (c : Dev nD) : W2 (F := Ideal) m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)
private theorem W2_v0 (c : Dev nD) : W2 (F := Ideal) m ρ c (Proc.devRef .tc main_v0) = uitofp (F := Ideal) .f32 (m ((c : Thread nD τ).loc main_arg1)) :=
  ((W2_arr m ρ c 1).trans (((dat0 (V1 m ρ) c).arrAt_in 1 rfl _).trans (A_eq0 (V1 m ρ) c 1))).trans (V1_v0 m ρ c)

private theorem W2_v1_0 (c : Dev nD) : W2 (F := Ideal) m ρ c (Proc.devRef .tc main_v1_0)
    = (fun i => MI.lo2 (MI.sA (m ((c : Thread nD τ).loc main_arg0)) (uitofp (F := Ideal) .f32 (m ((c : Thread nD τ).loc main_arg1))) (i 1)) (i 0) : Buf (Elt Ideal) ((c : Thread nD τ).loc main_v1_0)) := by
  refine (W2_arr m ρ c 2).trans ((reg0_minA (V1 m ρ) c).trans ?_)
  rw [V1_arg0, V1_v0]
private theorem W2_v1_1 (c : Dev nD) : W2 (F := Ideal) m ρ c (Proc.devRef .tc main_v1_1)
    = (fun i => MI.hi2 (MI.sA (m ((c : Thread nD τ).loc main_arg0)) (uitofp (F := Ideal) .f32 (m ((c : Thread nD τ).loc main_arg1))) (i 1)) (i 0) : Buf (Elt Ideal) ((c : Thread nD τ).loc main_v1_1)) := by
  refine (W2_arr m ρ c 3).trans ((reg0_maxA (V1 m ρ) c).trans ?_)
  rw [V1_arg0, V1_v0]
private theorem W2_v1_2 (c : Dev nD) : W2 (F := Ideal) m ρ c (Proc.devRef .tc main_v1_2)
    = (fun i => MI.lo2 (MI.sB (m ((c : Thread nD τ).loc main_arg0)) (uitofp (F := Ideal) .f32 (m ((c : Thread nD τ).loc main_arg1))) (i 1)) (i 0) : Buf (Elt Ideal) ((c : Thread nD τ).loc main_v1_2)) := by
  refine (W2_arr m ρ c 4).trans ((reg0_minB (V1 m ρ) c).trans ?_)
  rw [V1_arg0, V1_v0]
private theorem W2_v1_3 (c : Dev nD) : W2 (F := Ideal) m ρ c (Proc.devRef .tc main_v1_3)
    = (fun i => MI.hi2 (MI.sB (m ((c : Thread nD τ).loc main_arg0)) (uitofp (F := Ideal) .f32 (m ((c : Thread nD τ).loc main_arg1))) (i 1)) (i 0) : Buf (Elt Ideal) ((c : Thread nD τ).loc main_v1_3)) := by
  refine (W2_arr m ρ c 5).trans ((reg0_maxB (V1 m ρ) c).trans ?_)
  rw [V1_arg0, V1_v0]

private theorem V3_arg0 (c : Dev nD) : V3 (F := Ideal) m ρ c main_arg0 = m ((c : Thread nD τ).loc main_arg0) :=
  (after1_arg0 (W2 m ρ c)).trans (W2_arg0 m ρ c)
private theorem V3_v0 (c : Dev nD) : V3 (F := Ideal) m ρ c main_v0 = uitofp (F := Ideal) .f32 (m ((c : Thread nD τ).loc main_arg1)) :=
  (after1_v0 (W2 m ρ c)).trans (W2_v0 m ρ c)

private theorem V3_v4 (c : Dev nD) (p : Fin 8) : V3 (F := Ideal) m ρ c main_v4 (ix2 p 0)
    = MI.lo (MI.sA (m ((c : Thread nD τ).loc main_arg0)) (uitofp (F := Ideal) .f32 (m ((c : Thread nD τ).loc main_arg1))) p) := by
  show StableHlo.after hostOps1 (W2 m ρ c) (Proc.devRef .tc main_v4) (ix2 p 0) = _
  rw [after1_v4, mn8_apply, W2_v1_0]
  exact (MI.lo_glue _).symm
private theorem V3_v7 (c : Dev nD) (p : Fin 8) : V3 (F := Ideal) m ρ c main_v7 (ix2 p 0)
    = MI.hi (MI.sA (m ((c : Thread nD τ).loc main_arg0)) (uitofp (F := Ideal) .f32 (m ((c : Thread nD τ).loc main_arg1))) p) := by
  show StableHlo.after hostOps1 (W2 m ρ c) (Proc.devRef .tc main_v7) (ix2 p 0) = _
  rw [after1_v7, mx8_apply, W2_v1_1]
  exact (MI.hi_glue _).symm
private theorem V3_v10 (c : Dev nD) (p : Fin 8) : V3 (F := Ideal) m ρ c main_v10 (ix2 p 0)
    = MI.lo (MI.sB (m ((c : Thread nD τ).loc main_arg0)) (uitofp (F := Ideal) .f32 (m ((c : Thread nD τ).loc main_arg1))) p) := by
  show StableHlo.after hostOps1 (W2 m ρ c) (Proc.devRef .tc main_v10) (ix2 p 0) = _
  rw [after1_v10, mn8_apply, W2_v1_2]
  exact (MI.lo_glue _).symm
private theorem V3_v13 (c : Dev nD) (p : Fin 8) : V3 (F := Ideal) m ρ c main_v13 (ix2 p 0)
    = MI.hi (MI.sB (m ((c : Thread nD τ).loc main_arg0)) (uitofp (F := Ideal) .f32 (m ((c : Thread nD τ).loc main_arg1))) p) := by
  show StableHlo.after hostOps1 (W2 m ρ c) (Proc.devRef .tc main_v13) (ix2 p 0) = _
  rw [after1_v13, mx8_apply, W2_v1_3]
  exact (MI.hi_glue _).symm
private theorem V3_v15 (c : Dev nD) (p : Fin 8) : V3 (F := Ideal) m ρ c main_v15 (ix2 p 0)
    = MI.cA (uitofp (F := Ideal) .f32 (m ((c : Thread nD τ).loc main_arg1))) p := by
  show StableHlo.after hostOps1 (W2 m ρ c) (Proc.devRef .tc main_v15) (ix2 p 0) = _
  rw [after1_v15, cnt8_apply, W2_v0]
private theorem V3_v17 (c : Dev nD) (p : Fin 8) : V3 (F := Ideal) m ρ c main_v17 (ix2 p 0)
    = MI.c64 - MI.cA (uitofp (F := Ideal) .f32 (m ((c : Thread nD τ).loc main_arg1))) p := by
  show StableHlo.after hostOps1 (W2 m ρ c) (Proc.devRef .tc main_v17) (ix2 p 0) = _
  rw [after1_v17, rest8_apply, W2_v0]

end Main

/-! ## The table after the second region, summed over the two halves, is the histogram `KJ` -/

section Fin
variable (m : (ℓ : Loc nD τ sig) → Buf (Elt Ideal) ℓ) (ρ : Dev nD → PrngReg)

private theorem W4_v18 (c : Dev nD) : W4 (F := Ideal) m ρ c (Proc.devRef .tc main_v18)
    = (fun i => ((∑ u : Fin 1000000,
        MI.oh (MI.binG (MI.sA (m ((c : Thread nD τ).loc main_arg0)) (uitofp (F := Ideal) .f32 (m ((c : Thread nD τ).loc main_arg1))) (i 1) (MI.glue (i 0) u))
            (MI.lo (MI.sA (m ((c : Thread nD τ).loc main_arg0)) (uitofp (F := Ideal) .f32 (m ((c : Thread nD τ).loc main_arg1))) (i 1)))
            (MI.hi (MI.sA (m ((c : Thread nD τ).loc main_arg0)) (uitofp (F := Ideal) .f32 (m ((c : Thread nD τ).loc main_arg1))) (i 1)))
            (MI.cA (uitofp (F := Ideal) .f32 (m ((c : Thread nD τ).loc main_arg1))) (i 1))) (i 2)
        * MI.oh (MI.binG (MI.sB (m ((c : Thread nD τ).loc main_arg0)) (uitofp (F := Ideal) .f32 (m ((c : Thread nD τ).loc main_arg1))) (i 1) (MI.glue (i 0) u))
            (MI.lo (MI.sB (m ((c : Thread nD τ).loc main_arg0)) (uitofp (F := Ideal) .f32 (m ((c : Thread nD τ).loc main_arg1))) (i 1)))
            (MI.hi (MI.sB (m ((c : Thread nD τ).loc main_arg0)) (uitofp (F := Ideal) .f32 (m ((c : Thread nD τ).loc main_arg1))) (i 1)))
            (MI.c64 - MI.cA (uitofp (F := Ideal) .f32 (m ((c : Thread nD τ).loc main_arg1))) (i 1))) (i 3)) : EReal)
      : Buf (Elt Ideal) ((c : Thread nD τ).loc main_v18)) := by
  refine (W4_arr m ρ c 8).trans ((reg1_joint (V3 m ρ) c).trans ?_)
  funext i
  rw [V3_arg0, V3_v0, V3_v4 m ρ c (i 1), V3_v7 m ρ c (i 1), V3_v10 m ρ c (i 1), V3_v13 m ρ c (i 1), V3_v15 m ρ c (i 1), V3_v17 m ρ c (i 1)]

private theorem lift_J (h : S2x8x10x10.Reduces [0] S8x10x10) (q : S8x10x10.Idx) (k : Fin 2) : h.lift q k = ix4 k (q 0) (q 1) (q 2) := by
  funext a; match a with | ⟨0, _⟩ => rfl | ⟨1, _⟩ => rfl | ⟨2, _⟩ => rfl | ⟨3, _⟩ => rfl

private theorem v19_eq (c : Dev nD) :
    Host.reduceAdd (F := Ideal) (W4 (F := Ideal) m ρ c (Proc.devRef .tc main_v18)) (constant S_ .f32 0x00000000#32) reducesTo_S2x8x10x10_S8x10x10_d0 h_S_
      = (MI.KJ (m ((c : Thread nD τ).loc main_arg0)) (uitofp (F := Ideal) .f32 (m ((c : Thread nD τ).loc main_arg1)) : MI.SM.Idx → EReal) : MI.SJ.Idx → EReal) := by
  have h : S2x8x10x10.Reduces [0] S8x10x10 := by decide
  funext q
  rw [hostReduceAdd_apply, Ideal.hostReduceAdd_single reducesTo_S2x8x10x10_S8x10x10_d0 h, W4_v18]
  refine (congrArg (Ideal.ofBits .f32 0x00000000#32 + ·) (Fin.sum_univ_two _)).trans ?_
  rw [Ideal.ofBits_zero_f32, zero_add, lift_J, lift_J]
  unfold MI.KJ MI.joint MI.binK
  rw [MI.sum_glue]
  rfl

/-- The per-partition result: the shared closing chain of the histogram `KJ` of the arguments. -/
theorem k42 (c : Dev nD) : W5 (F := Ideal) m ρ c (Proc.devRef .tc main_v42)
    = tail42 (F := Ideal) (MI.KJ (m ((c : Thread nD τ).loc main_arg0)) (uitofp (F := Ideal) .f32 (m ((c : Thread nD τ).loc main_arg1)) : MI.SM.Idx → EReal)) :=
  (after2_v42 (W4 m ρ c)).trans (congrArg (tail42 (F := Ideal)) (v19_eq m ρ c))

/-- The overall result: the least of the per-partition results. -/
theorem k43 (c : Dev nD) : W5 (F := Ideal) m ρ c (Proc.devRef .tc main_v43)
    = tail43 (F := Ideal) (MI.KJ (m ((c : Thread nD τ).loc main_arg0)) (uitofp (F := Ideal) .f32 (m ((c : Thread nD τ).loc main_arg1)) : MI.SM.Idx → EReal)) :=
  (after2_v43 (W4 m ρ c)).trans (congrArg (tail43 (F := Ideal)) (v19_eq m ρ c))

end Fin

end Cert.KernelIdeal.KV

end
-- ==== Proof.RBins.lean ====
/-
  The reference program's two bin arrays (8 × 2000000 integers): at (p, t) the bin of row t's masked sum for
  partition p, the sums divided by the count first and then min–max normalised over the rows.
-/
import proofs.«135964_j5007931867607_1_alg».proof.Proof.RRead
import proofs.«135964_j5007931867607_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RV

open Cert.ReferenceIdeal Cert.ReferenceIdeal.ReadP Cert

/-! ### The least and the greatest of a row, as the host's reduce computes them -/

/-- The pattern of +∞ denotes the top element, that of −∞ the bottom one. -/
private theorem RBins_posInf : Ideal.ofBits .f32 0x7F800000#32 = (⊤ : EReal) := by
  simp [Ideal.ofBits, Ideal.ieee]
private theorem RBins_negInf : Ideal.ofBits .f32 0xFF800000#32 = (⊥ : EReal) := by
  simp [Ideal.ofBits, Ideal.ieee]

/-- Folding the minimum from the top element over a finite family gives its infimum. -/
private theorem RBins_fold_min {n : Nat} (f : Fin n → EReal) :
    (Finset.univ : Finset (Fin n)).fold (FloatOps.minimumf (F := Ideal) (φ := .f32)) (Ideal.ofBits .f32 0x7F800000#32) f
      = Finset.univ.inf f := by
  rw [RBins_posInf]
  show (Finset.univ : Finset (Fin n)).fold min (⊤ : EReal) f = Finset.univ.inf f
  refine le_antisymm (Finset.le_inf fun b hb => (Finset.fold_min_le _).2 (Or.inr ⟨b, hb, le_rfl⟩)) ?_
  exact (Finset.le_fold_min _).2 ⟨le_top, fun b hb => Finset.inf_le hb⟩

/-- Folding the maximum from the bottom element over a finite family gives its supremum. -/
private theorem RBins_fold_max {n : Nat} (f : Fin n → EReal) :
    (Finset.univ : Finset (Fin n)).fold (FloatOps.maximumf (F := Ideal) (φ := .f32)) (Ideal.ofBits .f32 0xFF800000#32) f
      = Finset.univ.sup f := by
  rw [RBins_negInf]
  show (Finset.univ : Finset (Fin n)).fold max (⊥ : EReal) f = Finset.univ.sup f
  refine le_antisymm ?_ (Finset.sup_le fun b hb => (Finset.le_fold_max _).2 (Or.inr ⟨b, hb, le_rfl⟩))
  exact (Finset.fold_max_le _).2 ⟨bot_le, fun b hb => Finset.le_sup hb⟩

/-- Row `p` of an [8, 2000000] array with the column `k` put back. -/
private theorem RBins_lift (h : S8x2000000.Reduces [1] S8) (p : Fin 8) (k : Fin (S8x2000000.size 1)) :
    h.lift (ix1 p) k = ix2 p (⟨k.val, k.isLt⟩ : Fin 2000000) := by
  funext c; apply Fin.ext
  fin_cases c <;> rfl

/-- The host's minimum over the rows' axis from +∞ is the least value of row `p`. -/
private theorem RBins_reduce_min (x : FVec Ideal S8x2000000 .f32) (h' : S8x2000000.ReducesTo [1] S8) (hu : 0 < S_.numel) (p : Fin 8) :
    Host.reduce FloatOps.minimumf x (constant (F := Ideal) S_ .f32 0x7F800000#32) h' hu (ix1 p) = MI.lo fun u => x (ix2 p u) := by
  have h : S8x2000000.Reduces [1] S8 := by decide
  rw [Host.reduce_eq_fold_single FloatOps.minimumf x _ h' h hu]
  have hf : (x ∘ h.lift (ix1 p)) = fun k : Fin 2000000 => x (ix2 p k) := funext fun k => congrArg x (RBins_lift h p k)
  exact (congrArg (fun f => Finset.fold FloatOps.minimumf (Ideal.ofBits .f32 0x7F800000#32) f (Finset.univ : Finset (Fin 2000000))) hf).trans
    (RBins_fold_min _)

/-- The host's maximum over the rows' axis from −∞ is the greatest value of row `p`. -/
private theorem RBins_reduce_max (x : FVec Ideal S8x2000000 .f32) (h' : S8x2000000.ReducesTo [1] S8) (hu : 0 < S_.numel) (p : Fin 8) :
    Host.reduce FloatOps.maximumf x (constant (F := Ideal) S_ .f32 0xFF800000#32) h' hu (ix1 p) = MI.hi fun u => x (ix2 p u) := by
  have h : S8x2000000.Reduces [1] S8 := by decide
  rw [Host.reduce_eq_fold_single FloatOps.maximumf x _ h' h hu]
  have hf : (x ∘ h.lift (ix1 p)) = fun k : Fin 2000000 => x (ix2 p k) := funext fun k => congrArg x (RBins_lift h p k)
  exact (congrArg (fun f => Finset.fold FloatOps.maximumf (Ideal.ofBits .f32 0xFF800000#32) f (Finset.univ : Finset (Fin 2000000))) hf).trans
    (RBins_fold_max _)

variable (x0 : (⟨S2000000x64, .f32⟩ : BufTy).Contents (Elt Ideal)) (x1 : (⟨S8x64, .i1⟩ : BufTy).Contents (Elt Ideal))

/-- The mask converted to floats, as the reference's first operation writes it. -/
abbrev mkOf : MI.SM.Idx → EReal := (uitofp (F := Ideal) .f32 x1 : MI.SM.Idx → EReal)

/-! ### The first bins: the sums over the selected columns -/

/-- The selected-column sum of row `t` for partition `p`. -/
private theorem RBins_sA (p : Fin 8) (t : Fin 2000000) :
    val_main_v7 (F := Ideal) x0 x1 (ix2 p t) = MI.sA x0 (mkOf x1) p t := by
  rw [val_main_v7_apply]
  refine Finset.sum_congr rfl fun k _ => ?_
  have el : lidx_main_v7 (ix2 p t) k = ix2 p k := funext fun a => Fin.ext (by match a with | ⟨0, _⟩ => rfl | ⟨1, _⟩ => rfl)
  have er : ridx_main_v7 (ix2 p t) k = ix2 t k := funext fun a => Fin.ext (by match a with | ⟨0, _⟩ => rfl | ⟨1, _⟩ => rfl)
  rw [el, er]
  rfl

/-- The number of selected columns of partition `p`, broadcast along the rows. -/
private theorem RBins_cA (p : Fin 8) (t : Fin 2000000) :
    val_main_v9 (F := Ideal) x1 (ix2 p t) = MI.cA (mkOf x1) p := by
  rw [val_main_v9_apply, val_main_v4_apply, val_main_v3_apply]
  show Ideal.ofBits .f32 0x00000000#32 + ∑ k : Fin 64, mkOf x1 (idx_main_v3 (idx_main_v4 (idx_main_v9 (ix2 p t))) k) = _
  rw [Ideal.ofBits_zero_f32, zero_add]
  exact Finset.sum_congr rfl fun k _ => congrArg (mkOf x1)
    (funext fun a => Fin.ext (by match a with | ⟨0, _⟩ => rfl | ⟨1, _⟩ => rfl))

/-- The sum divided by the count. -/
private theorem RBins_qA (p : Fin 8) (t : Fin 2000000) :
    val_main_v10 (F := Ideal) x0 x1 (ix2 p t) = Ideal.div (MI.sA x0 (mkOf x1) p t) (MI.cA (mkOf x1) p) := by
  rw [val_main_v10_apply, RBins_sA, RBins_cA]
  rfl

/-- The least quotient of partition `p`. -/
private theorem RBins_loA (p : Fin 8) :
    val_main_v11 (F := Ideal) x0 x1 (ix1 p) = MI.lo fun u => Ideal.div (MI.sA x0 (mkOf x1) p u) (MI.cA (mkOf x1) p) :=
  (RBins_reduce_min (val_main_v10 (F := Ideal) x0 x1) _ _ p).trans (congrArg MI.lo (funext fun u => RBins_qA x0 x1 p u))

/-- The greatest quotient of partition `p`. -/
private theorem RBins_hiA (p : Fin 8) :
    val_main_v13 (F := Ideal) x0 x1 (ix1 p) = MI.hi fun u => Ideal.div (MI.sA x0 (mkOf x1) p u) (MI.cA (mkOf x1) p) :=
  (RBins_reduce_max (val_main_v10 (F := Ideal) x0 x1) _ _ p).trans (congrArg MI.hi (funext fun u => RBins_qA x0 x1 p u))

/-- The least quotient broadcast along the rows. -/
private theorem RBins_loA_bc (p : Fin 8) (t : Fin 2000000) :
    val_main_v15 (F := Ideal) x0 x1 (ix2 p t) = MI.lo fun u => Ideal.div (MI.sA x0 (mkOf x1) p u) (MI.cA (mkOf x1) p) := by
  rw [val_main_v15_apply, val_main_v12_apply]
  have e : idx_main_v12 (idx_main_v15 (ix2 p t)) = ix1 p := funext fun a => Fin.ext (by match a with | ⟨0, _⟩ => rfl)
  rw [e, RBins_loA]

/-- The normalising denominator broadcast along the rows: the range of the quotients plus the offset. -/
private theorem RBins_denA (p : Fin 8) (t : Fin 2000000) :
    val_main_v20 (F := Ideal) x0 x1 (ix2 p t)
      = (MI.hi fun u => Ideal.div (MI.sA x0 (mkOf x1) p u) (MI.cA (mkOf x1) p))
        - (MI.lo fun u => Ideal.div (MI.sA x0 (mkOf x1) p u) (MI.cA (mkOf x1) p)) + MI.eps := by
  rw [val_main_v20_apply, val_main_v19_apply, val_main_v17_apply, val_main_v14_apply, val_main_v12_apply, val_main_v18_apply]
  have e1 : idx_main_v14 (idx_main_v20 (ix2 p t)) = ix1 p := funext fun a => Fin.ext (by match a with | ⟨0, _⟩ => rfl)
  have e2 : idx_main_v12 (idx_main_v20 (ix2 p t)) = ix1 p := funext fun a => Fin.ext (by match a with | ⟨0, _⟩ => rfl)
  rw [e1, e2, RBins_hiA, RBins_loA]
  rfl

/-- The first bin array: the bins of the selected-column sums. -/
theorem ref_xb : val_main_v38 (F := Ideal) x0 x1
    = fun i => MI.binR (MI.sA x0 (mkOf x1) (i 0)) (MI.cA (mkOf x1) (i 0)) (i 1) := by
  funext i
  obtain ⟨p, t, rfl⟩ : ∃ (p : Fin 8) (t : Fin 2000000), i = ix2 p t := ⟨i 0, i 1, eq_ix2 i⟩
  rw [val_main_v38_apply, val_main_call0_v2_apply, val_main_v37_apply, val_main_v36_apply, val_main_v21_apply,
    val_main_v16_apply, RBins_qA, RBins_loA_bc, RBins_denA]
  rfl

/-! ### The second bins: the sums over the columns left out -/

/-- The left-out-column sum of row `t` for partition `p`. -/
private theorem RBins_sB (p : Fin 8) (t : Fin 2000000) :
    val_main_v8 (F := Ideal) x0 x1 (ix2 p t) = MI.sB x0 (mkOf x1) p t := by
  rw [val_main_v8_apply]
  refine Finset.sum_congr rfl fun k _ => ?_
  have el : lidx_main_v8 (ix2 p t) k = ix2 p k := funext fun a => Fin.ext (by match a with | ⟨0, _⟩ => rfl | ⟨1, _⟩ => rfl)
  have er : ridx_main_v8 (ix2 p t) k = ix2 t k := funext fun a => Fin.ext (by match a with | ⟨0, _⟩ => rfl | ⟨1, _⟩ => rfl)
  rw [el, er]
  rfl

/-- The number of left-out columns of partition `p`, broadcast along the rows. -/
private theorem RBins_cB (p : Fin 8) (t : Fin 2000000) :
    val_main_v22 (F := Ideal) x1 (ix2 p t) = MI.cB (mkOf x1) p := by
  rw [val_main_v22_apply, val_main_v6_apply, val_main_v5_apply]
  show Ideal.ofBits .f32 0x00000000#32
      + ∑ k : Fin 64, val_main_v2 (F := Ideal) x1 (idx_main_v5 (idx_main_v6 (idx_main_v22 (ix2 p t))) k) = _
  rw [Ideal.ofBits_zero_f32, zero_add]
  refine Finset.sum_congr rfl fun k _ => ?_
  have e : idx_main_v5 (idx_main_v6 (idx_main_v22 (ix2 p t))) k = ix2 p k :=
    funext fun a => Fin.ext (by match a with | ⟨0, _⟩ => rfl | ⟨1, _⟩ => rfl)
  rw [e]
  rfl

/-- The sum divided by the count. -/
private theorem RBins_qB (p : Fin 8) (t : Fin 2000000) :
    val_main_v23 (F := Ideal) x0 x1 (ix2 p t) = Ideal.div (MI.sB x0 (mkOf x1) p t) (MI.cB (mkOf x1) p) := by
  rw [val_main_v23_apply, RBins_sB, RBins_cB]
  rfl

/-- The least quotient of partition `p`. -/
private theorem RBins_loB (p : Fin 8) :
    val_main_v24 (F := Ideal) x0 x1 (ix1 p) = MI.lo fun u => Ideal.div (MI.sB x0 (mkOf x1) p u) (MI.cB (mkOf x1) p) :=
  (RBins_reduce_min (val_main_v23 (F := Ideal) x0 x1) _ _ p).trans (congrArg MI.lo (funext fun u => RBins_qB x0 x1 p u))

/-- The greatest quotient of partition `p`. -/
private theorem RBins_hiB (p : Fin 8) :
    val_main_v26 (F := Ideal) x0 x1 (ix1 p) = MI.hi fun u => Ideal.div (MI.sB x0 (mkOf x1) p u) (MI.cB (mkOf x1) p) :=
  (RBins_reduce_max (val_main_v23 (F := Ideal) x0 x1) _ _ p).trans (congrArg MI.hi (funext fun u => RBins_qB x0 x1 p u))

/-- The least quotient broadcast along the rows. -/
private theorem RBins_loB_bc (p : Fin 8) (t : Fin 2000000) :
    val_main_v28 (F := Ideal) x0 x1 (ix2 p t) = MI.lo fun u => Ideal.div (MI.sB x0 (mkOf x1) p u) (MI.cB (mkOf x1) p) := by
  rw [val_main_v28_apply, val_main_v25_apply]
  have e : idx_main_v25 (idx_main_v28 (ix2 p t)) = ix1 p := funext fun a => Fin.ext (by match a with | ⟨0, _⟩ => rfl)
  rw [e, RBins_loB]

/-- The normalising denominator broadcast along the rows: the range of the quotients plus the offset. -/
private theorem RBins_denB (p : Fin 8) (t : Fin 2000000) :
    val_main_v33 (F := Ideal) x0 x1 (ix2 p t)
      = (MI.hi fun u => Ideal.div (MI.sB x0 (mkOf x1) p u) (MI.cB (mkOf x1) p))
        - (MI.lo fun u => Ideal.div (MI.sB x0 (mkOf x1) p u) (MI.cB (mkOf x1) p)) + MI.eps := by
  rw [val_main_v33_apply, val_main_v32_apply, val_main_v30_apply, val_main_v27_apply, val_main_v25_apply, val_main_v31_apply]
  have e1 : idx_main_v27 (idx_main_v33 (ix2 p t)) = ix1 p := funext fun a => Fin.ext (by match a with | ⟨0, _⟩ => rfl)
  have e2 : idx_main_v25 (idx_main_v33 (ix2 p t)) = ix1 p := funext fun a => Fin.ext (by match a with | ⟨0, _⟩ => rfl)
  rw [e1, e2, RBins_hiB, RBins_loB]
  rfl

/-- The second bin array: the bins of the left-out-column sums. -/
theorem ref_yb : val_main_v42 (F := Ideal) x0 x1
    = fun i => MI.binR (MI.sB x0 (mkOf x1) (i 0)) (MI.cB (mkOf x1) (i 0)) (i 1) := by
  funext i
  obtain ⟨p, t, rfl⟩ : ∃ (p : Fin 8) (t : Fin 2000000), i = ix2 p t := ⟨i 0, i 1, eq_ix2 i⟩
  rw [val_main_v42_apply, val_main_call1_v2_apply, val_main_v41_apply, val_main_v40_apply, val_main_v34_apply,
    val_main_v29_apply, RBins_qB, RBins_loB_bc, RBins_denB]
  rfl

end Cert.ReferenceIdeal.RV

end
-- ==== Proof.RScatterCore.lean ====
/-
  A scatter-add of ones into a zero table, at index triples (partition, first bin, second bin) that are all in range,
  counts for each entry of the table the rows whose triple it is.
-/
import proofs.«135964_j5007931867607_1_alg».proof.ReferenceIdeal
import proofs.«135964_j5007931867607_1_alg».proof.Proof.Gen.ReferenceIdeal
import proofs.«135964_j5007931867607_1_alg».proof.Proof.Spec
import Idealize.ShloMosaic.Lib.ValueIdx
import Idealize.ShloMosaic.PureOps.Ideal.Laws

set_option maxRecDepth 16384

noncomputable section

open Idealize.ShloMosaic Idealize.ShloMosaic.ValueIdx

namespace Cert.ReferenceIdeal.RV

open Cert.ReferenceIdeal Cert.ReferenceIdeal.Facts₀ Cert.ReferenceIdeal.Facts Cert

/-- The scatter's dimension numbers. -/
private abbrev D := scatter_S8x10x10_S8x2000000x3_S8x2000000_n_012_012_2

/-- Every axis of the table is an inserted window axis: no axis is kept for a window. -/
private theorem D_sKept : D.sKept = [] := by decide

/-- So the window coordinate is zero on every axis. -/
private theorem D_window (j : S8x2000000.Idx) (a : Fin 3) : D.window j a = 0 := by
  unfold ScatterDims.window
  rw [dif_neg]
  rw [D_sKept]
  exact List.not_mem_nil

/-- Component `c` of the start index of update `(p, t)` is read at `(p, t, c)`. -/
private theorem D_siIdx (j : S8x2000000.Idx) (c : Fin 3) : D.siIdx j c = ix3 (j 0) (j 1) c := by
  funext b
  match b with
  | ⟨0, _⟩ => rfl
  | ⟨1, _⟩ => rfl
  | ⟨2, _⟩ => rfl

private theorem D_mem : ∀ a : Fin 3, a ∈ D.scatterDimsToOperandDims := by decide

/-- The start on table axis `a` is the word at `(p, t, a)`, read signed. -/
private theorem D_start (j : S8x2000000.Idx) (idx : IVec S8x2000000x3 32) (a : Fin 3) :
    D.start j idx a = (idx (ix3 (j 0) (j 1) a)).toInt := by
  match a with
  | ⟨0, _⟩ =>
    unfold ScatterDims.start
    rw [dif_pos (D_mem _)]
    exact congrArg (fun k => (idx k).toInt) (D_siIdx j _)
  | ⟨1, _⟩ =>
    unfold ScatterDims.start
    rw [dif_pos (D_mem _)]
    exact congrArg (fun k => (idx k).toInt) (D_siIdx j _)
  | ⟨2, _⟩ =>
    unfold ScatterDims.start
    rw [dif_pos (D_mem _)]
    exact congrArg (fun k => (idx k).toInt) (D_siIdx j _)

private theorem D_pos (j : S8x2000000.Idx) (idx : IVec S8x2000000x3 32) (a : Fin 3) :
    D.start j idx a + (D.window j a : Int) = (idx (ix3 (j 0) (j 1) a)).toInt := by
  rw [D_start, D_window]; simp

/-- Update `(p, t)` lands on entry `q` of the table exactly when its three index words, read signed, are `q`'s
    coordinates. -/
private theorem D_resultIdx_iff (idx : IVec S8x2000000x3 32) (j : S8x2000000.Idx) (q : S8x10x10.Idx) :
    D.resultIdx? j idx = some q ↔ ∀ a : Fin 3, (idx (ix3 (j 0) (j 1) a)).toInt = ((q a).val : Int) := by
  unfold ScatterDims.resultIdx?
  by_cases h : ∀ a, 0 ≤ D.start j idx a + D.window j a ∧ D.start j idx a + D.window j a < S8x10x10.size a
  · rw [dif_pos h, Option.some.injEq]
    constructor
    · rintro rfl a
      have := h a
      rw [D_pos] at this
      simp only [D_pos]
      omega
    · intro hq
      funext a
      apply Fin.ext
      have := hq a
      simp only [D_pos]
      omega
  · rw [dif_neg h]
    constructor
    · intro h'; cases h'
    · intro hq
      exfalso
      apply h
      intro a
      rw [D_pos, hq a]
      exact ⟨by positivity, by exact_mod_cast (q a).isLt⟩

/-- A small natural number as a 32-bit word reads back signed as itself. -/
private theorem toInt_ofNat_small (n : ℕ) (hn : n < 2147483648) : (BitVec.ofNat 32 n).toInt = (n : Int) := by
  rw [BitVec.toInt_eq_toNat_cond]
  simp only [BitVec.toNat_ofNat]
  have : n % 2 ^ 32 = n := Nat.mod_eq_of_lt (by omega)
  rw [this]
  split_ifs <;> omega

/-- A word that is a small natural number reads signed as `k` exactly when it is the word of `k`. -/
private theorem word_eq_iff (b : BitVec 32) (m k : ℕ) (hm : m < 2147483648) (hk : k < 2147483648)
    (hb : b = BitVec.ofNat 32 m) : b.toInt = (k : Int) ↔ b = BitVec.ofNat 32 k := by
  subst hb
  rw [toInt_ofNat_small m hm]
  constructor
  · intro h
    have : m = k := by exact_mod_cast h
    rw [this]
  · intro h
    have := congrArg BitVec.toInt h
    rw [toInt_ofNat_small m hm, toInt_ofNat_small k hk] at this
    exact this

/-- The pattern 0x3F800000 denotes one. -/
private theorem one_pattern : Ideal.ofBits .f32 0x3F800000#32 = (1 : EReal) := by
  simp [Ideal.ofBits, Ideal.ieee, -EReal.coe_mul]; norm_num

/-- The scatter-add at an entry: the entry plus the sum of the updates that land on it. -/
private theorem scatterAdd_apply {s si u : Shape} {w : ℕ} (d : ScatterDims s si u) (x : FVec Ideal s .f32)
    (idx : IVec si w) (upd : FVec Ideal u .f32) (q : s.Idx) :
    Host.scatterAdd (F := Ideal) d x idx upd q
      = x q + ∑ j ∈ Finset.univ.filter (fun j => d.resultIdx? j idx = some q), upd j := rfl

/-- A constant summed over the indices with a property is the sum over all indices of the constant or zero. -/
private theorem count_filter {ι : Type} [Fintype ι] (P : ι → Prop) [DecidablePred P] (c : EReal) :
    ∑ j ∈ Finset.univ.filter P, c = ∑ j, if P j then c else 0 := Finset.sum_filter _ _

/-- If the index array holds at `(p, t, ·)` the triple (p, xb p t, yb p t), each bin one of 0 … 9, then scattering a one
    per row into the zero table gives the joint histogram of `xb` and `yb`. -/
theorem scatter_count (idx : IVec S8x2000000x3 32) (xb yb : Fin 8 → Fin 2000000 → BitVec 32)
    (h0 : ∀ (p : Fin 8) (t : Fin 2000000), idx (ix3 p t 0) = BitVec.ofNat 32 p.val)
    (h1 : ∀ (p : Fin 8) (t : Fin 2000000), idx (ix3 p t 1) = xb p t)
    (h2 : ∀ (p : Fin 8) (t : Fin 2000000), idx (ix3 p t 2) = yb p t)
    (hx : ∀ (p : Fin 8) (t : Fin 2000000), ∃ i : Fin 10, xb p t = BitVec.ofNat 32 i.val)
    (hy : ∀ (p : Fin 8) (t : Fin 2000000), ∃ j : Fin 10, yb p t = BitVec.ofNat 32 j.val) :
    Host.scatterAdd (F := Ideal) scatter_S8x10x10_S8x2000000x3_S8x2000000_n_012_012_2
        (fun _ => Ideal.ofBits .f32 0x00000000#32 : FVec Ideal S8x10x10 .f32) idx
        (fun _ => Ideal.ofBits .f32 0x3F800000#32 : FVec Ideal S8x2000000 .f32)
      = fun q => MI.joint xb yb (q 0) (q 1) (q 2) := by
  funext q
  refine (scatterAdd_apply _ _ _ _ q).trans ?_
  rw [Ideal.ofBits_zero_f32, zero_add, one_pattern]
  refine (count_filter _ _).trans ?_
  refine (sum_idx2 _).trans ?_
  have key : ∀ (p : Fin 8) (t : Fin 2000000), (D.resultIdx? (ix2 p t) idx = some q) ↔
      (p = q 0 ∧ xb p t = BitVec.ofNat 32 (q 1).val ∧ yb p t = BitVec.ofNat 32 (q 2).val) := by
    intro p t
    have q0 : (q 0).val < 8 := (q 0).isLt
    have q1 : (q 1).val < 10 := (q 1).isLt
    have q2 : (q 2).val < 10 := (q 2).isLt
    have p8 : p.val < 8 := p.isLt
    obtain ⟨i, hi⟩ := hx p t
    obtain ⟨k, hk⟩ := hy p t
    have i10 := i.isLt
    have k10 := k.isLt
    rw [D_resultIdx_iff]
    have e0 : (idx (ix3 p t 0)).toInt = ((q 0).val : Int) ↔ p = q 0 := by
      rw [h0, toInt_ofNat_small _ (by omega)]
      constructor
      · intro h; exact Fin.ext (by exact_mod_cast h)
      · intro h; exact congrArg (fun z : Fin 8 => (z.val : Int)) h
    have e1 : (idx (ix3 p t 1)).toInt = ((q 1).val : Int) ↔ xb p t = BitVec.ofNat 32 (q 1).val := by
      rw [h1]; exact word_eq_iff _ i.val _ (by omega) (by omega) hi
    have e2 : (idx (ix3 p t 2)).toInt = ((q 2).val : Int) ↔ yb p t = BitVec.ofNat 32 (q 2).val := by
      rw [h2]; exact word_eq_iff _ k.val _ (by omega) (by omega) hk
    constructor
    · intro h; exact ⟨e0.1 (h 0), e1.1 (h 1), e2.1 (h 2)⟩
    · rintro ⟨a0, a1, a2⟩ a
      match a with
      | ⟨0, _⟩ => exact e0.2 a0
      | ⟨1, _⟩ => exact e1.2 a1
      | ⟨2, _⟩ => exact e2.2 a2
  have hne : ∀ p : Fin 8, p ≠ q 0 →
      (∑ t : Fin 2000000, if D.resultIdx? (ix2 p t) idx = some q then (1 : EReal) else 0) = 0 := by
    intro p hp
    refine Finset.sum_eq_zero fun t _ => if_neg ?_
    rw [key]; exact fun h => hp h.1
  refine (Finset.sum_eq_single (q 0 : Fin 8) (fun p _ hp => hne p hp)
    (fun h => absurd (Finset.mem_univ _) h)).trans ?_
  unfold MI.joint
  refine Finset.sum_congr rfl fun t _ => ?_
  unfold MI.oh
  by_cases hA : xb (q 0) t = BitVec.ofNat 32 (q 1).val
  · by_cases hB : yb (q 0) t = BitVec.ofNat 32 (q 2).val
    · rw [if_pos ((key _ _).2 ⟨rfl, hA, hB⟩), if_pos hA, if_pos hB, mul_one]
    · rw [if_neg (fun h => hB ((key _ _).1 h).2.2), if_pos hA, if_neg hB, mul_zero]
  · rw [if_neg (fun h => hA ((key _ _).1 h).2.1), if_neg hA, zero_mul]

/-- Clipping to 0 … 9 lands on one of the ten bins. -/
theorem clip9_range (b : BitVec 32) : ∃ i : Fin 10, MI.clip9 b = BitVec.ofNat 32 i.val := by
  have key : 0 ≤ (MI.clip9 b).toInt ∧ (MI.clip9 b).toInt ≤ 9 := by
    unfold MI.clip9 IntOp.minsi IntOp.maxsi
    simp only [BitVec.slt_eq_decide, decide_eq_true_eq]
    split_ifs with h1 h2 h2 <;> simp_all <;> omega
  obtain ⟨k0, k9⟩ := key
  refine ⟨⟨(MI.clip9 b).toNat, ?_⟩, ?_⟩
  · have := BitVec.toInt_eq_toNat_cond (MI.clip9 b)
    split_ifs at this <;> omega
  · simp

end Cert.ReferenceIdeal.RV

end
-- ==== Proof.RScatter.lean ====
/-
  The reference program's joint histogram: a scatter-add of ones at the index triples (partition, first bin, second
  bin) into a zero table counts, for each partition and each pair of bins, the rows that fall there.
-/
import proofs.«135964_j5007931867607_1_alg».proof.Proof.RRead
import proofs.«135964_j5007931867607_1_alg».proof.Proof.Spec
import proofs.«135964_j5007931867607_1_alg».proof.Proof.RBins
import proofs.«135964_j5007931867607_1_alg».proof.Proof.RScatterCore
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RV

open Cert.ReferenceIdeal Cert.ReferenceIdeal.ReadP Cert

variable (x0 : (⟨S2000000x64, .f32⟩ : BufTy).Contents (Elt Ideal)) (x1 : (⟨S8x64, .i1⟩ : BufTy).Contents (Elt Ideal))

/-! ### A select guarded by "is negative" keeps a word that is not negative -/

/-- The ten smallest naturals, as 32-bit words, are not negative. -/
private theorem RScatter_small_not_neg : ∀ i : Fin 10, (BitVec.ofNat 32 i.val).slt 0#32 = false := by decide

/-- If `b` is not negative, `select (b < 0) c b` is `b`. -/
private theorem RScatter_select_keep (b c : BitVec 32) (h : b.slt 0#32 = false) :
    Scalar.select (IntOp.cmpi .slt b 0#32) c b = b := by
  have hc : IntOp.cmpi .slt b 0#32 = 0#1 := by
    unfold IntOp.cmpi
    simp only [h]
    rfl
  rw [hc, select_zero]

/-! ### The partition number's column -/

private theorem RScatter_v45_at (j : S8x2000000.Idx) :
    val_main_v45 (F := Ideal) j = BitVec.ofNat 32 (j 0).val := by
  rw [val_main_v45_apply, val_main_v44_apply, val_main_v43_apply]

private theorem RScatter_v51_at (j : S8x2000000.Idx) :
    val_main_v51 (F := Ideal) j = BitVec.ofNat 32 (j 0).val := by
  rw [val_main_v51_apply, val_main_v48_apply, val_main_v47_apply, val_main_c_14_apply, RScatter_v45_at]
  have hlt : (j 0).val < 8 := (j 0).isLt
  exact RScatter_select_keep _ _ (RScatter_small_not_neg ⟨(j 0).val, by omega⟩)

private theorem RScatter_v62_at (p : Fin 8) (t : Fin 2000000) :
    val_main_v62 (F := Ideal) (ix3 p t (0 : Fin 1)) = BitVec.ofNat 32 p.val := by
  rw [val_main_v62_apply, RScatter_v51_at]

/-! ### The two bin columns -/

private theorem RScatter_v56_at (j : S8x2000000.Idx) :
    val_main_v56 (F := Ideal) x0 x1 j = val_main_v38 (F := Ideal) x0 x1 j := by
  rw [val_main_v56_apply, val_main_v53_apply, val_main_v52_apply, val_main_c_16_apply]
  obtain ⟨i, hi⟩ : ∃ i : Fin 10, val_main_v38 (F := Ideal) x0 x1 j = BitVec.ofNat 32 i.val := by
    rw [ref_xb]; exact clip9_range _
  refine RScatter_select_keep _ _ ?_
  rw [hi]; exact RScatter_small_not_neg i

private theorem RScatter_v61_at (j : S8x2000000.Idx) :
    val_main_v61 (F := Ideal) x0 x1 j = val_main_v42 (F := Ideal) x0 x1 j := by
  rw [val_main_v61_apply, val_main_v58_apply, val_main_v57_apply, val_main_c_18_apply]
  obtain ⟨i, hi⟩ : ∃ i : Fin 10, val_main_v42 (F := Ideal) x0 x1 j = BitVec.ofNat 32 i.val := by
    rw [ref_yb]; exact clip9_range _
  refine RScatter_select_keep _ _ ?_
  rw [hi]; exact RScatter_small_not_neg i

private theorem RScatter_v63_at (p : Fin 8) (t : Fin 2000000) :
    val_main_v63 (F := Ideal) x0 x1 (ix3 p t (0 : Fin 1))
      = MI.binR (MI.sA x0 (mkOf x1) p) (MI.cA (mkOf x1) p) t := by
  rw [val_main_v63_apply, RScatter_v56_at, ref_xb]
  rfl

private theorem RScatter_v64_at (p : Fin 8) (t : Fin 2000000) :
    val_main_v64 (F := Ideal) x0 x1 (ix3 p t (0 : Fin 1))
      = MI.binR (MI.sB x0 (mkOf x1) p) (MI.cB (mkOf x1) p) t := by
  rw [val_main_v64_apply, RScatter_v61_at, ref_yb]
  rfl

/-! ### The index array: three one-wide columns side by side -/

private theorem RScatter_v65_at0 (p : Fin 8) (t : Fin 2000000) :
    val_main_v65 (F := Ideal) x0 x1 (ix3 p t (0 : Fin 3)) = val_main_v62 (F := Ideal) (ix3 p t (0 : Fin 1)) := by
  unfold val_main_v65
  refine concatenate_apply_piece (t := S8x2000000x3) (2 : Fin 3)
    [⟨S8x2000000x1, val_main_v62 (F := Ideal)⟩, ⟨S8x2000000x1, val_main_v63 (F := Ideal) x0 x1⟩,
      ⟨S8x2000000x1, val_main_v64 (F := Ideal) x0 x1⟩]
    Gen.concatenates_S8x2000000x1_S8x2000000x1_S8x2000000x1_S8x2000000x3_d2 (ix3 p t (0 : Fin 3)) 0 ?hk
    S8x2000000x1 (val_main_v62 (F := Ideal)) ?hxk ?hr 0 ?hpre (ix3 p t (0 : Fin 1)) ?hi ?ha
  case hk => simp
  case hxk => rfl
  case hr => rfl
  case hpre => rfl
  case hi =>
    intro b hb
    match b with
    | ⟨0, _⟩ => rfl
    | ⟨1, _⟩ => rfl
    | ⟨2, _⟩ => exact absurd rfl hb
  case ha => rfl

private theorem RScatter_v65_at1 (p : Fin 8) (t : Fin 2000000) :
    val_main_v65 (F := Ideal) x0 x1 (ix3 p t (1 : Fin 3)) = val_main_v63 (F := Ideal) x0 x1 (ix3 p t (0 : Fin 1)) := by
  unfold val_main_v65
  refine concatenate_apply_piece (t := S8x2000000x3) (2 : Fin 3)
    [⟨S8x2000000x1, val_main_v62 (F := Ideal)⟩, ⟨S8x2000000x1, val_main_v63 (F := Ideal) x0 x1⟩,
      ⟨S8x2000000x1, val_main_v64 (F := Ideal) x0 x1⟩]
    Gen.concatenates_S8x2000000x1_S8x2000000x1_S8x2000000x1_S8x2000000x3_d2 (ix3 p t (1 : Fin 3)) 1 ?hk
    S8x2000000x1 (val_main_v63 (F := Ideal) x0 x1) ?hxk ?hr 1 ?hpre (ix3 p t (0 : Fin 1)) ?hi ?ha
  case hk => simp
  case hxk => rfl
  case hr => rfl
  case hpre => rfl
  case hi =>
    intro b hb
    match b with
    | ⟨0, _⟩ => rfl
    | ⟨1, _⟩ => rfl
    | ⟨2, _⟩ => exact absurd rfl hb
  case ha => rfl

private theorem RScatter_v65_at2 (p : Fin 8) (t : Fin 2000000) :
    val_main_v65 (F := Ideal) x0 x1 (ix3 p t (2 : Fin 3)) = val_main_v64 (F := Ideal) x0 x1 (ix3 p t (0 : Fin 1)) := by
  unfold val_main_v65
  refine concatenate_apply_piece (t := S8x2000000x3) (2 : Fin 3)
    [⟨S8x2000000x1, val_main_v62 (F := Ideal)⟩, ⟨S8x2000000x1, val_main_v63 (F := Ideal) x0 x1⟩,
      ⟨S8x2000000x1, val_main_v64 (F := Ideal) x0 x1⟩]
    Gen.concatenates_S8x2000000x1_S8x2000000x1_S8x2000000x1_S8x2000000x3_d2 (ix3 p t (2 : Fin 3)) 2 ?hk
    S8x2000000x1 (val_main_v64 (F := Ideal) x0 x1) ?hxk ?hr 2 ?hpre (ix3 p t (0 : Fin 1)) ?hi ?ha
  case hk => simp
  case hxk => rfl
  case hr => rfl
  case hpre => rfl
  case hi =>
    intro b hb
    match b with
    | ⟨0, _⟩ => rfl
    | ⟨1, _⟩ => rfl
    | ⟨2, _⟩ => exact absurd rfl hb
  case ha => rfl

/-! ### The scatter -/

/-- The scatter's result is the histogram of the two bin arrays. -/
theorem ref_joint : val_main_v67 (F := Ideal) x0 x1 = MI.RJ x0 (mkOf x1) := by
  have h46 : val_main_v46 (F := Ideal) = fun _ => Ideal.ofBits .f32 0x00000000#32 := by
    funext i; rw [val_main_v46_apply]; rfl
  have h66 : val_main_v66 (F := Ideal) = fun _ => Ideal.ofBits .f32 0x3F800000#32 := by
    funext i; rw [val_main_v66_apply]; rfl
  unfold val_main_v67
  rw [h46, h66]
  exact scatter_count (val_main_v65 (F := Ideal) x0 x1)
    (fun p => MI.binR (MI.sA x0 (mkOf x1) p) (MI.cA (mkOf x1) p))
    (fun p => MI.binR (MI.sB x0 (mkOf x1) p) (MI.cB (mkOf x1) p))
    (fun p t => (RScatter_v65_at0 x0 x1 p t).trans (RScatter_v62_at p t))
    (fun p t => (RScatter_v65_at1 x0 x1 p t).trans (RScatter_v63_at x0 x1 p t))
    (fun p t => (RScatter_v65_at2 x0 x1 p t).trans (RScatter_v64_at x0 x1 p t))
    (fun p t => clip9_range _) (fun p t => clip9_range _)

end Cert.ReferenceIdeal.RV

end
-- ==== Proof.RValue.lean ====
/-
  The reference program's two results as functions of its arguments: the closing chain (the same operations the
  kernel program ends with) applied to its joint histogram.
-/
import proofs.«135964_j5007931867607_1_alg».proof.Proof.RRead
import proofs.«135964_j5007931867607_1_alg».proof.Proof.Spec
import proofs.«135964_j5007931867607_1_alg».proof.Proof.RScatter
import proofs.«135964_j5007931867607_1_alg».proof.Proof.Tail
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RV

open Cert.ReferenceIdeal Cert.ReferenceIdeal.ReadP Cert

section Chain
variable {F : FTy → Type} [FloatOps F]
variable (x0 : (⟨S2000000x64, .f32⟩ : BufTy).Contents (Elt F)) (x1 : (⟨S8x64, .i1⟩ : BufTy).Contents (Elt F))

/-- The per-partition result is the closing chain of the scatter's table. -/
theorem v90_eq_tail : val_main_v90 (F := F) x0 x1 = Cert.KernelIdeal.KV.tail42 (F := F) (val_main_v67 (F := F) x0 x1) := rfl

/-- The overall result is the least of the per-partition results. -/
theorem v91_eq_tail : val_main_v91 (F := F) x0 x1 = Cert.KernelIdeal.KV.tail43 (F := F) (val_main_v67 (F := F) x0 x1) := rfl
end Chain

variable (m : (ℓ : Loc nD τ sig) → Buf (Elt Ideal) ℓ)

theorem r90 (c : Dev nD) : Cert.ReferenceIdeal.ValueP.res_main_v90 (F := Ideal) m c
    = Cert.KernelIdeal.KV.tail42 (F := Ideal) (MI.RJ (m ((c.tc : Thread nD τ).loc main_arg0))
        (uitofp (F := Ideal) .f32 (m ((c.tc : Thread nD τ).loc main_arg1)) : MI.SM.Idx → EReal)) := by
  rw [val_main_v90_eq, v90_eq_tail, ref_joint]

theorem r91 (c : Dev nD) : Cert.ReferenceIdeal.ValueP.res_main_v91 (F := Ideal) m c
    = Cert.KernelIdeal.KV.tail43 (F := Ideal) (MI.RJ (m ((c.tc : Thread nD τ).loc main_arg0))
        (uitofp (F := Ideal) .f32 (m ((c.tc : Thread nD τ).loc main_arg1)) : MI.SM.Idx → EReal)) := by
  rw [val_main_v91_eq, v91_eq_tail, ref_joint]

end Cert.ReferenceIdeal.RV

end
-- ==== Proof.Algebra.lean ====
/-
  The two ways of binning agree.  For a family `s` of real row sums and a count `c`:
  if `c > 0` then `min (s/c) = (min s)/c` and `max (s/c) = (max s)/c`, so
  `(s t / c − min (s/c)) / (max (s/c) − min (s/c) + ε) = (s t − min s) / (max s − min s + ε·c)` — the same real, hence the same bin;
  if `c = 0` every mask entry of the partition is zero, every sum is zero, one side normalises `0/0` and the other
  `0/ε`, and both values fall in bin 0 after truncation and clipping.
-/
import proofs.«135964_j5007931867607_1_alg».proof.Proof.Spec
import Mathlib.Data.EReal.Basic
import Mathlib.Data.EReal.Operations
import Mathlib.Data.EReal.Inv
import Mathlib.Order.Fin.Basic
import Mathlib.Data.Fintype.Basic
import Mathlib.Algebra.Order.BigOperators.Group.Finset
import Mathlib.Tactic.FieldSimp
import Mathlib.Tactic.Ring
import Mathlib.Tactic.Positivity
import Mathlib.Tactic.NormNum

noncomputable section

namespace Cert.MI

open Idealize.ShloMosaic Idealize.ShloMosaic.ValueIdx

/-! ### The constants -/

private theorem one_eq : one = 1 := by
  simp [one, Ideal.ofBits, Ideal.ieee, -EReal.coe_mul]; norm_num

private theorem c64_eq : c64 = ((64 : ℝ) : EReal) := by
  simp [c64, Ideal.ofBits, Ideal.ieee, -EReal.coe_mul]; norm_num

private theorem ten_eq : ten = ((10 : ℝ) : EReal) := by
  simp [ten, Ideal.ofBits, Ideal.ieee, -EReal.coe_mul]; norm_num

/-- The offset is a positive real. -/
private theorem eps_eq : ∃ e : ℝ, 0 < e ∧ eps = (e : EReal) := by
  refine ⟨8796093 * (2:ℝ) ^ (-43 : Int), by positivity, ?_⟩
  simp [eps, Ideal.ofBits, Ideal.ieee, -EReal.coe_mul]

/-! ### Sums of reals inside the extended reals -/

private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
private theorem div_real (a b : ℝ) (hb : b ≠ 0) : Ideal.div (a : EReal) (b : EReal) = ((a / b : ℝ) : EReal) := by
  rw [Ideal.div_coe hb, ← EReal.coe_mul]; congr 1; ring

/-! ### Least and greatest value of a finite family of reals -/

private theorem lo_coe (r : Fin 2000000 → ℝ) :
    ∃ t0, lo (fun t => (r t : EReal)) = (r t0 : EReal) ∧ ∀ t, r t0 ≤ r t := by
  obtain ⟨t0, -, h0⟩ := Finset.exists_mem_eq_inf Finset.univ Finset.univ_nonempty (fun t => (r t : EReal))
  refine ⟨t0, h0, fun t => ?_⟩
  have h : Finset.univ.inf (fun t => (r t : EReal)) ≤ (r t : EReal) := Finset.inf_le (f := fun t => (r t : EReal)) (Finset.mem_univ t)
  rw [h0] at h
  exact_mod_cast h

private theorem hi_coe (r : Fin 2000000 → ℝ) :
    ∃ t0, hi (fun t => (r t : EReal)) = (r t0 : EReal) ∧ ∀ t, r t ≤ r t0 := by
  obtain ⟨t0, -, h0⟩ := Finset.exists_mem_eq_sup Finset.univ Finset.univ_nonempty (fun t => (r t : EReal))
  refine ⟨t0, h0, fun t => ?_⟩
  have h : (r t : EReal) ≤ Finset.univ.sup (fun t => (r t : EReal)) := Finset.le_sup (f := fun t => (r t : EReal)) (Finset.mem_univ t)
  rw [h0] at h
  exact_mod_cast h

/-- Dividing by a positive real commutes with the least value. -/
private theorem lo_div (r : Fin 2000000 → ℝ) (c : ℝ) (hc : 0 < c) :
    ∃ mn : ℝ, lo (fun t => (r t : EReal)) = (mn : EReal) ∧
      lo (fun t => ((r t / c : ℝ) : EReal)) = ((mn / c : ℝ) : EReal) ∧ ∀ t, mn ≤ r t := by
  obtain ⟨t0, h0, hle0⟩ := lo_coe r
  obtain ⟨t1, h1, hle1⟩ := lo_coe (fun t => r t / c)
  refine ⟨r t0, h0, ?_, hle0⟩
  rw [h1]
  exact congrArg (fun z : ℝ => (z : EReal)) (le_antisymm (hle1 t0) (div_le_div_of_nonneg_right (hle0 t1) hc.le))

/-- Dividing by a positive real commutes with the greatest value. -/
private theorem hi_div (r : Fin 2000000 → ℝ) (c : ℝ) (hc : 0 < c) :
    ∃ mx : ℝ, hi (fun t => (r t : EReal)) = (mx : EReal) ∧
      hi (fun t => ((r t / c : ℝ) : EReal)) = ((mx / c : ℝ) : EReal) ∧ ∀ t, r t ≤ mx := by
  obtain ⟨t0, h0, hle0⟩ := hi_coe r
  obtain ⟨t1, h1, hle1⟩ := hi_coe (fun t => r t / c)
  refine ⟨r t0, h0, ?_, hle0⟩
  rw [h1]
  exact congrArg (fun z : ℝ => (z : EReal)) (le_antisymm (div_le_div_of_nonneg_right (hle0 t1) hc.le) (hle1 t0))

/-! ### A positive count: both normalisations are the same real quotient -/

private theorem bin_pos (r : Fin 2000000 → ℝ) (c : ℝ) (hc : 0 < c) (t : Fin 2000000) :
    binK (fun t => (r t : EReal)) (c : EReal) t = binR (fun t => (r t : EReal)) (c : EReal) t := by
  obtain ⟨e, he, hE⟩ := eps_eq
  obtain ⟨mn, hmn, hmn', hle⟩ := lo_div r c hc
  obtain ⟨mx, hmx, hmx', hge⟩ := hi_div r c hc
  have hdiv : ∀ u, Ideal.div (r u : EReal) (c : EReal) = ((r u / c : ℝ) : EReal) :=
    fun u => div_real _ _ hc.ne'
  have hmm : mn ≤ mx := (hle t).trans (hge t)
  have hd1 : (0:ℝ) < mx - mn + e * c := by
    have := mul_pos he hc
    linarith
  have hd2 : (0:ℝ) < mx / c - mn / c + e := by
    have := div_le_div_of_nonneg_right hmm hc.le
    linarith
  have e1 : ((r t : EReal) - (mn : EReal)) = ((r t - mn : ℝ) : EReal) := (EReal.coe_sub _ _).symm
  have e2 : ((mx : EReal) - (mn : EReal) + (e : EReal) * (c : EReal)) = ((mx - mn + e * c : ℝ) : EReal) := by
    rw [EReal.coe_add, EReal.coe_sub, EReal.coe_mul]
  have e3 : (((r t / c : ℝ) : EReal) - ((mn / c : ℝ) : EReal)) = ((r t / c - mn / c : ℝ) : EReal) :=
    (EReal.coe_sub _ _).symm
  have e4 : (((mx / c : ℝ) : EReal) - ((mn / c : ℝ) : EReal) + (e : EReal)) = ((mx / c - mn / c + e : ℝ) : EReal) := by
    rw [EReal.coe_add, EReal.coe_sub]
  have key : (r t - mn) / (mx - mn + e * c) = (r t / c - mn / c) / (mx / c - mn / c + e) := by
    have hc' : c ≠ 0 := hc.ne'
    have h1 : r t / c - mn / c = (r t - mn) / c := by ring
    have h2 : mx / c - mn / c + e = (mx - mn + e * c) / c := by field_simp
    rw [h1, h2, div_div_div_cancel_right₀ hc']
  unfold binK binR binG
  simp only [hdiv]
  rw [hmn, hmx, hmn', hmx', hE, e1, e2, e3, e4, div_real _ _ hd1.ne', div_real _ _ hd2.ne', key]

/-! ### A zero count: both values fall in the lowest bin -/

private theorem clip9_min : clip9 (BitVec.ofInt 32 (-(2 ^ 31))) = 0#32 := by decide

private theorem clip9_zero : clip9 0#32 = 0#32 := by decide

private theorem bin_zero (t : Fin 2000000) :
    binK (fun _ => (0 : EReal)) 0 t = binR (fun _ => (0 : EReal)) 0 t := by
  have hK : binK (fun _ => (0 : EReal)) 0 t = 0#32 := by
    unfold binK binG lo hi
    rw [Finset.inf_const Finset.univ_nonempty, Finset.sup_const Finset.univ_nonempty]
    have h0 : Ideal.div ((0 : EReal) - 0) ((0 : EReal) - 0 + eps * 0) = ⊥ := by
      simp [Ideal.div]
    rw [h0, ten_eq, EReal.bot_mul_coe_of_pos (by norm_num)]
    have : Ideal.fptosi 32 ⊥ = BitVec.ofInt 32 (-(2 ^ 31)) := by
      simp [Ideal.fptosi]
    rw [this, clip9_min]
  have hR : binR (fun _ => (0 : EReal)) 0 t = 0#32 := by
    unfold binR lo hi
    have h0 : Ideal.div (0 : EReal) 0 = ⊥ := by simp [Ideal.div]
    simp only [h0]
    rw [Finset.inf_const Finset.univ_nonempty, Finset.sup_const Finset.univ_nonempty,
      EReal.bot_sub, EReal.bot_add]
    have h1 : Ideal.div (⊥ : EReal) ⊥ = 0 := by
      simp [Ideal.div, EReal.inv_bot]
    rw [h1, zero_mul]
    have : Ideal.fptosi 32 (0 : EReal) = 0#32 := by
      rw [Ideal.fptosi, ← EReal.coe_zero, Ideal.toIntClamped_coe]
      norm_num
    rw [this, clip9_zero]
  rw [hK, hR]

/-! ### Weighted row sums: nonnegative real weights, their total as the count -/

private theorem bin_weights (w : Fin 64 → ℝ) (hw : ∀ d, 0 ≤ w d) (xr : Fin 2000000 → Fin 64 → ℝ)
    (t : Fin 2000000) :
    binK (fun t => ((∑ d, w d * xr t d : ℝ) : EReal)) ((∑ d, w d : ℝ) : EReal) t
      = binR (fun t => ((∑ d, w d * xr t d : ℝ) : EReal)) ((∑ d, w d : ℝ) : EReal) t := by
  rcases (Finset.sum_nonneg (fun d _ => hw d)).eq_or_lt with h | h
  · -- the total is zero: every weight is zero, so every row sum is zero
    have hw0 : ∀ d, w d = 0 := fun d =>
      (Finset.sum_eq_zero_iff_of_nonneg (fun d _ => hw d)).1 h.symm d (Finset.mem_univ d)
    have hs : (fun t => ((∑ d, w d * xr t d : ℝ) : EReal)) = fun _ => (0 : EReal) := by
      funext u; simp [hw0]
    rw [hs, ← h, EReal.coe_zero]
    exact bin_zero t
  · exact bin_pos _ _ h t

/-! ### The two histograms -/

/-- With every entry of `x` a real number and every mask entry 0 or 1, the two histograms are the same array. -/
theorem KJ_eq_RJ (x : SX.Idx → EReal) (mk : SM.Idx → EReal) (hx : ∀ i, ∃ r : ℝ, x i = (r : EReal))
    (hmk : ∀ i, mk i = 0 ∨ mk i = 1) : KJ x mk = RJ x mk := by
  choose xr hxr using hx
  have hmk' : ∀ i, ∃ m : ℝ, mk i = (m : EReal) ∧ 0 ≤ m ∧ m ≤ 1 := by
    intro i
    rcases hmk i with h | h
    · exact ⟨0, by rw [h, EReal.coe_zero], le_rfl, zero_le_one⟩
    · exact ⟨1, by rw [h, EReal.coe_one], zero_le_one, le_rfl⟩
  choose m hm hm0 hm1 using hmk'
  have hcA : ∀ p, cA mk p = ((∑ d, m (ix2 p d) : ℝ) : EReal) := by
    intro p
    unfold cA
    rw [coe_sum]
    exact Finset.sum_congr rfl (fun d _ => hm _)
  have hA : (fun p => binK (sA x mk p) (cA mk p)) = fun p => binR (sA x mk p) (cA mk p) := by
    funext p t
    have hs : sA x mk p = fun t => ((∑ d, m (ix2 p d) * xr (ix2 t d) : ℝ) : EReal) := by
      funext u
      unfold sA
      rw [coe_sum]
      exact Finset.sum_congr rfl (fun d _ => by rw [hm, hxr, EReal.coe_mul])
    rw [hs, hcA]
    exact bin_weights (fun d => m (ix2 p d)) (fun d => hm0 _) (fun t d => xr (ix2 t d)) t
  have hB : (fun p => binK (sB x mk p) (c64 - cA mk p)) = fun p => binR (sB x mk p) (cB mk p) := by
    funext p t
    have hs : sB x mk p = fun t => ((∑ d, (1 - m (ix2 p d)) * xr (ix2 t d) : ℝ) : EReal) := by
      funext u
      unfold sB
      rw [coe_sum]
      exact Finset.sum_congr rfl
        (fun d _ => by rw [hm, hxr, one_eq, EReal.coe_mul, EReal.coe_sub, EReal.coe_one])
    have hcB : cB mk p = ((∑ d, (1 - m (ix2 p d)) : ℝ) : EReal) := by
      unfold cB
      rw [coe_sum]
      exact Finset.sum_congr rfl (fun d _ => by rw [hm, one_eq, EReal.coe_sub, EReal.coe_one])
    have hc64 : c64 - cA mk p = ((∑ d, (1 - m (ix2 p d)) : ℝ) : EReal) := by
      rw [hcA, c64_eq, ← EReal.coe_sub]
      refine congrArg (fun z : ℝ => (z : EReal)) ?_
      rw [Finset.sum_sub_distrib]
      simp
    rw [hs, hcB, hc64]
    exact bin_weights (fun d => 1 - m (ix2 p d)) (fun d => sub_nonneg.2 (hm1 _)) (fun t d => xr (ix2 t d)) t
  funext q
  unfold KJ RJ
  rw [hA, hB]

end Cert.MI

end
-- ==== Proof.Finite.lean ====
/-
  What the precondition says of the arguments: every entry of the float array is a real number; and every entry of
  the mask, converted to a float, is 0 or 1.
-/
import proofs.«135964_j5007931867607_1_alg».proof.Pre_finite_inputs
import proofs.«135964_j5007931867607_1_alg».proof.Proof.Gen.Pre_finite_inputs
import proofs.«135964_j5007931867607_1_alg».proof.Proof.Spec
import Idealize.ShloMosaic.Lib.ReduceAll

noncomputable section

namespace Cert.MI

open Idealize.ShloMosaic Idealize.ShloMosaic.ValueIdx

/-- The result of the reduction over both axes has a single index. -/
private instance : Subsingleton Cert.Pre_finite_inputs.S_.Idx := ⟨fun a b => funext fun d => d.elim0⟩

/-- The pattern 0x7F800000 denotes `+∞`. -/
private theorem inf_pattern : Ideal.ofBits .f32 0x7F800000#32 = (⊤ : EReal) := by
  simp [Ideal.ofBits, Ideal.ieee]

/-- An extended real whose absolute value `max x (−x)` is below `+∞` is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- If the precondition's predicate is all ones on `(x0, x1)`, every entry of `x0` is finite. -/
theorem finite_of_pre (x0 : FVec Ideal Cert.Pre_finite_inputs.S2000000x64 .f32) (x1 : IVec Cert.Pre_finite_inputs.S8x64 1)
    (h : Cert.Pre_finite_inputs.fn (F := Ideal) x0 x1 = fun _ => 1#1) : ∀ i, ∃ r : ℝ, x0 i = (r : EReal) := by
  intro i
  have h0 := congrFun h ValueIdx.ix0
  dsimp only [Cert.Pre_finite_inputs.fn] at h0
  have hi := Host.reduce_andi_all _ _ _ _ _ h0 i
  change Ideal.cmp .olt (max (x0 i) (-(x0 i))) (Ideal.ofBits .f32 0x7F800000#32) = 1#1 at hi
  rw [inf_pattern] at hi
  refine real_of_abs_lt_top (x0 i) ?_
  by_contra hn
  simp [Ideal.cmp, hn] at hi

/-- A one-bit mask converted to a float is 0 or 1 at every entry. -/
theorem mask01 (x1 : IVec SM 1) (i : SM.Idx) :
    (uitofp (F := Ideal) .f32 x1 : SM.Idx → EReal) i = 0 ∨ (uitofp (F := Ideal) .f32 x1 : SM.Idx → EReal) i = 1 := by
  show (((x1 i).toNat : ℝ) : EReal) = 0 ∨ (((x1 i).toNat : ℝ) : EReal) = 1
  have hb : (x1 i).toNat = 0 ∨ (x1 i).toNat = 1 := by
    have := (x1 i).isLt
    omega
  rcases hb with hb | hb
  · left
    rw [hb]
    simp
  · right
    rw [hb]
    simp

end Cert.MI

end
-- ==== Proof.lean ====
/-
  The certificate's five claims.

  The kernel program computes, in a first pass over the rows, each partition's least and greatest masked row sums
  (per half of the rows, then combined on the host), and in a second pass bins every row's two normalised sums and
  accumulates the joint histogram as products of one-hot vectors; the reference divides the sums by the counts,
  normalises, bins, and scatter-adds ones.  Over the extended reals the two binnings agree on finite inputs
  (Algebra), the one-hot products and the scatter count the same rows, and both programs apply the same closing
  chain to the histogram; so the results are equal.  The frames are the generated ones (the reference's is its run
  with the results dropped), and the idealisation rewrote nothing.
-/
import proofs.«135964_j5007931867607_1_alg».proof.Defs
import proofs.«135964_j5007931867607_1_alg».proof.Proof.Gen.Kernel
import proofs.«135964_j5007931867607_1_alg».proof.Proof.Gen.Kernel.Skeleton
import proofs.«135964_j5007931867607_1_alg».proof.Proof.Gen.Kernel.Launch
import proofs.«135964_j5007931867607_1_alg».proof.Proof.Gen.Kernel.Points
import proofs.«135964_j5007931867607_1_alg».proof.Proof.Gen.Kernel.Frame
import proofs.«135964_j5007931867607_1_alg».proof.Proof.Gen.KernelIdeal
import proofs.«135964_j5007931867607_1_alg».proof.Proof.Gen.KernelIdeal.Skeleton
import proofs.«135964_j5007931867607_1_alg».proof.Proof.Gen.KernelIdeal.Launch
import proofs.«135964_j5007931867607_1_alg».proof.Proof.Gen.KernelIdeal.Points
import proofs.«135964_j5007931867607_1_alg».proof.Proof.Gen.KernelIdeal.Frame
import proofs.«135964_j5007931867607_1_alg».proof.Proof.Gen.ReferenceIdeal
import proofs.«135964_j5007931867607_1_alg».proof.Proof.Gen.Pre_finite_inputs
import proofs.«135964_j5007931867607_1_alg».proof.Proof.KRun
import proofs.«135964_j5007931867607_1_alg».proof.Proof.KValue
import proofs.«135964_j5007931867607_1_alg».proof.Proof.RValue
import proofs.«135964_j5007931867607_1_alg».proof.Proof.Algebra
import proofs.«135964_j5007931867607_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.1, (h c).2.2.2⟩) (Cert.ReferenceIdeal.ValueP.run (F := Ideal) m ρ)

/-- Both programs end with the closing chain of one histogram: the kernel's of `KJ`, the reference's of `RJ`, of
    arguments that agree; on finite inputs and a 0/1 mask the two histograms are one array. -/
theorem algebraic : Cert.algebraic_KernelIdeal_ReferenceIdeal := by
  intro m ρ m' ρ' hpre hagree
  refine ⟨fun c => Cert.KernelIdeal.KV.tail43 (F := Ideal) (Cert.MI.KJ (m ((c.tc : Thread Cert.KernelIdeal.nD Cert.KernelIdeal.τ).loc Cert.KernelIdeal.main_arg0))
        (uitofp (F := Ideal) .f32 (m ((c.tc : Thread Cert.KernelIdeal.nD Cert.KernelIdeal.τ).loc Cert.KernelIdeal.main_arg1)) : Cert.MI.SM.Idx → EReal)),
      fun c => Cert.KernelIdeal.KV.tail42 (F := Ideal) (Cert.MI.KJ (m ((c.tc : Thread Cert.KernelIdeal.nD Cert.KernelIdeal.τ).loc Cert.KernelIdeal.main_arg0))
        (uitofp (F := Ideal) .f32 (m ((c.tc : Thread Cert.KernelIdeal.nD Cert.KernelIdeal.τ).loc Cert.KernelIdeal.main_arg1)) : Cert.MI.SM.Idx → EReal)), ?_, ?_⟩
  · exact (θ_run Cert.KernelIdeal.defs _ _).mono (fun _ h c => ⟨(h c).1.trans (Cert.KernelIdeal.KV.k43 m ρ c), (h c).2.1.trans (Cert.KernelIdeal.KV.k42 m ρ c), (h c).2.2.1, (h c).2.2.2⟩)
      (Cert.KernelIdeal.KRun.run_values (F := Ideal) m ρ)
  · refine (θ_run Cert.ReferenceIdeal.defs _ _).mono (fun _ h c => ⟨(h c).1.trans ?_, (h c).2.1.trans ?_, (h c).2.2.1, (h c).2.2.2⟩)
      (Cert.ReferenceIdeal.ValueP.run (F := Ideal) m' ρ')
    all_goals
      first
        | rw [Cert.ReferenceIdeal.RV.r91 m' c]
        | rw [Cert.ReferenceIdeal.RV.r90 m' c]
      rw [(hagree c).1, (hagree c).2]
      rw [← Cert.MI.KJ_eq_RJ _ _ (Cert.MI.finite_of_pre _ _ (hpre c)) (Cert.MI.mask01 _)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
